-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S1600000 : Shape := ⟨1, ![1600000]⟩
abbrev S100000 : Shape := ⟨1, ![100000]⟩
abbrev S2x128x64 : Shape := ⟨3, ![2, 128, 64]⟩
abbrev S2x64 : Shape := ⟨2, ![2, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S2x128x64 : S_.BroadcastsInDim S2x128x64 (![] : Fin 0 → Fin S2x128x64.rank)
  reducesTo_S2x128x64_S_d0_1_2 : S2x128x64.ReducesTo [0, 1, 2] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg10 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg7 : FVec F S2x128x64 .f32) (main_arg8 : FVec F S2x64 .f32) (main_arg9 : FVec F S64 .f32) (main_arg10 : FVec F S64 .f32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x128x64 .f32 := Host.absf main_arg7
  let main_cst_6 : FVec F S_ .f32 := constant S_ .f32 0x7F800000#32
  let main_v20 : FVec F S2x128x64 .f32 := broadcastInDim S2x128x64 ![] bcast_S_S2x128x64 main_cst_6
  let main_v21 : IVec S2x128x64 1 := cmpf .olt main_v19 main_v20
  let main_c_7 : IVec S_ 1 := constantI S_ 1 1#1
  let main_v22 : IVec S_ 1 := (fun x v => Host.reduce IntOp.andi x v reducesTo_S2x128x64_S_d0_1_2 h_S_) main_v21 main_c_7
  let main_v23 : IVec S_ 1 := andi main_v18 main_v22
  let main_v24 : FVec F S2x64 .f32 := Host.absf main_arg8
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_v29 : FVec F S64 .f32 := Host.absf main_arg9
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg10 main_v33

def fn {F : FTy → Type} [FloatOps F] (main_arg0 : FVec F S100000x64 .f32) (main_arg1 : FVec F S1600000x64 .f32) (main_arg2 : IVec S1600000 32) (main_arg3 : IVec S1600000 32) (main_arg4 : IVec S100000 32) (main_arg5 : FVec F S2x128x64 .f32) (main_arg6 : FVec F S2x64 .f32) (main_arg7 : FVec F S2x128x64 .f32) (main_arg8 : FVec F S2x64 .f32) (main_arg9 : FVec F S64 .f32) (main_arg10 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S2x128x64 .f32 := Host.absf main_arg5
  let main_cst_2 : FVec F S_ .f32 := constant S_ .f32 0x7F800000#32
  let main_v10 : FVec F S2x128x64 .f32 := broadcastInDim S2x128x64 ![] bcast_S_S2x128x64 main_cst_2
  let main_v11 : IVec S2x128x64 1 := cmpf .olt main_v9 main_v10
  let main_c_3 : IVec S_ 1 := constantI S_ 1 1#1
  let main_v12 : IVec S_ 1 := (fun x v => Host.reduce IntOp.andi x v reducesTo_S2x128x64_S_d0_1_2 h_S_) main_v11 main_c_3
  let main_v13 : IVec S_ 1 := andi main_v8 main_v12
  let main_v14 : FVec F S2x64 .f32 := Host.absf main_arg6
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg7 main_arg8 main_arg9 main_arg10 main_v13 main_v16
-- ==== Kernel.lean ====
abbrev S100000x64 : Shape := ⟨2, ![100000, 64]⟩
abbrev S1600000x64 : Shape := ⟨2, ![1600000, 64]⟩
abbrev S1600000 : Shape := ⟨1, ![1600000]⟩
abbrev S100000 : Shape := ⟨1, ![100000]⟩
abbrev S2x128x64 : Shape := ⟨3, ![2, 128, 64]⟩
abbrev S2x64 : Shape := ⟨2, ![2, 64]⟩
abbrev S64 : Shape := ⟨1, ![64]⟩
abbrev S1x64 : Shape := ⟨2, ![1, 64]⟩
abbrev S_ : Shape := ⟨0, ![]⟩
abbrev S1600000x1 : Shape := ⟨2, ![1600000, 1]⟩
abbrev S1x64x64 : Shape := ⟨3, ![1, 64, 64]⟩
abbrev S64x64 : Shape := ⟨2, ![64, 64]⟩
abbrev S12800x64 : Shape := ⟨2, ![12800, 64]⟩
abbrev S10000x64 : Shape := ⟨2, ![10000, 64]⟩
abbrev S10000 : Shape := ⟨1, ![10000]⟩
abbrev S10000x1 : Shape := ⟨2, ![10000, 1]⟩
abbrev S100000x1 : Shape := ⟨2, ![100000, 1]⟩
abbrev S16x64 : Shape := ⟨2, ![16, 64]⟩
abbrev S16x1 : Shape := ⟨2, ![16, 1]⟩
abbrev S10000x16 : Shape := ⟨2, ![10000, 16]⟩

abbrev nBuf : Space → Nat
  | .hbm => 79
  | .vmem => 46
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S2x128x64, .f32⟩
  | .hbm, ⟨6, _⟩ => ⟨S2x64, .f32⟩
  | .hbm, ⟨7, _⟩ => ⟨S2x128x64, .f32⟩
  | .hbm, ⟨8, _⟩ => ⟨S2x64, .f32⟩
  | .hbm, ⟨9, _⟩ => ⟨S64, .f32⟩
  | .hbm, ⟨10, _⟩ => ⟨S64, .f32⟩
  | .hbm, ⟨11, _⟩ => ⟨S1x64, .f32⟩
  | .hbm, ⟨12, _⟩ => ⟨S1x64, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1x64x64, .f32⟩
  | .hbm, ⟨23, _⟩ => ⟨S64x64, .f32⟩
  | .hbm, ⟨24, _⟩ => ⟨S1x64x64, .f32⟩
  | .hbm, ⟨25, _⟩ => ⟨S64x64, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S1x64x64, .f32⟩
  | .hbm, ⟨35, _⟩ => ⟨S64x64, .f32⟩
  | .hbm, ⟨36, _⟩ => ⟨S1x64x64, .f32⟩
  | .hbm, ⟨37, _⟩ => ⟨S64x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S1x64x64, .f32⟩
  | .hbm, ⟨52, _⟩ => ⟨S64x64, .f32⟩
  | .hbm, ⟨53, _⟩ => ⟨S1x64x64, .f32⟩
  | .hbm, ⟨54, _⟩ => ⟨S64x64, .f32⟩
  | .hbm, ⟨55, _⟩ => ⟨S1x64, .f32⟩
  | .hbm, ⟨56, _⟩ => ⟨S64, .f32⟩
  | .hbm, ⟨57, _⟩ => ⟨S1x64, .f32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64x64, .f32⟩
  | .hbm, ⟨64, _⟩ => ⟨S64x64, .f32⟩
  | .hbm, ⟨65, _⟩ => ⟨S1x64x64, .f32⟩
  | .hbm, ⟨66, _⟩ => ⟨S64x64, .f32⟩
  | .hbm, ⟨67, _⟩ => ⟨S1x64, .f32⟩
  | .hbm, ⟨68, _⟩ => ⟨S64, .f32⟩
  | .hbm, ⟨69, _⟩ => ⟨S1x64, .f32⟩
  | .hbm, ⟨70, _⟩ => ⟨S100000x64, .f32⟩
  | .hbm, ⟨71, _⟩ => ⟨S100000x1, .i32⟩
  | .hbm, ⟨72, _⟩ => ⟨S16x64, .f32⟩
  | .hbm, ⟨73, _⟩ => ⟨S16x1, .f32⟩
  | .hbm, ⟨74, _⟩ => ⟨S_, .f32⟩
  | .hbm, ⟨75, _⟩ => ⟨S16x1, .f32⟩
  | .hbm, ⟨76, _⟩ => ⟨S16x1, .f32⟩
  | .hbm, ⟨77, _⟩ => ⟨S16x64, .f32⟩
  | .hbm, ⟨78, _⟩ => ⟨S16x64, .f32⟩
  | .local _ .vmem, ⟨0, _⟩ => ⟨S12800x64, .f32⟩
  | .local _ .vmem, ⟨1, _⟩ => ⟨S12800x64, .f32⟩
  | .local _ .vmem, ⟨2, _⟩ => ⟨S12800x64, .f32⟩
  | .local _ .vmem, ⟨3, _⟩ => ⟨S12800x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S12800x64, .f32⟩
  | .local _ .vmem, ⟨8, _⟩ => ⟨S12800x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S12800x64, .f32⟩
  | .local _ .vmem, ⟨21, _⟩ => ⟨S12800x64, .f32⟩
  | .local _ .vmem, ⟨22, _⟩ => ⟨S12800x64, .f32⟩
  | .local _ .vmem, ⟨23, _⟩ => ⟨S12800x64, .f32⟩
  | .local _ .vmem, ⟨24, _⟩ => ⟨S64x64, .f32⟩
  | .local _ .vmem, ⟨25, _⟩ => ⟨S64x64, .f32⟩
  | .local _ .vmem, ⟨26, _⟩ => ⟨S1x64, .f32⟩
  | .local _ .vmem, ⟨27, _⟩ => ⟨S12800x64, .f32⟩
  | .local _ .vmem, ⟨28, _⟩ => ⟨S12800x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S64x64, .f32⟩
  | .local _ .vmem, ⟨34, _⟩ => ⟨S64x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x1, .i32⟩
  | .local _ .vmem, ⟨43, _⟩ => ⟨S10000x1, .i32⟩
  | .local _ .vmem, ⟨44, _⟩ => ⟨S16x64, .f32⟩
  | .local _ .vmem, ⟨45, _⟩ => ⟨S16x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_1 : Ref sig .tc := ⟨.hbm, 42, rfl⟩
abbrev main_v28 : Ref sig .tc := ⟨.hbm, 43, rfl⟩
abbrev main_v29 : Ref sig .tc := ⟨.hbm, 44, rfl⟩
abbrev main_c_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_3 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55_0 : Ref sig .tc := ⟨.hbm, 72, rfl⟩
abbrev main_v55_1 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S12800x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S12800x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  shapeCasts_S64_S1x64 : S64.ShapeCasts S1x64
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x128x64_S1x64x64_0_0_0 : S2x128x64.Slices ![0, 0, 0] S1x64x64
  shapeCasts_S1x64x64_S64x64 : S1x64x64.ShapeCasts S64x64
  slices_S2x128x64_S1x64x64_0_64_0 : S2x128x64.Slices ![0, 64, 0] S1x64x64
  slices_S2x64_S1x64_0_0 : S2x64.Slices ![0, 0] S1x64
  shapeCasts_S1x64_S64 : S1x64.ShapeCasts S64
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  slices_S2x128x64_S1x64x64_1_0_0 : S2x128x64.Slices ![1, 0, 0] S1x64x64
  slices_S2x128x64_S1x64x64_1_64_0 : S2x128x64.Slices ![1, 64, 0] S1x64x64
  slices_S2x64_S1x64_1_0 : S2x64.Slices ![1, 0] S1x64
  shapeCasts_S100000_S100000x1 : S100000.ShapeCasts S100000x1
  inb_S16x64_S16x64_0_0 : ∀ a, (![0, 0] : Fin 2 → Nat) a + S16x64.size a ≤ S16x64.size a
  h_S16x64 : 0 < S16x64.numel
  inb_S16x1_S16x1_0_0 : ∀ a, (![0, 0] : Fin 2 → Nat) a + S16x1.size a ≤ S16x1.size a
  h_S16x1 : 0 < S16x1.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x16_d1_w32 : S10000x16.Iotas .tc 32 [1]
  broadcasts_S10000x1_S10000x16 : S10000x1.Broadcasts S10000x16
  natLt_1_32 : 1 < 32
  shapeCasts_S16x64_S16x64 : S16x64.ShapeCasts S16x64
  shapeCasts_S16x1_S16x1 : S16x1.ShapeCasts S16x1
  bcast_S_S16x1 : S_.BroadcastsInDim S16x1 (![] : Fin 0 → Fin S16x1.rank)
  bcast_S16x1_S16x64_0_1 : S16x1.BroadcastsInDim S16x64 (![0, 1] : Fin 2 → Fin S16x64.rank)
  gather_S100000x64_S1600000x1_S1600000x64_1_0_n_n_0_1_164_wf : GatherDims.WF S100000x64 S1600000x1 S1600000x64 [1] [0] [] [0] [] 1 ![1, 64]
  dot_S12800x64_S64x64_S12800x64_1_0_0_1_n_n_wf : DotDims.WF S12800x64 S64x64 S12800x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x16_S10000x64_S16x64_0_0_1_1_n_n_wf : DotDims.WF S10000x16 S10000x64 S16x64 [0] [0] [1] [1] [] []
  dot_S10000x16_S10000x1_S16x1_0_0_1_1_n_n_wf : DotDims.WF S10000x16 S10000x1 S16x1 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x64.size a ≤ S1600000x64.size a
  hwx0_1 : ∀ i : grid0.Coords, EltTy.bits .f32 = 32 ∨ (Rect.block (s := S1600000x64) S12800x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S12800x64.size a ≤ S1600000x64.size a
  hwx0_5 : ∀ i : grid0.Coords, EltTy.bits .f32 = 32 ∨ (Rect.block (s := S1600000x64) S12800x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12800x64.size a ≤ S1600000x64.size a
  hwx2_0 : ∀ i : grid2.Coords, EltTy.bits .f32 = 32 ∨ (Rect.block (s := S1600000x64) S12800x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12800x64.size a ≤ S1600000x64.size a
  hwx2_1 : ∀ i : grid2.Coords, EltTy.bits .f32 = 32 ∨ (Rect.block (s := S1600000x64) S12800x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S12800x64.size a ≤ S1600000x64.size a
  hwx2_5 : ∀ i : grid2.Coords, EltTy.bits .f32 = 32 ∨ (Rect.block (s := S1600000x64) S12800x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .i32 = 32 ∨ (Rect.block (s := S100000x1) S10000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S16x64.size a ≤ S16x64.size a
  hwx4_2 : ∀ i : grid4.Coords, EltTy.bits .f32 = 32 ∨ (Rect.block (s := S16x64) S16x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x1.size a ≤ S16x1.size a
  hwx4_3 : ∀ i : grid4.Coords, EltTy.bits .f32 = 32 ∨ (Rect.block (s := S16x1) S16x1.size (cc4_transform_3 i) (hinb4_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S12800x64_S64x64_S12800x64_1_0_0_1_n_n : DotDims S12800x64 S64x64 S12800x64 where
  lhsContracting := [1]
  rhsContracting := [0]
  lhsNonContracting := [0]
  rhsNonContracting := [1]
  lhsBatch := []
  rhsBatch := []
  wf := dot_S12800x64_S64x64_S12800x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x16_S10000x64_S16x64_0_0_1_1_n_n : DotDims S10000x16 S10000x64 S16x64 where
  lhsContracting := [0]
  rhsContracting := [0]
  lhsNonContracting := [1]
  rhsNonContracting := [1]
  lhsBatch := []
  rhsBatch := []
  wf := dot_S10000x16_S10000x64_S16x64_0_0_1_1_n_n_wf
def dot_S10000x16_S10000x1_S16x1_0_0_1_1_n_n : DotDims S10000x16 S10000x1 S16x1 where
  lhsContracting := [0]
  rhsContracting := [0]
  lhsNonContracting := [1]
  rhsNonContracting := [1]
  lhsBatch := []
  rhsBatch := []
  wf := dot_S10000x16_S10000x1_S16x1_0_0_1_1_n_n_wf

abbrev win0_0 : Pipeline.Window sig grid0 :=
  Pipeline.Window.ofSpec (Memref.whole main_v8) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S12800x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S12800x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v27) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v34) S12800x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S12800x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S12800x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v27) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v0) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v1) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v53) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v53) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55_0) S16x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v55_1) S16x1.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S1600000 : Shape := ⟨1, ![1600000]⟩
abbrev S100000 : Shape := ⟨1, ![100000]⟩
abbrev S2x128x64 : Shape := ⟨3, ![2, 128, 64]⟩
abbrev S2x64 : Shape := ⟨2, ![2, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128x64 : Shape := ⟨3, ![1, 128, 64]⟩
abbrev S128x64 : Shape := ⟨2, ![128, 64]⟩
abbrev S1x64 : Shape := ⟨2, ![1, 64]⟩
abbrev S100000x128 : Shape := ⟨2, ![100000, 128]⟩
abbrev S100000x1 : Shape := ⟨2, ![100000, 1]⟩
abbrev S16 : Shape := ⟨1, ![16]⟩
abbrev S16x64 : Shape := ⟨2, ![16, 64]⟩
abbrev S16x1 : Shape := ⟨2, ![16, 1]⟩

abbrev nBuf : Space → Nat
  | .hbm => 161
  | .vmem => 0
  | .smem => 0
  | _ => 0

abbrev hbmTy0_0 (i : Nat) : BufTy := match i % 128 with
  | 0 => ⟨S100000x64, .f32⟩
  | 1 => ⟨S1600000x64, .f32⟩
  | 2 => ⟨S1600000, .i32⟩
  | 3 => ⟨S1600000, .i32⟩
  | 4 => ⟨S100000, .i32⟩
  | 5 => ⟨S2x128x64, .f32⟩
  | 6 => ⟨S2x64, .f32⟩
  | 7 => ⟨S2x128x64, .f32⟩
  | 8 => ⟨S2x64, .f32⟩
  | 9 => ⟨S64, .f32⟩
  | 10 => ⟨S64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x64, .f32⟩
  | 20 => ⟨S1600000x128, .f32⟩
  | 21 => ⟨S1x128x64, .f32⟩
  | 22 => ⟨S128x64, .f32⟩
  | 23 => ⟨S1600000x64, .f32⟩
  | 24 => ⟨S1x64, .f32⟩
  | 25 => ⟨S64, .f32⟩
  | 26 => ⟨S1x64, .f32⟩
  | 27 => ⟨S1600000x64, .f32⟩
  | 28 => ⟨S1600000x64, .f32⟩
  | 29 => ⟨S_, .f32⟩
  | 30 => ⟨S1600000x64, .f32⟩
  | 31 => ⟨S1600000x64, .f32⟩
  | 32 => ⟨S_, .f32⟩
  | 33 => ⟨S100000x64, .f32⟩
  | 34 => ⟨S1600000x1, .i32⟩
  | 35 => ⟨S100000x64, .f32⟩
  | 36 => ⟨S100000x128, .f32⟩
  | 37 => ⟨S1x128x64, .f32⟩
  | 38 => ⟨S128x64, .f32⟩
  | 39 => ⟨S100000x64, .f32⟩
  | 40 => ⟨S100000x64, .f32⟩
  | 41 => ⟨S1x64, .f32⟩
  | 42 => ⟨S64, .f32⟩
  | 43 => ⟨S1x64, .f32⟩
  | 44 => ⟨S100000x64, .f32⟩
  | 45 => ⟨S100000x64, .f32⟩
  | 46 => ⟨S_, .f32⟩
  | 47 => ⟨S100000x64, .f32⟩
  | 48 => ⟨S100000x64, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x64, .f32⟩
  | 56 => ⟨S100000x64, .f32⟩
  | 57 => ⟨S100000x64, .f32⟩
  | 58 => ⟨S_, .f32⟩
  | 59 => ⟨S100000, .f32⟩
  | 60 => ⟨S100000x1, .f32⟩
  | 61 => ⟨S_, .f32⟩
  | 62 => ⟨S100000x1, .f32⟩
  | 63 => ⟨S100000x1, .f32⟩
  | 64 => ⟨S100000x64, .f32⟩
  | 65 => ⟨S100000x64, .f32⟩
  | 66 => ⟨S_, .f32⟩
  | 67 => ⟨S100000x1, .f32⟩
  | 68 => ⟨S100000x1, .f32⟩
  | 69 => ⟨S100000x1, .f32⟩
  | 70 => ⟨S100000x64, .f32⟩
  | 71 => ⟨S100000x64, .f32⟩
  | 72 => ⟨S1x64, .f32⟩
  | 73 => ⟨S100000x64, .f32⟩
  | 74 => ⟨S100000x64, .f32⟩
  | 75 => ⟨S1x64, .f32⟩
  | 76 => ⟨S100000x64, .f32⟩
  | 77 => ⟨S100000x64, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000x64, .f32⟩
  | 87 => ⟨S1600000x128, .f32⟩
  | 88 => ⟨S1x128x64, .f32⟩
  | 89 => ⟨S128x64, .f32⟩
  | 90 => ⟨S1600000x64, .f32⟩
  | 91 => ⟨S1x64, .f32⟩
  | 92 => ⟨S64, .f32⟩
  | 93 => ⟨S1x64, .f32⟩
  | 94 => ⟨S1600000x64, .f32⟩
  | 95 => ⟨S1600000x64, .f32⟩
  | 96 => ⟨S_, .f32⟩
  | 97 => ⟨S1600000x64, .f32⟩
  | 98 => ⟨S1600000x64, .f32⟩
  | 99 => ⟨S_, .f32⟩
  | 100 => ⟨S100000x64, .f32⟩
  | 101 => ⟨S1600000x1, .i32⟩
  | 102 => ⟨S100000x64, .f32⟩
  | 103 => ⟨S100000x128, .f32⟩
  | 104 => ⟨S1x128x64, .f32⟩
  | 105 => ⟨S128x64, .f32⟩
  | 106 => ⟨S100000x64, .f32⟩
  | 107 => ⟨S100000x64, .f32⟩
  | 108 => ⟨S1x64, .f32⟩
  | 109 => ⟨S64, .f32⟩
  | 110 => ⟨S1x64, .f32⟩
  | 111 => ⟨S100000x64, .f32⟩
  | 112 => ⟨S100000x64, .f32⟩
  | 113 => ⟨S_, .f32⟩
  | 114 => ⟨S100000x64, .f32⟩
  | 115 => ⟨S100000x64, .f32⟩
  | 116 => ⟨S_, .f32⟩
  | 117 => ⟨S100000, .f32⟩
  | 118 => ⟨S100000x1, .f32⟩
  | 119 => ⟨S_, .f32⟩
  | 120 => ⟨S100000x1, .f32⟩
  | 121 => ⟨S100000x1, .f32⟩
  | 122 => ⟨S100000x64, .f32⟩
  | 123 => ⟨S100000x64, .f32⟩
  | 124 => ⟨S100000x64, .f32⟩
  | 125 => ⟨S_, .f32⟩
  | 126 => ⟨S100000, .f32⟩
  | 127 => ⟨S100000x1, .f32⟩
  | _ => ⟨S100000x64, .f32⟩

abbrev hbmTy0_1 (i : Nat) : BufTy := match i % 128 with
  | 0 => ⟨S_, .f32⟩
  | 1 => ⟨S100000x1, .f32⟩
  | 2 => ⟨S100000x1, .f32⟩
  | 3 => ⟨S100000x64, .f32⟩
  | 4 => ⟨S100000x64, .f32⟩
  | 5 => ⟨S_, .f32⟩
  | 6 => ⟨S100000x1, .f32⟩
  | 7 => ⟨S100000x1, .f32⟩
  | 8 => ⟨S100000x1, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S1x64, .f32⟩
  | 15 => ⟨S100000x64, .f32⟩
  | 16 => ⟨S100000x64, .f32⟩
  | 17 => ⟨S_, .f32⟩
  | 18 => ⟨S100000, .f32⟩
  | 19 => ⟨S_, .f32⟩
  | 20 => ⟨S16, .f32⟩
  | 21 => ⟨S100000x1, .i32⟩
  | 22 => ⟨S16, .f32⟩
  | 23 => ⟨S_, .f32⟩
  | 24 => ⟨S16x64, .f32⟩
  | 25 => ⟨S100000x1, .i32⟩
  | 26 => ⟨S16x64, .f32⟩
  | 27 => ⟨S_, .f32⟩
  | 28 => ⟨S16, .f32⟩
  | 29 => ⟨S16, .f32⟩
  | 30 => ⟨S16x1, .f32⟩
  | 31 => ⟨S16x64, .f32⟩
  | 32 => ⟨S16x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_cst_2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_6 : Ref sig .tc := ⟨.hbm, 78, rfl⟩
abbrev main_v55 : Ref sig .tc := ⟨.hbm, 79, rfl⟩
abbrev main_v56 : Ref sig .tc := ⟨.hbm, 80, rfl⟩
abbrev main_c_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call2_cst : Ref sig .tc := ⟨.hbm, 96, rfl⟩
abbrev main_call2_v0 : Ref sig .tc := ⟨.hbm, 97, rfl⟩
abbrev main_v71 : Ref sig .tc := ⟨.hbm, 98, rfl⟩
abbrev main_cst_8 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call3_cst : Ref sig .tc := ⟨.hbm, 113, rfl⟩
abbrev main_call3_v0 : Ref sig .tc := ⟨.hbm, 114, rfl⟩
abbrev main_v85 : Ref sig .tc := ⟨.hbm, 115, rfl⟩
abbrev main_cst_9 : Ref sig .tc := ⟨.hbm, 116, rfl⟩
abbrev main_v86 : Ref sig .tc := ⟨.hbm, 117, rfl⟩
abbrev main_v87 : Ref sig .tc := ⟨.hbm, 118, rfl⟩
abbrev main_cst_10 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_cst_12 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_13 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_14 : Ref sig .tc := ⟨.hbm, 145, rfl⟩
abbrev main_v110 : Ref sig .tc := ⟨.hbm, 146, rfl⟩
abbrev main_cst_15 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_16 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_17 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  slices_S2x128x64_S1x128x64_0_0_0 : S2x128x64.Slices ![0, 0, 0] S1x128x64
  shapeCasts_S1x128x64_S128x64 : S1x128x64.ShapeCasts S128x64
  slices_S2x64_S1x64_0_0 : S2x64.Slices ![0, 0] S1x64
  shapeCasts_S1x64_S64 : S1x64.ShapeCasts S64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  concatenates_S100000x64_S100000x64_S100000x128_d1 : Shape.Concatenates [S100000x64, S100000x64] S100000x128 1
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S2x128x64_S1x128x64_1_0_0 : S2x128x64.Slices ![1, 0, 0] S1x128x64
  slices_S2x64_S1x64_1_0 : S2x64.Slices ![1, 0] S1x64
  bcast_S_S100000 : S_.BroadcastsInDim S100000 (![] : Fin 0 → Fin S100000.rank)
  bcast_S_S16 : S_.BroadcastsInDim S16 (![] : Fin 0 → Fin S16.rank)
  bcast_S_S16x64 : S_.BroadcastsInDim S16x64 (![] : Fin 0 → Fin S16x64.rank)
  bcast_S16_S16x1_0 : S16.BroadcastsInDim S16x1 (![0] : Fin 1 → Fin S16x1.rank)
  bcast_S16x1_S16x64_0_1 : S16x1.BroadcastsInDim S16x64 (![0, 1] : Fin 2 → Fin S16x64.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1
  dot_S100000x128_S128x64_S100000x64_1_0_0_1_n_n_wf : DotDims.WF S100000x128 S128x64 S100000x64 [1] [0] [0] [1] [] []
  scatter_S16_S100000x1_S100000_n_0_0_1_wf : ScatterDims.WF S16 S100000x1 S100000 [] [0] [0] 1
  scatter_S16x64_S100000x1_S100000x64_1_0_0_1_wf : ScatterDims.WF S16x64 S100000x1 S100000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S16_S100000x1_S100000_n_0_0_1 : ScatterDims S16 S100000x1 S100000 where
  updateWindowDims := []
  insertedWindowDims := [0]
  scatterDimsToOperandDims := [0]
  indexVectorDim := 1
  wf := scatter_S16_S100000x1_S100000_n_0_0_1_wf
def scatter_S16x64_S100000x1_S100000x64_1_0_0_1 : ScatterDims S16x64 S100000x1 S100000x64 where
  updateWindowDims := [1]
  insertedWindowDims := [0]
  scatterDimsToOperandDims := [0]
  indexVectorDim := 1
  wf := scatter_S16x64_S100000x1_S100000x64_1_0_0_1_wf

class Facts : Prop extends Facts₀ where

variable [Facts]
-- ==== Proof.Spec.lean ====
/-
  The mathematics both programs compute, stage by stage, as functions of array entries over the extended reals.

  A graph network on 100000 nodes and 1600000 edges, features of width 64, two rounds, then a mean per graph:

  * gather   : each edge takes the row of its source node (the index word wrapped when negative, then clamped);
  * message  : relu (s · W₁ + e · W₂ + b) per edge, W₁ and W₂ the upper and lower halves of a 128 × 64 matrix;
  * segment  : each node adds up the messages of the edges that point at it;
  * update   : relu (h + (h · W₁ + p · W₂ + b)), then normalised along the 64 features (mean and variance as
               sums divided by 64, a small constant added under the reciprocal square root), scaled and shifted;
  * pool     : per graph, the sum of its nodes' rows divided by (its number of nodes, at least 1).

  Sums are `Finset` sums in the additive monoid of the extended reals, so they can be split, regrouped and reordered freely.
-/
import Idealize.ShloMosaic.PureOps.Ideal
import Idealize.ShloMosaic.Lib.ValueIdx

noncomputable section

open scoped BigOperators

namespace Cert.Gnn

open Idealize.ShloMosaic Idealize.ShloMosaic.ValueIdx

/-- Real-valued arrays of rank 1, 2, 3 over literal extents, and arrays of 32-bit words of rank 1. -/
abbrev Arr1 (A : Nat) : Type := (⟨1, ![A]⟩ : Shape).Idx → EReal
abbrev Arr2 (A B : Nat) : Type := (⟨2, ![A, B]⟩ : Shape).Idx → EReal
abbrev Arr3 (A B C : Nat) : Type := (⟨3, ![A, B, C]⟩ : Shape).Idx → EReal
abbrev Wrd1 (A : Nat) : Type := (⟨1, ![A]⟩ : Shape).Idx → BitVec 32

/-- A rank-2 array from its entries by (row, column). -/
def arr2 {A B : Nat} (f : Fin A → Fin B → EReal) : Arr2 A B := fun i => f (i 0) (i 1)

theorem arr2_apply {A B : Nat} (f : Fin A → Fin B → EReal) (p : Fin A) (q : Fin B) : arr2 f (ix2 p q) = f p q := rfl

/-- The two float words that are not 0 or 1: 64 and the normalisation's small constant. -/
abbrev w64 : EReal := Ideal.ofBits .f32 0x42800000#32
abbrev wEps : EReal := Ideal.ofBits .f32 0x3A83126F#32

/-! ## Slices of the parameters -/

/-- Rows 0..63 of matrix `hop` of a stack of two 128 × 64 matrices. -/
def wTop (W : Arr3 2 128 64) (hop : Fin 2) : Arr2 64 64 :=
  fun i => W (ix3 hop (⟨(i 0).val, Nat.lt_of_lt_of_le (idx2_lt0 i) (by decide)⟩ : Fin 128) (i 1))
/-- Rows 64..127 of matrix `hop`. -/
def wBot (W : Arr3 2 128 64) (hop : Fin 2) : Arr2 64 64 :=
  fun i => W (ix3 hop (⟨64 + (i 0).val, by have := idx2_lt0 i; omega⟩ : Fin 128) (i 1))
/-- Row `hop` of a 2 × 64 array, as a 1 × 64 array. -/
def bRow (b : Arr2 2 64) (hop : Fin 2) : Arr2 1 64 := fun i => b (ix2 hop (i 1))
/-- A vector of 64 as a 1 × 64 array. -/
def vRow (g : Arr1 64) : Arr2 1 64 := fun i => g (ix1 (i 1))

/-! ## Gather -/

/-- An index word as jax reads it: a negative word has the axis length 100000 added. -/
def wrapWord (v : BitVec 32) : BitVec 32 := Scalar.select (IntOp.cmpi .slt v 0#32) (IntOp.addi v 100000#32) v

/-- Edge `e` takes row `clamp (wrap src[e])` of `h`. -/
def gatherAt (h : Arr2 100000 64) (src : Wrd1 1600000) (e : Fin 1600000) (j : Fin 64) : EReal :=
  h (ix2 (⟨min (wrapWord (src (ix1 e))).toInt.toNat (100000 - 1), by omega⟩ : Fin 100000) j)
def gatherArr (h : Arr2 100000 64) (src : Wrd1 1600000) : Arr2 1600000 64 := arr2 (gatherAt h src)

/-! ## Message -/

/-- relu ((s · w₁ + e · w₂) + b) at (row, column), for any number of rows. -/
def msgAt {R : Nat} (s ee : Arr2 R 64) (w1 w2 : Arr2 64 64) (b : Arr2 1 64) (e : Fin R) (j : Fin 64) : EReal :=
  max (((∑ k : Fin 64, s (ix2 e k) * w1 (ix2 k j)) + (∑ k : Fin 64, ee (ix2 e k) * w2 (ix2 k j))) + b (ix2 0 j)) 0
def msgArr {R : Nat} (s ee : Arr2 R 64) (w1 w2 : Arr2 64 64) (b : Arr2 1 64) : Arr2 R 64 := arr2 (msgAt s ee w1 w2 b)

/-! ## Segment sum -/

/-- Segment `n` adds the rows whose index word, read signed, is `n`. -/
def segAt {M N : Nat} (x : Arr2 M 64) (tgt : Wrd1 M) (n : Fin N) (j : Fin 64) : EReal :=
  ∑ e ∈ Finset.univ.filter (fun e : Fin M => (tgt (ix1 e)).toInt = (n.val : ℤ)), x (ix2 e j)
def segArr {M : Nat} (N : Nat) (x : Arr2 M 64) (tgt : Wrd1 M) : Arr2 N 64 := arr2 (segAt x tgt)

/-! ## Update -/

/-- relu (h + ((h · w₁ + p · w₂) + b)) at (row, column). -/
def preAt {R : Nat} (h p : Arr2 R 64) (w1 w2 : Arr2 64 64) (b : Arr2 1 64) (n : Fin R) (j : Fin 64) : EReal :=
  max (h (ix2 n j) + (((∑ k : Fin 64, h (ix2 n k) * w1 (ix2 k j)) + (∑ k : Fin 64, p (ix2 n k) * w2 (ix2 k j))) + b (ix2 0 j))) 0

/-- The mean of 64 numbers: their sum divided by the word 64. -/
def meanAt (x : Fin 64 → EReal) : EReal := Ideal.div (∑ k : Fin 64, x k) w64

/-- Normalisation along the 64 features, scaled and shifted. -/
def normAt (x g bt : Fin 64 → EReal) (j : Fin 64) : EReal :=
  ((x j - meanAt x) * Ideal.rsqrt (meanAt (fun k => (x k - meanAt x) * (x k - meanAt x)) + wEps)) * g j + bt j

def updAt {R : Nat} (h p : Arr2 R 64) (w1 w2 : Arr2 64 64) (b gm bt : Arr2 1 64) (n : Fin R) (j : Fin 64) : EReal :=
  normAt (fun k => preAt h p w1 w2 b n k) (fun k => gm (ix2 0 k)) (fun k => bt (ix2 0 k)) j
def updArr {R : Nat} (h p : Arr2 R 64) (w1 w2 : Arr2 64 64) (b gm bt : Arr2 1 64) : Arr2 R 64 := arr2 (updAt h p w1 w2 b gm bt)

/-! ## One round -/

def hopArr (hop : Fin 2) (h : Arr2 100000 64) (ee : Arr2 1600000 64) (src tgt : Wrd1 1600000)
    (Wm : Arr3 2 128 64) (bm : Arr2 2 64) (Wr : Arr3 2 128 64) (br : Arr2 2 64) (gamma beta : Arr1 64) : Arr2 100000 64 :=
  updArr h (segArr 100000 (msgArr (gatherArr h src) ee (wTop Wm hop) (wBot Wm hop) (bRow bm hop)) tgt)
    (wTop Wr hop) (wBot Wr hop) (bRow br hop) (vRow gamma) (vRow beta)

/-! ## Pool -/

/-- The number of nodes of graph `g`. -/
def cntAt {M N : Nat} (gid : Wrd1 M) (g : Fin N) : EReal :=
  ∑ _n ∈ Finset.univ.filter (fun n : Fin M => (gid (ix1 n)).toInt = (g.val : ℤ)), (1 : EReal)

/-- Graph `g`'s mean row: the sum of its nodes' rows over (its node count, at least 1). -/
def poolAt (h : Arr2 100000 64) (gid : Wrd1 100000) (g : Fin 16) (j : Fin 64) : EReal :=
  Ideal.div (segAt h gid g j) (max (cntAt gid g) 1)
def poolArr (h : Arr2 100000 64) (gid : Wrd1 100000) : Arr2 16 64 := arr2 (poolAt h gid)

/-! ## The whole computation -/

def G (h0 : Arr2 100000 64) (ee : Arr2 1600000 64) (src tgt : Wrd1 1600000) (gid : Wrd1 100000)
    (Wm : Arr3 2 128 64) (bm : Arr2 2 64) (Wr : Arr3 2 128 64) (br : Arr2 2 64) (gamma beta : Arr1 64) : Arr2 16 64 :=
  poolArr (hopArr 1 (hopArr 0 h0 ee src tgt Wm bm Wr br gamma beta) ee src tgt Wm bm Wr br gamma beta) gid

end Cert.Gnn

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.StageOps.lean ====
/-
  The host's index-driven stages, as each program spells them, are the stage functions of the specification:
  the gather of source rows (index words wrapped then clamped), the segment sum of messages into nodes, and the two
  segment sums of the final pooling (rows into graphs; ones into graph sizes). Stated over any dimension-number record
  with the right fields, so that both programs' records serve.
-/
import proofs.«409774_j1357209666175_2_alg».proof.Proof.Spec
import proofs.«409774_j1357209666175_2_alg».proof.Proof.LibSegmentSum
import Idealize.ShloMosaic.Lib.Pipeline.Value
import Idealize.ShloMosaic.Lib.IdealHost

noncomputable section

open scoped BigOperators

namespace Cert.Gnn

open Idealize.ShloMosaic Idealize.ShloMosaic.ValueIdx

/-- x[src] of the node array: the wrap (compare with 0, add 100000, select) and the gather of rows are `gatherArr`. -/
theorem gather_stage
    (d : GatherDims ⟨2, ![100000, 64]⟩ ⟨2, ![1600000, 1]⟩ ⟨2, ![1600000, 64]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, 64])
    (hb0 : (⟨0, ![]⟩ : Shape).BroadcastsInDim ⟨1, ![1600000]⟩ (![] : Fin 0 → Fin 1))
    (hb1 : (⟨1, ![1600000]⟩ : Shape).BroadcastsInDim ⟨2, ![1600000, 1]⟩ (![0] : Fin 1 → Fin 2))
    (h : Arr2 100000 64) (src : Wrd1 1600000) :
    Host.gather d h (broadcastInDim ⟨2, ![1600000, 1]⟩ ![0] hb1
      (select (cmpi .slt src (broadcastInDim ⟨1, ![1600000]⟩ ![] hb0 (constantI ⟨0, ![]⟩ 32 0#32)))
              (addi src (broadcastInDim ⟨1, ![1600000]⟩ ![] hb0 (constantI ⟨0, ![]⟩ 32 100000#32))) src))
    = gatherArr h src := by
  funext i
  obtain ⟨p, q, rfl⟩ : ∃ p q, i = ix2 p q := ⟨i 0, i 1, eq_ix2 i⟩
  -- the gather of rows at (edge, column): the row the table's word names, read signed and clamped
  rw [Cert.LibSegmentSum.gather_rows d hoff hcoll hob hsb hsim hivd hss h _ p q (by decide)]
  -- the table at (edge, 0) is the wrapped word at the edge
  have hw : broadcastInDim ⟨2, ![1600000, 1]⟩ ![0] hb1
      (select (cmpi .slt src (broadcastInDim ⟨1, ![1600000]⟩ ![] hb0 (constantI ⟨0, ![]⟩ 32 0#32)))
              (addi src (broadcastInDim ⟨1, ![1600000]⟩ ![] hb0 (constantI ⟨0, ![]⟩ 32 100000#32))) src) (ix2 p 0)
      = wrapWord (src (ix1 p)) :=
    broadcastInDim_apply ![0] hb1 _ (ix2 p 0) (ix1 p) (fun a => by match a with | ⟨0, _⟩ => rfl)
  simp only [hw]
  rfl

/-- segment_sum of edge rows into the 100000 nodes, from the zero array. -/
theorem seg_stage
    (d : ScatterDims ⟨2, ![100000, 64]⟩ ⟨2, ![1600000, 1]⟩ ⟨2, ![1600000, 64]⟩)
    (huw : d.updateWindowDims = [1]) (hiw : d.insertedWindowDims = [0]) (hsd : d.scatterDimsToOperandDims = [0]) (hiv : d.indexVectorDim = 1)
    (hz : (⟨0, ![]⟩ : Shape).BroadcastsInDim ⟨2, ![100000, 64]⟩ (![] : Fin 0 → Fin 2))
    (hb1 : (⟨1, ![1600000]⟩ : Shape).BroadcastsInDim ⟨2, ![1600000, 1]⟩ (![0] : Fin 1 → Fin 2))
    (x : Arr2 1600000 64) (tgt : Wrd1 1600000) :
    Host.scatterAdd (F := Ideal) (φ := .f32) d
      (broadcastInDim ⟨2, ![100000, 64]⟩ ![] hz (constant (F := Ideal) ⟨0, ![]⟩ .f32 0x00000000#32))
      (broadcastInDim ⟨2, ![1600000, 1]⟩ ![0] hb1 tgt) x
    = segArr 100000 x tgt := by
  funext i
  obtain ⟨n, j, rfl⟩ : ∃ p q, i = ix2 p q := ⟨i 0, i 1, eq_ix2 i⟩
  rw [Cert.LibSegmentSum.scatterAdd_segRows d huw hiw hsd hiv _ _ x n j]
  -- the operand is the zero array
  rw [broadcastInDim_scalar_apply hz _ (ix2 n j), constant_apply, Ideal.ofBits_zero_f32, zero_add]
  -- the table at (edge, 0) is the index word at the edge
  have hidx : ∀ e : Fin 1600000, broadcastInDim ⟨2, ![1600000, 1]⟩ ![0] hb1 tgt (ix2 e 0) = tgt (ix1 e) := fun e =>
    broadcastInDim_apply ![0] hb1 tgt (ix2 e 0) (ix1 e) (fun a => by match a with | ⟨0, _⟩ => rfl)
  simp only [hidx]
  rfl

/-- segment_sum of node rows into the 16 graphs, from the zero array. -/
theorem poolsum_stage
    (d : ScatterDims ⟨2, ![16, 64]⟩ ⟨2, ![100000, 1]⟩ ⟨2, ![100000, 64]⟩)
    (huw : d.updateWindowDims = [1]) (hiw : d.insertedWindowDims = [0]) (hsd : d.scatterDimsToOperandDims = [0]) (hiv : d.indexVectorDim = 1)
    (hz : (⟨0, ![]⟩ : Shape).BroadcastsInDim ⟨2, ![16, 64]⟩ (![] : Fin 0 → Fin 2))
    (hb1 : (⟨1, ![100000]⟩ : Shape).BroadcastsInDim ⟨2, ![100000, 1]⟩ (![0] : Fin 1 → Fin 2))
    (x : Arr2 100000 64) (gid : Wrd1 100000) :
    Host.scatterAdd (F := Ideal) (φ := .f32) d
      (broadcastInDim ⟨2, ![16, 64]⟩ ![] hz (constant (F := Ideal) ⟨0, ![]⟩ .f32 0x00000000#32))
      (broadcastInDim ⟨2, ![100000, 1]⟩ ![0] hb1 gid) x
    = segArr 16 x gid := by
  funext i
  obtain ⟨n, j, rfl⟩ : ∃ p q, i = ix2 p q := ⟨i 0, i 1, eq_ix2 i⟩
  rw [Cert.LibSegmentSum.scatterAdd_segRows d huw hiw hsd hiv _ _ x n j]
  -- the operand is the zero array
  rw [broadcastInDim_scalar_apply hz _ (ix2 n j), constant_apply, Ideal.ofBits_zero_f32, zero_add]
  -- the table at (node, 0) is the index word at the node
  have hidx : ∀ e : Fin 100000, broadcastInDim ⟨2, ![100000, 1]⟩ ![0] hb1 gid (ix2 e 0) = gid (ix1 e) := fun e =>
    broadcastInDim_apply ![0] hb1 gid (ix2 e 0) (ix1 e) (fun a => by match a with | ⟨0, _⟩ => rfl)
  simp only [hidx]
  rfl

/-- segment_sum of ones into the 16 graphs, from the zero vector: the graph sizes. -/
theorem poolcnt_stage
    (d : ScatterDims ⟨1, ![16]⟩ ⟨2, ![100000, 1]⟩ ⟨1, ![100000]⟩)
    (huw : d.updateWindowDims = []) (hiw : d.insertedWindowDims = [0]) (hsd : d.scatterDimsToOperandDims = [0]) (hiv : d.indexVectorDim = 1)
    (hz : (⟨0, ![]⟩ : Shape).BroadcastsInDim ⟨1, ![16]⟩ (![] : Fin 0 → Fin 1))
    (ho : (⟨0, ![]⟩ : Shape).BroadcastsInDim ⟨1, ![100000]⟩ (![] : Fin 0 → Fin 1))
    (hb1 : (⟨1, ![100000]⟩ : Shape).BroadcastsInDim ⟨2, ![100000, 1]⟩ (![0] : Fin 1 → Fin 2))
    (gid : Wrd1 100000) (g : Fin 16) :
    Host.scatterAdd (F := Ideal) (φ := .f32) d
      (broadcastInDim ⟨1, ![16]⟩ ![] hz (constant (F := Ideal) ⟨0, ![]⟩ .f32 0x00000000#32))
      (broadcastInDim ⟨2, ![100000, 1]⟩ ![0] hb1 gid)
      (broadcastInDim ⟨1, ![100000]⟩ ![] ho (constant (F := Ideal) ⟨0, ![]⟩ .f32 0x3F800000#32)) (ix1 g)
    = cntAt gid g := by
  rw [Cert.LibSegmentSum.scatterAdd_seg1 d huw hiw hsd hiv _ _ _ g]
  -- the operand is the zero vector
  rw [broadcastInDim_scalar_apply hz _ (ix1 g), constant_apply, Ideal.ofBits_zero_f32, zero_add]
  -- the table at (node, 0) is the index word at the node; every update is the word one
  have hidx : ∀ e : Fin 100000, broadcastInDim ⟨2, ![100000, 1]⟩ ![0] hb1 gid (ix2 e 0) = gid (ix1 e) := fun e =>
    broadcastInDim_apply ![0] hb1 gid (ix2 e 0) (ix1 e) (fun a => by match a with | ⟨0, _⟩ => rfl)
  have hone : ∀ e : Fin 100000,
      broadcastInDim ⟨1, ![100000]⟩ ![] ho (constant (F := Ideal) ⟨0, ![]⟩ .f32 0x3F800000#32) (ix1 e) = 1 := fun e => by
    rw [broadcastInDim_scalar_apply ho _ (ix1 e), constant_apply, Ideal.ofBits_one_f32]
  simp only [hidx, hone]
  rfl

end Cert.Gnn

end
-- ==== Proof.SliceOps.lean ====
/-
  The host's slices of the parameter arrays, as the kernel's program spells them (a slice of one matrix of the stack, or
  of one bias row, then reshapes that only drop or add unit axes), are the specification's slices: the upper and lower
  halves of matrix `hop`, row `hop` of the biases as a 1 × 64 array, a vector of 64 as a 1 × 64 array, and a vector
  of 100000 words as a 100000 × 1 array read back along its rows.
-/
import proofs.«409774_j1357209666175_2_alg».proof.Proof.Spec
import Idealize.ShloMosaic.Lib.Pipeline.Value
import Idealize.ShloMosaic.Lib.ValueLayout

noncomputable section

namespace Cert.Gnn

open Idealize.ShloMosaic Idealize.ShloMosaic.ValueIdx

theorem wTop0_stage (W : Arr3 2 128 64)
    (hs : (⟨3, ![2, 128, 64]⟩ : Shape).Slices ![0, 0, 0] ⟨3, ![1, 64, 64]⟩) (hc : (⟨3, ![1, 64, 64]⟩ : Shape).ShapeCasts ⟨2, ![64, 64]⟩) :
    shapeCast ⟨2, ![64, 64]⟩ (extractStridedSlice ⟨3, ![1, 64, 64]⟩ ![0, 0, 0] W hs) hc = wTop W 0 := by
  funext i
  obtain ⟨p, q, rfl⟩ : ∃ p q, i = ix2 p q := ⟨i 0, i 1, eq_ix2 i⟩
  -- dropping the leading unit axis reads the slice at (0, p, q); the slice reads the stack at offset + coordinate
  rw [shapeCast_1ab_ab_apply _ hc p q]
  exact extractStridedSlice_apply _ W hs _ _ (fun ax => by
    match ax with
    | ⟨0, _⟩ => rfl
    | ⟨1, _⟩ => exact (Nat.zero_add _).symm
    | ⟨2, _⟩ => exact (Nat.zero_add _).symm)

theorem wBot0_stage (W : Arr3 2 128 64)
    (hs : (⟨3, ![2, 128, 64]⟩ : Shape).Slices ![0, 64, 0] ⟨3, ![1, 64, 64]⟩) (hc : (⟨3, ![1, 64, 64]⟩ : Shape).ShapeCasts ⟨2, ![64, 64]⟩) :
    shapeCast ⟨2, ![64, 64]⟩ (extractStridedSlice ⟨3, ![1, 64, 64]⟩ ![0, 64, 0] W hs) hc = wBot W 0 := by
  funext i
  obtain ⟨p, q, rfl⟩ : ∃ p q, i = ix2 p q := ⟨i 0, i 1, eq_ix2 i⟩
  -- dropping the leading unit axis reads the slice at (0, p, q); the slice reads the stack at offset + coordinate
  rw [shapeCast_1ab_ab_apply _ hc p q]
  exact extractStridedSlice_apply _ W hs _ _ (fun ax => by
    match ax with
    | ⟨0, _⟩ => rfl
    | ⟨1, _⟩ => exact rfl
    | ⟨2, _⟩ => exact (Nat.zero_add _).symm)

theorem wTop1_stage (W : Arr3 2 128 64)
    (hs : (⟨3, ![2, 128, 64]⟩ : Shape).Slices ![1, 0, 0] ⟨3, ![1, 64, 64]⟩) (hc : (⟨3, ![1, 64, 64]⟩ : Shape).ShapeCasts ⟨2, ![64, 64]⟩) :
    shapeCast ⟨2, ![64, 64]⟩ (extractStridedSlice ⟨3, ![1, 64, 64]⟩ ![1, 0, 0] W hs) hc = wTop W 1 := by
  funext i
  obtain ⟨p, q, rfl⟩ : ∃ p q, i = ix2 p q := ⟨i 0, i 1, eq_ix2 i⟩
  -- dropping the leading unit axis reads the slice at (0, p, q); the slice reads the stack at offset + coordinate
  rw [shapeCast_1ab_ab_apply _ hc p q]
  exact extractStridedSlice_apply _ W hs _ _ (fun ax => by
    match ax with
    | ⟨0, _⟩ => rfl
    | ⟨1, _⟩ => exact (Nat.zero_add _).symm
    | ⟨2, _⟩ => exact (Nat.zero_add _).symm)

theorem wBot1_stage (W : Arr3 2 128 64)
    (hs : (⟨3, ![2, 128, 64]⟩ : Shape).Slices ![1, 64, 0] ⟨3, ![1, 64, 64]⟩) (hc : (⟨3, ![1, 64, 64]⟩ : Shape).ShapeCasts ⟨2, ![64, 64]⟩) :
    shapeCast ⟨2, ![64, 64]⟩ (extractStridedSlice ⟨3, ![1, 64, 64]⟩ ![1, 64, 0] W hs) hc = wBot W 1 := by
  funext i
  obtain ⟨p, q, rfl⟩ : ∃ p q, i = ix2 p q := ⟨i 0, i 1, eq_ix2 i⟩
  -- dropping the leading unit axis reads the slice at (0, p, q); the slice reads the stack at offset + coordinate
  rw [shapeCast_1ab_ab_apply _ hc p q]
  exact extractStridedSlice_apply _ W hs _ _ (fun ax => by
    match ax with
    | ⟨0, _⟩ => rfl
    | ⟨1, _⟩ => exact rfl
    | ⟨2, _⟩ => exact (Nat.zero_add _).symm)

theorem bRow0_stage (b : Arr2 2 64)
    (hs : (⟨2, ![2, 64]⟩ : Shape).Slices ![0, 0] ⟨2, ![1, 64]⟩) (h1 : (⟨2, ![1, 64]⟩ : Shape).ShapeCasts ⟨1, ![64]⟩) (h2 : (⟨1, ![64]⟩ : Shape).ShapeCasts ⟨2, ![1, 64]⟩) :
    shapeCast ⟨2, ![1, 64]⟩ (shapeCast ⟨1, ![64]⟩ (extractStridedSlice ⟨2, ![1, 64]⟩ ![0, 0] b hs) h1) h2 = bRow b 0 := by
  funext i
  obtain ⟨u, q, rfl⟩ : ∃ p q, i = ix2 p q := ⟨i 0, i 1, eq_ix2 i⟩
  -- the two reshapes read the slice at (0, q); the slice reads the array at offset + coordinate
  rw [shapeCast_a_1a_apply _ h2 u q, shapeCast_1a_a_apply _ h1 q]
  exact extractStridedSlice_apply _ b hs _ _ (fun ax => by
    match ax with
    | ⟨0, _⟩ => rfl
    | ⟨1, _⟩ => exact (Nat.zero_add _).symm)

theorem bRow1_stage (b : Arr2 2 64)
    (hs : (⟨2, ![2, 64]⟩ : Shape).Slices ![1, 0] ⟨2, ![1, 64]⟩) (h1 : (⟨2, ![1, 64]⟩ : Shape).ShapeCasts ⟨1, ![64]⟩) (h2 : (⟨1, ![64]⟩ : Shape).ShapeCasts ⟨2, ![1, 64]⟩) :
    shapeCast ⟨2, ![1, 64]⟩ (shapeCast ⟨1, ![64]⟩ (extractStridedSlice ⟨2, ![1, 64]⟩ ![1, 0] b hs) h1) h2 = bRow b 1 := by
  funext i
  obtain ⟨u, q, rfl⟩ : ∃ p q, i = ix2 p q := ⟨i 0, i 1, eq_ix2 i⟩
  -- the two reshapes read the slice at (0, q); the slice reads the array at offset + coordinate
  rw [shapeCast_a_1a_apply _ h2 u q, shapeCast_1a_a_apply _ h1 q]
  exact extractStridedSlice_apply _ b hs _ _ (fun ax => by
    match ax with
    | ⟨0, _⟩ => rfl
    | ⟨1, _⟩ => exact (Nat.zero_add _).symm)

theorem vRow_stage (g : Arr1 64) (h : (⟨1, ![64]⟩ : Shape).ShapeCasts ⟨2, ![1, 64]⟩) :
    shapeCast ⟨2, ![1, 64]⟩ g h = vRow g := by
  funext i
  obtain ⟨u, q, rfl⟩ : ∃ p q, i = ix2 p q := ⟨i 0, i 1, eq_ix2 i⟩
  exact shapeCast_a_1a_apply g h u q

theorem gid_stage (x : Wrd1 100000) (h : (⟨1, ![100000]⟩ : Shape).ShapeCasts ⟨2, ![100000, 1]⟩) :
    (fun i : (⟨1, ![100000]⟩ : Shape).Idx => shapeCast ⟨2, ![100000, 1]⟩ x h (ix2 (i 0) 0)) = x := by
  funext i
  obtain ⟨n, rfl⟩ : ∃ n, i = ix1 n := ⟨i 0, eq_ix1 i⟩
  -- (n, 0) of the 100000 × 1 array and n of the vector have the same row-major position
  exact shapeCast_apply x h (ix2 n 0) (ix1 n) (by
    rw [Shape.rowMajor_val_one, Shape.rowMajor_val_two]
    show n.val = n.val * 1 + 0
    omega)

end Cert.Gnn

end
-- ==== Proof.KMsg.lean ====
/-
  The message kernel's result array. A grid of 125 points, each taking a block of 12800 edge rows of the two edge
  arrays and the whole of the two 64 × 64 matrices and the bias row, writes relu ((s · w₁ + e · w₂) + b) for its rows;
  the blocks tile the 1600000 rows, so the array the region leaves is that function of the whole arrays, row by row.
  Stated for both launches of the kernel (the first and the second round).
-/
import proofs.«409774_j1357209666175_2_alg».proof.Proof.KIFrame
import proofs.«409774_j1357209666175_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## The block product at an entry -/

/-- The block product's left operand is read on row `i 0` … -/
theorem msgDot_lhs_0 (i : S12800x64.Idx) (q : dot_S12800x64_S64x64_S12800x64_1_0_0_1_n_n.contr.Idx) :
    (dot_S12800x64_S64x64_S12800x64_1_0_0_1_n_n.lhsIdx i q 0).val = (i 0).val := by
  unfold DotDims.lhsIdx
  rw [dif_neg (show ¬(0 : Fin S12800x64.rank) ∈ dot_S12800x64_S64x64_S12800x64_1_0_0_1_n_n.lhsBatch by decide), dif_pos (show (0 : Fin S12800x64.rank) ∈ dot_S12800x64_S64x64_S12800x64_1_0_0_1_n_n.lhsNonContracting by decide)]
  rfl
/-- … at the contraction position; -/
theorem msgDot_lhs_1 (i : S12800x64.Idx) (q : dot_S12800x64_S64x64_S12800x64_1_0_0_1_n_n.contr.Idx) :
    (dot_S12800x64_S64x64_S12800x64_1_0_0_1_n_n.lhsIdx i q 1).val = (q ⟨0, by decide⟩).val :=
  dot_S12800x64_S64x64_S12800x64_1_0_0_1_n_n.lhsIdx_val_of_single rfl i q
/-- the right operand at the contraction position … -/
theorem msgDot_rhs_0 (i : S12800x64.Idx) (q : dot_S12800x64_S64x64_S12800x64_1_0_0_1_n_n.contr.Idx) :
    (dot_S12800x64_S64x64_S12800x64_1_0_0_1_n_n.rhsIdx i q 0).val = (q ⟨0, by decide⟩).val :=
  dot_S12800x64_S64x64_S12800x64_1_0_0_1_n_n.rhsIdx_val_of_single rfl i q
/-- … on column `i 1`. -/
theorem msgDot_rhs_1 (i : S12800x64.Idx) (q : dot_S12800x64_S64x64_S12800x64_1_0_0_1_n_n.contr.Idx) :
    (dot_S12800x64_S64x64_S12800x64_1_0_0_1_n_n.rhsIdx i q 1).val = (i 1).val := by
  unfold DotDims.rhsIdx
  rw [dif_neg (show ¬(1 : Fin S64x64.rank) ∈ dot_S12800x64_S64x64_S12800x64_1_0_0_1_n_n.rhsBatch by decide), dif_pos (show (1 : Fin S64x64.rank) ∈ dot_S12800x64_S64x64_S12800x64_1_0_0_1_n_n.rhsNonContracting by decide)]
  rfl

/-- A 12800 × 64 block times a 64 × 64 matrix into the zero accumulator: entry (p, q) is the sum over k of
    l(p, k) · r(k, q). -/
theorem msgDot_apply {φ₁ φ₂ : FTy} (l : FVec Ideal S12800x64 φ₁) (r : FVec Ideal S64x64 φ₂) (p : Fin 12800) (q : Fin 64) :
    matmul dot_S12800x64_S64x64_S12800x64_1_0_0_1_n_n none l r (constant (F := Ideal) S12800x64 .f32 0x00000000#32) (ix2 p q)
      = ∑ k : Fin 64, l (ix2 p k) * r (ix2 k q) := by
  refine (Ideal.matmul_constant_zero_apply dot_S12800x64_S64x64_S12800x64_1_0_0_1_n_n none l r (ix2 p q)).trans ?_
  rw [← Equiv.sum_comp (ValueIdx.contrEquiv1 dot_S12800x64_S64x64_S12800x64_1_0_0_1_n_n 64 rfl rfl).symm]
  refine Finset.sum_congr rfl fun k _ => ?_
  have hk := ValueIdx.contrEquiv1_symm_val dot_S12800x64_S64x64_S12800x64_1_0_0_1_n_n 64 rfl rfl k
  have el : dot_S12800x64_S64x64_S12800x64_1_0_0_1_n_n.lhsIdx (ix2 p q) ((ValueIdx.contrEquiv1 dot_S12800x64_S64x64_S12800x64_1_0_0_1_n_n 64 rfl rfl).symm k) = ix2 p k := funext fun a => Fin.ext (by
    match a with
    | ⟨0, _⟩ => exact msgDot_lhs_0 _ _
    | ⟨1, _⟩ => exact (msgDot_lhs_1 _ _).trans hk)
  have er : dot_S12800x64_S64x64_S12800x64_1_0_0_1_n_n.rhsIdx (ix2 p q) ((ValueIdx.contrEquiv1 dot_S12800x64_S64x64_S12800x64_1_0_0_1_n_n 64 rfl rfl).symm k) = ix2 k q := funext fun a => Fin.ext (by
    match a with
    | ⟨0, _⟩ => exact (msgDot_rhs_0 _ _).trans hk
    | ⟨1, _⟩ => exact msgDot_rhs_1 _ _)
  rw [el, er]

/-! ## The body's arithmetic is the specification on the block -/

theorem msg_zeroOffsets : (![0, 0] : Fin 2 → Nat) = fun _ => 0 := funext fun a => by fin_cases a <;> rfl

/-- The message function at (row, column) depends only on that row of the two edge arrays. -/
theorem msgAt_congr {R R' : Nat} (s ee : Arr2 R 64) (s' ee' : Arr2 R' 64) (w1 w2 : Arr2 64 64) (b : Arr2 1 64)
    (e : Fin R) (e' : Fin R') (j j' : Fin 64) (hj : j = j')
    (hs : ∀ k : Fin 64, s (ix2 e k) = s' (ix2 e' k)) (he : ∀ k : Fin 64, ee (ix2 e k) = ee' (ix2 e' k)) :
    msgAt s ee w1 w2 b e j = msgAt s' ee' w1 w2 b e' j' := by
  subst hj
  unfold msgAt
  simp only [hs, he]

/-- Entry (p, q) of what the body stores: relu ((s · w₁ + e · w₂) + b) of the loaded blocks. -/
theorem msgBlock0_apply (x0 x1 : Vec Ideal S12800x64 .f32) (x2 x3 : Vec Ideal S64x64 .f32) (x4 : Vec Ideal S1x64 .f32)
    (p : Fin 12800) (q : Fin 64) :
    k0_pay1 (F := Ideal) x0 x1 x2 x3 x4 (ix2 p q) = msgAt (x0 : Arr2 12800 64) x1 x2 x3 x4 p q := by
  unfold k0_pay1 msgAt
  rw [maximumf_apply, addf_apply, addf_apply, msgDot_apply, msgDot_apply, broadcast_apply,
    broadcastTo_1b_ab_apply]
  simp only [shapeCast_self, truncf_apply]
  exact congrArg (max _) Ideal.ofBits_zero_f32

/-- So the stored block is the message function of the loaded blocks. -/
theorem msgBlock0_eq (x0 x1 : Vec Ideal S12800x64 .f32) (x2 x3 : Vec Ideal S64x64 .f32) (x4 : Vec Ideal S1x64 .f32) :
    k0_pay1 (F := Ideal) x0 x1 x2 x3 x4 = msgArr (x0 : Arr2 12800 64) x1 x2 x3 x4 := by
  funext j
  obtain ⟨p, q, rfl⟩ : ∃ (p : Fin 12800) (q : Fin 64), j = ix2 p q := ⟨j 0, j 1, eq_ix2 j⟩
  exact msgBlock0_apply x0 x1 x2 x3 x4 p q

/-- The second launch's body is the same arithmetic. -/
theorem msgBlock2_apply (x0 x1 : Vec Ideal S12800x64 .f32) (x2 x3 : Vec Ideal S64x64 .f32) (x4 : Vec Ideal S1x64 .f32)
    (p : Fin 12800) (q : Fin 64) :
    k2_pay1 (F := Ideal) x0 x1 x2 x3 x4 (ix2 p q) = msgAt (x0 : Arr2 12800 64) x1 x2 x3 x4 p q := by
  unfold k2_pay1 msgAt
  rw [maximumf_apply, addf_apply, addf_apply, msgDot_apply, msgDot_apply, broadcast_apply,
    broadcastTo_1b_ab_apply]
  simp only [shapeCast_self, truncf_apply]
  exact congrArg (max _) Ideal.ofBits_zero_f32

/-- So the stored block is the message function of the loaded blocks. -/
theorem msgBlock2_eq (x0 x1 : Vec Ideal S12800x64 .f32) (x2 x3 : Vec Ideal S64x64 .f32) (x4 : Vec Ideal S1x64 .f32) :
    k2_pay1 (F := Ideal) x0 x1 x2 x3 x4 = msgArr (x0 : Arr2 12800 64) x1 x2 x3 x4 := by
  funext j
  obtain ⟨p, q, rfl⟩ : ∃ (p : Fin 12800) (q : Fin 64), j = ix2 p q := ⟨j 0, j 1, eq_ix2 j⟩
  exact msgBlock2_apply x0 x1 x2 x3 x4 p q

/-! ## Region 0: from blocks to the array -/

/-- The index maps over the grid: the two edge windows and the output move with the point along the rows, the
    two matrices and the bias row stay. -/
theorem msg0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Point `t`'s block of the source rows is rows 12800 t … 12800 t + 12799 of the array. -/
theorem msg0_srcBlock (c : Dev nD) (t : Fin cfg0.N) (x : S12800x64.Idx) (k : S1600000x64.Idx)
    (hk0 : (k 0).val = t.val * 12800 + (x 0).val) (hk1 : (k 1).val = (x 1).val) :
    (iblk0 V c 0 t : Vec Ideal S12800x64 .f32) x = (V c main_v8 : Arr2 1600000 64) k := by
  obtain ⟨e0, e1, -⟩ := msg0_idx t
  unfold iblk0
  rw [View.read_apply]
  show V c main_v8 _ = V c main_v8 _
  refine congrArg _ (funext fun a => Fin.ext ?_)
  match a with
  | ⟨0, _⟩ => show win0_0.index t (0 : Fin 2) * 12800 + 1 * (x 0).val = (k 0).val; rw [e0, hk0]; omega
  | ⟨1, _⟩ => show win0_0.index t (1 : Fin 2) * 64 + 1 * (x 1).val = (k 1).val; rw [e1, hk1]; omega

/-- The same rows of the edge features. -/
theorem msg0_edgeBlock (c : Dev nD) (t : Fin cfg0.N) (x : S12800x64.Idx) (k : S1600000x64.Idx)
    (hk0 : (k 0).val = t.val * 12800 + (x 0).val) (hk1 : (k 1).val = (x 1).val) :
    (iblk0 V c 1 t : Vec Ideal S12800x64 .f32) x = (V c main_arg1 : Arr2 1600000 64) k := by
  obtain ⟨-, -, e0, e1, -⟩ := msg0_idx t
  unfold iblk0
  rw [View.read_apply]
  show V c main_arg1 _ = V c main_arg1 _
  refine congrArg _ (funext fun a => Fin.ext ?_)
  match a with
  | ⟨0, _⟩ => show win0_1.index t (0 : Fin 2) * 12800 + 1 * (x 0).val = (k 0).val; rw [e0, hk0]; omega
  | ⟨1, _⟩ => show win0_1.index t (1 : Fin 2) * 64 + 1 * (x 1).val = (k 1).val; rw [e1, hk1]; omega

/-- Every point's block of the first matrix is the whole matrix; -/
theorem msg0_w1Block (c : Dev nD) (t : Fin cfg0.N) :
    (iblk0 V c 2 t : Vec Ideal S64x64 .f32) = (V c main_v10 : Arr2 64 64) := by
  obtain ⟨-, -, -, -, e0, e1, -⟩ := msg0_idx t
  funext x
  unfold iblk0
  rw [View.read_apply]
  show V c main_v10 _ = V c main_v10 _
  refine congrArg _ (funext fun a => Fin.ext ?_)
  match a with
  | ⟨0, _⟩ => show win0_2.index t (0 : Fin 2) * 64 + 1 * (x 0).val = (x 0).val; rw [e0]; omega
  | ⟨1, _⟩ => show win0_2.index t (1 : Fin 2) * 64 + 1 * (x 1).val = (x 1).val; rw [e1]; omega

/-- of the second, the same; -/
theorem msg0_w2Block (c : Dev nD) (t : Fin cfg0.N) :
    (iblk0 V c 3 t : Vec Ideal S64x64 .f32) = (V c main_v12 : Arr2 64 64) := by
  obtain ⟨-, -, -, -, -, -, e0, e1, -⟩ := msg0_idx t
  funext x
  unfold iblk0
  rw [View.read_apply]
  show V c main_v12 _ = V c main_v12 _
  refine congrArg _ (funext fun a => Fin.ext ?_)
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

/-- and of the bias row. -/
theorem msg0_biasBlock (c : Dev nD) (t : Fin cfg0.N) :
    (iblk0 V c 4 t : Vec Ideal S1x64 .f32) = (V c main_v15 : Arr2 1 64) := by
  obtain ⟨-, -, -, -, -, -, -, -, e0, e1, -⟩ := msg0_idx t
  funext x
  unfold iblk0
  rw [View.read_apply]
  show V c main_v15 _ = V c main_v15 _
  refine congrArg _ (funext fun a => Fin.ext ?_)
  match a with
  | ⟨0, _⟩ => show win0_4.index t (0 : Fin 2) * 1 + 1 * (x 0).val = (x 0).val; rw [e0]; omega
  | ⟨1, _⟩ => show win0_4.index t (1 : Fin 2) * 64 + 1 * (x 1).val = (x 1).val; rw [e1]; omega

/-- Over any two blocks that are rows 12800 t … of two arrays: the message function of the blocks, read where
    point `t`'s output block lies, is the message function of the arrays. -/
theorem msg0_blockOfArr (t : Fin cfg0.N) (B0 B1 : Arr2 12800 64) (A0 A1 : Arr2 1600000 64) (W1 W2 : Arr2 64 64)
    (b : Arr2 1 64)
    (h0 : ∀ (x : S12800x64.Idx) (k : S1600000x64.Idx), (k 0).val = t.val * 12800 + (x 0).val → (k 1).val = (x 1).val → B0 x = A0 k)
    (h1 : ∀ (x : S12800x64.Idx) (k : S1600000x64.Idx), (k 0).val = t.val * 12800 + (x 0).val → (k 1).val = (x 1).val → B1 x = A1 k) :
    (cfg0.win 5).cut (grid0.coords t) (msgArr B0 B1 W1 W2 b)
      = ((cfg0.win 5).blk t).view.read (Elt Ideal) (msgArr A0 A1 W1 W2 b) := by
  obtain ⟨-, -, -, -, -, -, -, -, -, -, e0, e1⟩ := msg0_idx t
  funext j
  show msgAt B0 B1 W1 W2 b _ _ = msgAt A0 A1 W1 W2 b _ _
  refine msgAt_congr B0 B1 A0 A1 W1 W2 b _ _ _ _ (Fin.ext ?_) (fun k => ?_) (fun k => ?_)
  · show (j 1).val = win0_5.index t (1 : Fin 2) * 64 + 1 * (j 1).val
    rw [e1]; omega
  · refine h0 _ _ ?_ rfl
    show win0_5.index t (0 : Fin 2) * 12800 + 1 * (j 0).val = t.val * 12800 + (j 0).val
    rw [e0]; omega
  · refine h1 _ _ ?_ rfl
    show win0_5.index t (0 : Fin 2) * 12800 + 1 * (j 0).val = t.val * 12800 + (j 0).val
    rw [e0]; omega

/-- What point `t` writes back is its block of the message function of the whole arrays. -/
theorem msg0_flushed (c : Dev nD) (t : Fin cfg0.N) :
    (dat0 (F := Ideal) V c).flushed 5 t
      = ((cfg0.win 5).blk t).view.read (Elt Ideal)
          (msgArr (V c main_v8 : Arr2 1600000 64) (V c main_arg1 : Arr2 1600000 64)
            (V c main_v10 : Arr2 64 64) (V c main_v12 : Arr2 64 64) (V c main_v15 : Arr2 1 64)) := by
  show (cfg0.win 5).cut (grid0.coords t) ((dat0 V c).after 5 t) = _
  rw [after0_5]
  unfold out0_5
  rw [View.canon_unit_zero msg_zeroOffsets]
  simp only [View.ld_unit_zero (S := S12800x64) msg_zeroOffsets, View.ld_unit_zero (S := S64x64) msg_zeroOffsets,
    View.ld_unit_zero (S := S1x64) msg_zeroOffsets]
  rw [msgBlock0_eq, msg0_w1Block, msg0_w2Block, msg0_biasBlock]
  exact msg0_blockOfArr t (iblk0 V c 0 t) (iblk0 V c 1 t) (V c main_v8) (V c main_arg1) (V c main_v10) (V c main_v12)
    (V c main_v15) (msg0_srcBlock V c t) (msg0_edgeBlock V c t)

/-- Row r lies in the block of point r / 12800: the 125 blocks of 12800 rows tile the 1600000 rows. -/
theorem msg0_cover (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  obtain ⟨t, ht⟩ : ∃ t : Fin cfg0.N, t.val = (i 0).val / 12800 :=
    ⟨⟨(i 0).val / 12800, by show _ < grid0.N; rw [N_0]; omega⟩, rfl⟩
  obtain ⟨-, -, -, -, -, -, -, -, -, -, e0, e1⟩ := msg0_idx t
  refine ⟨t, flush0_5 t, ?_⟩
  show i ∈ ((View.whole main_v16).slice (win0_5.rect t)).set
  rw [View.set_slice_whole, Rect.mem_set_unit]
  intro a
  match a with
  | ⟨0, _⟩ =>
    show win0_5.index t (0 : Fin 2) * 12800 ≤ (i 0).val ∧ (i 0).val < win0_5.index t (0 : Fin 2) * 12800 + 12800
    rw [e0, ht]; omega
  | ⟨1, _⟩ =>
    show win0_5.index t (1 : Fin 2) * 64 ≤ (i 1).val ∧ (i 1).val < win0_5.index t (1 : Fin 2) * 64 + 64
    rw [e1]; omega

/-- First round: the array region 0 leaves in its output (window 5) from the arrays it finds in its inputs. -/
theorem msg0_value (c : Dev nD) :
    ((dat0 (F := Ideal) V c).arrAt 5 cfg0.N : Arr2 1600000 64)
      = msgArr (V c main_v8 : Arr2 1600000 64) (V c main_arg1 : Arr2 1600000 64)
          (V c main_v10 : Arr2 64 64) (V c main_v12 : Arr2 64 64) (V c main_v15 : Arr2 1 64) :=
  (dat0 (F := Ideal) V c).arrAt_eq_of_cover 5 _ (fun t _ => msg0_flushed V c t) msg0_cover

/-! ## Region 2: from blocks to the array -/

/-- The index maps over the grid: the two edge windows and the output move with the point along the rows, the
    two matrices and the bias row stay. -/
theorem msg2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Point `t`'s block of the source rows is rows 12800 t … 12800 t + 12799 of the array. -/
theorem msg2_srcBlock (c : Dev nD) (t : Fin cfg2.N) (x : S12800x64.Idx) (k : S1600000x64.Idx)
    (hk0 : (k 0).val = t.val * 12800 + (x 0).val) (hk1 : (k 1).val = (x 1).val) :
    (iblk2 V c 0 t : Vec Ideal S12800x64 .f32) x = (V c main_v34 : Arr2 1600000 64) k := by
  obtain ⟨e0, e1, -⟩ := msg2_idx t
  unfold iblk2
  rw [View.read_apply]
  show V c main_v34 _ = V c main_v34 _
  refine congrArg _ (funext fun a => Fin.ext ?_)
  match a with
  | ⟨0, _⟩ => show win2_0.index t (0 : Fin 2) * 12800 + 1 * (x 0).val = (k 0).val; rw [e0, hk0]; omega
  | ⟨1, _⟩ => show win2_0.index t (1 : Fin 2) * 64 + 1 * (x 1).val = (k 1).val; rw [e1, hk1]; omega

/-- The same rows of the edge features. -/
theorem msg2_edgeBlock (c : Dev nD) (t : Fin cfg2.N) (x : S12800x64.Idx) (k : S1600000x64.Idx)
    (hk0 : (k 0).val = t.val * 12800 + (x 0).val) (hk1 : (k 1).val = (x 1).val) :
    (iblk2 V c 1 t : Vec Ideal S12800x64 .f32) x = (V c main_arg1 : Arr2 1600000 64) k := by
  obtain ⟨-, -, e0, e1, -⟩ := msg2_idx t
  unfold iblk2
  rw [View.read_apply]
  show V c main_arg1 _ = V c main_arg1 _
  refine congrArg _ (funext fun a => Fin.ext ?_)
  match a with
  | ⟨0, _⟩ => show win2_1.index t (0 : Fin 2) * 12800 + 1 * (x 0).val = (k 0).val; rw [e0, hk0]; omega
  | ⟨1, _⟩ => show win2_1.index t (1 : Fin 2) * 64 + 1 * (x 1).val = (k 1).val; rw [e1, hk1]; omega

/-- Every point's block of the first matrix is the whole matrix; -/
theorem msg2_w1Block (c : Dev nD) (t : Fin cfg2.N) :
    (iblk2 V c 2 t : Vec Ideal S64x64 .f32) = (V c main_v36 : Arr2 64 64) := by
  obtain ⟨-, -, -, -, e0, e1, -⟩ := msg2_idx t
  funext x
  unfold iblk2
  rw [View.read_apply]
  show V c main_v36 _ = V c main_v36 _
  refine congrArg _ (funext fun a => Fin.ext ?_)
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

/-- of the second, the same; -/
theorem msg2_w2Block (c : Dev nD) (t : Fin cfg2.N) :
    (iblk2 V c 3 t : Vec Ideal S64x64 .f32) = (V c main_v38 : Arr2 64 64) := by
  obtain ⟨-, -, -, -, -, -, e0, e1, -⟩ := msg2_idx t
  funext x
  unfold iblk2
  rw [View.read_apply]
  show V c main_v38 _ = V c main_v38 _
  refine congrArg _ (funext fun a => Fin.ext ?_)
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

/-- and of the bias row. -/
theorem msg2_biasBlock (c : Dev nD) (t : Fin cfg2.N) :
    (iblk2 V c 4 t : Vec Ideal S1x64 .f32) = (V c main_v41 : Arr2 1 64) := by
  obtain ⟨-, -, -, -, -, -, -, -, e0, e1, -⟩ := msg2_idx t
  funext x
  unfold iblk2
  rw [View.read_apply]
  show V c main_v41 _ = V c main_v41 _
  refine congrArg _ (funext fun a => Fin.ext ?_)
  match a with
  | ⟨0, _⟩ => show win2_4.index t (0 : Fin 2) * 1 + 1 * (x 0).val = (x 0).val; rw [e0]; omega
  | ⟨1, _⟩ => show win2_4.index t (1 : Fin 2) * 64 + 1 * (x 1).val = (x 1).val; rw [e1]; omega

/-- Over any two blocks that are rows 12800 t … of two arrays: the message function of the blocks, read where
    point `t`'s output block lies, is the message function of the arrays. -/
theorem msg2_blockOfArr (t : Fin cfg2.N) (B0 B1 : Arr2 12800 64) (A0 A1 : Arr2 1600000 64) (W1 W2 : Arr2 64 64)
    (b : Arr2 1 64)
    (h0 : ∀ (x : S12800x64.Idx) (k : S1600000x64.Idx), (k 0).val = t.val * 12800 + (x 0).val → (k 1).val = (x 1).val → B0 x = A0 k)
    (h1 : ∀ (x : S12800x64.Idx) (k : S1600000x64.Idx), (k 0).val = t.val * 12800 + (x 0).val → (k 1).val = (x 1).val → B1 x = A1 k) :
    (cfg2.win 5).cut (grid2.coords t) (msgArr B0 B1 W1 W2 b)
      = ((cfg2.win 5).blk t).view.read (Elt Ideal) (msgArr A0 A1 W1 W2 b) := by
  obtain ⟨-, -, -, -, -, -, -, -, -, -, e0, e1⟩ := msg2_idx t
  funext j
  show msgAt B0 B1 W1 W2 b _ _ = msgAt A0 A1 W1 W2 b _ _
  refine msgAt_congr B0 B1 A0 A1 W1 W2 b _ _ _ _ (Fin.ext ?_) (fun k => ?_) (fun k => ?_)
  · show (j 1).val = win2_5.index t (1 : Fin 2) * 64 + 1 * (j 1).val
    rw [e1]; omega
  · refine h0 _ _ ?_ rfl
    show win2_5.index t (0 : Fin 2) * 12800 + 1 * (j 0).val = t.val * 12800 + (j 0).val
    rw [e0]; omega
  · refine h1 _ _ ?_ rfl
    show win2_5.index t (0 : Fin 2) * 12800 + 1 * (j 0).val = t.val * 12800 + (j 0).val
    rw [e0]; omega

/-- What point `t` writes back is its block of the message function of the whole arrays. -/
theorem msg2_flushed (c : Dev nD) (t : Fin cfg2.N) :
    (dat2 (F := Ideal) V c).flushed 5 t
      = ((cfg2.win 5).blk t).view.read (Elt Ideal)
          (msgArr (V c main_v34 : Arr2 1600000 64) (V c main_arg1 : Arr2 1600000 64)
            (V c main_v36 : Arr2 64 64) (V c main_v38 : Arr2 64 64) (V c main_v41 : Arr2 1 64)) := by
  show (cfg2.win 5).cut (grid2.coords t) ((dat2 V c).after 5 t) = _
  rw [after2_5]
  unfold out2_5
  rw [View.canon_unit_zero msg_zeroOffsets]
  simp only [View.ld_unit_zero (S := S12800x64) msg_zeroOffsets, View.ld_unit_zero (S := S64x64) msg_zeroOffsets,
    View.ld_unit_zero (S := S1x64) msg_zeroOffsets]
  rw [msgBlock2_eq, msg2_w1Block, msg2_w2Block, msg2_biasBlock]
  exact msg2_blockOfArr t (iblk2 V c 0 t) (iblk2 V c 1 t) (V c main_v34) (V c main_arg1) (V c main_v36) (V c main_v38)
    (V c main_v41) (msg2_srcBlock V c t) (msg2_edgeBlock V c t)

/-- Row r lies in the block of point r / 12800: the 125 blocks of 12800 rows tile the 1600000 rows. -/
theorem msg2_cover (i : S1600000x64.Idx) :
    ∃ t : Fin cfg2.N, (cfg2.win 5).flush t = true ∧ i ∈ ((cfg2.win 5).blk t).view.set := by
  have hi0 : (i 0).val < 1600000 := (i 0).isLt
  have hi1 : (i 1).val < 64 := (i 1).isLt
  obtain ⟨t, ht⟩ : ∃ t : Fin cfg2.N, t.val = (i 0).val / 12800 :=
    ⟨⟨(i 0).val / 12800, by show _ < grid2.N; rw [N_2]; omega⟩, rfl⟩
  obtain ⟨-, -, -, -, -, -, -, -, -, -, e0, e1⟩ := msg2_idx t
  refine ⟨t, flush2_5 t, ?_⟩
  show i ∈ ((View.whole main_v42).slice (win2_5.rect t)).set
  rw [View.set_slice_whole, Rect.mem_set_unit]
  intro a
  match a with
  | ⟨0, _⟩ =>
    show win2_5.index t (0 : Fin 2) * 12800 ≤ (i 0).val ∧ (i 0).val < win2_5.index t (0 : Fin 2) * 12800 + 12800
    rw [e0, ht]; omega
  | ⟨1, _⟩ =>
    show win2_5.index t (1 : Fin 2) * 64 ≤ (i 1).val ∧ (i 1).val < win2_5.index t (1 : Fin 2) * 64 + 64
    rw [e1]; omega

/-- Second round: the same kernel launched again (region 2). -/
theorem msg1_value (c : Dev nD) :
    ((dat2 (F := Ideal) V c).arrAt 5 cfg2.N : Arr2 1600000 64)
      = msgArr (V c main_v34 : Arr2 1600000 64) (V c main_arg1 : Arr2 1600000 64)
          (V c main_v36 : Arr2 64 64) (V c main_v38 : Arr2 64 64) (V c main_v41 : Arr2 1 64) :=
  (dat2 (F := Ideal) V c).arrAt_eq_of_cover 5 _ (fun t _ => msg2_flushed V c t) msg2_cover

end Cert.KI

end
-- ==== Proof.KUpd.lean ====
/-
  The update kernel's result array. A grid of 10 points, each taking a block of 10000 node rows of the state and of
  the pooled messages and the whole of the two 64 × 64 matrices, the bias row and the scale and shift rows, writes the
  normalised relu (h + ((h · w₁ + p · w₂) + b)) for its rows; the blocks tile the 100000 rows.
  Stated for both launches of the kernel (the first and the second round).
-/
import proofs.«409774_j1357209666175_2_alg».proof.Proof.KIFrame
import proofs.«409774_j1357209666175_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

-- the TensorCore's buffer contents when the region is entered
variable (V : (c : Dev nD) → (b : Ref sig .tc) → Buf (Elt Ideal) ((c : Thread nD τ).loc b))

/-! ## Reading the body's operations at an entry

The body works on a block of 10000 rows by 64 lanes. Its pointwise operations read entry by entry; the four that do not
are read here: the sum along the lanes kept as a column, a column spread along the lanes, a row spread down the rows, and
the product of a block with a 64 × 64 matrix into the zero accumulator. -/

/-- The sum along the 64 lanes of a block's row, kept as a column: at row p it is the sum of the row's 64 entries. -/
theorem laneSum_apply (v : FVec Ideal S10000x64 .f32) (hφ : FTy.f32 = FTy.f32 ∨ FTy.f32 = FTy.bf16)
    (hacc : (0x00000000#32 : BitVec (FTy.bits .f32)) = 0x00000000#32) (p : Fin 10000) :
    shapeCast S10000x1 (multiReduction .add [1] S10000 v 0x00000000#32 reduces_S10000x64_S10000 hφ hacc)
        shapeCasts_S10000_S10000x1 (ix2 p (0 : Fin 1))
      = ∑ k : Fin 64, v (ix2 p k) := by
  refine (shapeCast_apply _ shapeCasts_S10000_S10000x1 (ix2 p (0 : Fin 1)) (ix1 p) ?_).trans ?_
  · rw [Shape.rowMajor_val_one, Shape.rowMajor_val_two]
    show p.val = p.val * 1 + 0
    omega
  · refine (Ideal.multiReduction_add_single v 0x00000000#32 reduces_S10000x64_S10000 hφ hacc (ix1 p)).trans ?_
    refine Finset.sum_congr rfl fun k _ => congrArg v ?_
    funext a
    match a with
    | ⟨0, _⟩ => rfl
    | ⟨1, _⟩ => rfl

/-- A column broadcast along the lanes reads the column's entry of the same row. -/
theorem colBroadcast_apply (u : FVec Ideal S10000x1 .f32) (p : Fin 10000) (q : Fin 64) :
    broadcastTo S10000x64 u broadcasts_S10000x1_S10000x64 (ix2 p q) = u (ix2 p (0 : Fin 1)) := by
  refine broadcastTo_apply u broadcasts_S10000x1_S10000x64 (ix2 p q) (ix2 p (0 : Fin 1)) fun a => ?_
  match a with
  | ⟨0, _⟩ => rfl
  | ⟨1, _⟩ => rfl

/-- A row broadcast down the rows reads the row's entry of the same lane. -/
theorem rowBroadcast_apply (u : FVec Ideal S1x64 .f32) (p : Fin 10000) (q : Fin 64) :
    broadcastTo S10000x64 u broadcasts_S1x64_S10000x64 (ix2 p q) = u (ix2 (0 : Fin 1) q) := by
  refine broadcastTo_apply u broadcasts_S1x64_S10000x64 (ix2 p q) (ix2 (0 : Fin 1) q) fun a => ?_
  match a with
  | ⟨0, _⟩ => rfl
  | ⟨1, _⟩ => rfl

/-! ### The 64-term product of a block row with a weight column -/

/-- The product's operand entries at output entry i and contraction coordinate q, axis by axis: the left factor is read
    at (i 0, q), the right factor at (q, i 1). -/
theorem lhs_blockDot_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_blockDot_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_blockDot_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_blockDot_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The block product into the zero accumulator, at (p, q): row p of the left factor against column q of the right. -/
theorem blockDot_apply {φ₁ φ₂ : FTy} (a : FVec Ideal S10000x64 φ₁) (b : FVec Ideal S64x64 φ₂) (p : Fin 10000) (q : Fin 64) :
    matmul dot_S10000x64_S64x64_S10000x64_1_0_0_1_n_n none a b (constant (F := Ideal) S10000x64 .f32 0x00000000#32) (ix2 p q)
      = ∑ k : Fin 64, a (ix2 p k) * b (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhs_blockDot_0 _ _
    | ⟨1, _⟩ => exact (lhs_blockDot_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhs_blockDot_0 _ _).trans hk
    | ⟨1, _⟩ => exact rhs_blockDot_1 _ _)
  rw [el, er]

/-- A reciprocal square root of a vector reads the reciprocal square root of the entry. -/
theorem rsqrt_apply {s : Shape} {φ : FTy} (v : FVec Ideal s φ) (i : s.Idx) : rsqrt v i = Ideal.rsqrt (v i) := rfl

/-! ### The body's value at an entry of the block -/

/-- First launch: the value stored at (p, q) of the block is the specification's entry of the loaded blocks. -/

theorem payload1_apply (x0 x1 : Vec Ideal S10000x64 .f32) (x2 x3 : Vec Ideal S64x64 .f32) (x4 x5 x6 : Vec Ideal S1x64 .f32)
    (p : Fin 10000) (q : Fin 64) :
    k1_pay1 (F := Ideal) (k1_pay2 x0 x1 x2 x3 x4) x5 x6 (ix2 p q)
      = updAt (R := 10000) x0 x1 x2 x3 x4 x5 x6 p q := by
  unfold k1_pay1 k1_pay2
  simp only [shapeCast_self, addf_apply, mulf_apply, subf_apply, divf_apply, maximumf_apply, truncf_apply, broadcast_apply,
    rowBroadcast_apply, colBroadcast_apply, laneSum_apply _ (Or.inl rfl) rfl, blockDot_apply, rsqrt_apply, Ideal.ofBits_def, Ideal.ofBits_zero_f32]
  rfl

/-- Second launch: the same body, so the same entry of its loaded blocks. -/

theorem payload3_apply (x0 x1 : Vec Ideal S10000x64 .f32) (x2 x3 : Vec Ideal S64x64 .f32) (x4 x5 x6 : Vec Ideal S1x64 .f32)
    (p : Fin 10000) (q : Fin 64) :
    k3_pay1 (F := Ideal) (k3_pay2 x0 x1 x2 x3 x4) x5 x6 (ix2 p q)
      = updAt (R := 10000) x0 x1 x2 x3 x4 x5 x6 p q := by
  unfold k3_pay1 k3_pay2
  simp only [shapeCast_self, addf_apply, mulf_apply, subf_apply, divf_apply, maximumf_apply, truncf_apply, broadcast_apply,
    rowBroadcast_apply, colBroadcast_apply, laneSum_apply _ (Or.inl rfl) rfl, blockDot_apply, rsqrt_apply, Ideal.ofBits_def, Ideal.ofBits_zero_f32]
  rfl

/-! ### From the blocks to the array: the first round -/

/-- The zero offset of a rank-2 block. -/
theorem origin2 : (![0, 0] : Fin 2 → Nat) = fun _ => 0 := funext fun a => by fin_cases a <;> rfl

/-- The specification's entry depends only on row n of the two row arrays. -/
theorem updAt_congr_row {R R' : Nat} (h p : Arr2 R 64) (h' p' : Arr2 R' 64) (w1 w2 : Arr2 64 64) (b gm bt : Arr2 1 64)
    (n : Fin R) (n' : Fin R') (j : Fin 64)
    (hh : ∀ k, h (ix2 n k) = h' (ix2 n' k)) (hp : ∀ k, p (ix2 n k) = p' (ix2 n' k)) :
    updAt h p w1 w2 b gm bt n j = updAt h' p' w1 w2 b gm bt n' j := by
  unfold updAt preAt
  simp only [hh, hp]

/-- The printed index maps over the grid: point t takes block row t of the two row arrays and of the output, and block
    (0, 0) of the five whole arrays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The grid has ten points. -/
theorem pt1_lt (t : Fin cfg1.N) : t.val < 10 := by have := t.isLt; have hN : cfg1.N = 10 := N_1; omega

/-- The state's block at point t is rows 10000 t … 10000 t + 9999 of the state. -/
theorem stateBlock1_apply (c : Dev nD) (t : Fin cfg1.N) (p : Fin 10000) (q : Fin 64) :
    (iblk1 V c 0 t : Vec Ideal S10000x64 .f32) (ix2 p q)
      = (V c main_arg0 : Arr2 100000 64) (ix2 ⟨t.val * 10000 + p.val, by have := pt1_lt t; omega⟩ q) := by
  obtain ⟨e0, e1, -⟩ := idx_facts1 t
  unfold iblk1
  rw [View.read_apply]
  show V c main_arg0 _ = V c main_arg0 _
  refine congrArg (V c main_arg0) ?_
  funext a
  apply Fin.ext
  match a with
  | ⟨0, _⟩ => show win1_0.index t (0 : Fin 2) * 10000 + 1 * p.val = t.val * 10000 + p.val; rw [e0]; omega
  | ⟨1, _⟩ => show win1_0.index t (1 : Fin 2) * 64 + 1 * q.val = q.val; rw [e1]; omega

/-- The pooled messages' block at point t is the same rows of the pooled messages. -/
theorem pooledBlock1_apply (c : Dev nD) (t : Fin cfg1.N) (p : Fin 10000) (q : Fin 64) :
    (iblk1 V c 1 t : Vec Ideal S10000x64 .f32) (ix2 p q)
      = (V c main_v19 : Arr2 100000 64) (ix2 ⟨t.val * 10000 + p.val, by have := pt1_lt t; omega⟩ q) := by
  obtain ⟨-, -, e0, e1, -⟩ := idx_facts1 t
  unfold iblk1
  rw [View.read_apply]
  show V c main_v19 _ = V c main_v19 _
  refine congrArg (V c main_v19) ?_
  funext a
  apply Fin.ext
  match a with
  | ⟨0, _⟩ => show win1_1.index t (0 : Fin 2) * 10000 + 1 * p.val = t.val * 10000 + p.val; rw [e0]; omega
  | ⟨1, _⟩ => show win1_1.index t (1 : Fin 2) * 64 + 1 * q.val = q.val; rw [e1]; omega

/-- Each of the five whole windows' blocks is its array. -/
theorem wholeBlocks1_eq (c : Dev nD) (t : Fin cfg1.N) :
    (iblk1 V c 2 t : Vec Ideal S64x64 .f32) = (V c main_v21 : Arr2 64 64)
    ∧ (iblk1 V c 3 t : Vec Ideal S64x64 .f32) = (V c main_v23 : Arr2 64 64)
    ∧ (iblk1 V c 4 t : Vec Ideal S1x64 .f32) = (V c main_v26 : Arr2 1 64)
    ∧ (iblk1 V c 5 t : Vec Ideal S1x64 .f32) = (V c main_v0 : Arr2 1 64)
    ∧ (iblk1 V c 6 t : Vec Ideal S1x64 .f32) = (V c main_v1 : Arr2 1 64) := by
  obtain ⟨-, -, -, -, a0, a1, b0, b1, c0, c1, d0, d1, f0, f1, -⟩ := idx_facts1 t
  refine ⟨funext fun y => ?_, funext fun y => ?_, funext fun y => ?_, funext fun y => ?_, funext fun y => ?_⟩
  · unfold iblk1
    rw [View.read_apply]
    show V c main_v21 _ = V c main_v21 y
    refine congrArg (V c main_v21) ?_
    funext a
    apply Fin.ext
    match a with
    | ⟨0, _⟩ => show win1_2.index t (0 : Fin 2) * 64 + 1 * (y 0).val = (y 0).val; rw [a0]; omega
    | ⟨1, _⟩ => show win1_2.index t (1 : Fin 2) * 64 + 1 * (y 1).val = (y 1).val; rw [a1]; omega
  · unfold iblk1
    rw [View.read_apply]
    show V c main_v23 _ = V c main_v23 y
    refine congrArg (V c main_v23) ?_
    funext a
    apply Fin.ext
    match a with
    | ⟨0, _⟩ => show win1_3.index t (0 : Fin 2) * 64 + 1 * (y 0).val = (y 0).val; rw [b0]; omega
    | ⟨1, _⟩ => show win1_3.index t (1 : Fin 2) * 64 + 1 * (y 1).val = (y 1).val; rw [b1]; omega
  · unfold iblk1
    rw [View.read_apply]
    show V c main_v26 _ = V c main_v26 y
    refine congrArg (V c main_v26) ?_
    funext a
    apply Fin.ext
    match a with
    | ⟨0, _⟩ => show win1_4.index t (0 : Fin 2) * 1 + 1 * (y 0).val = (y 0).val; rw [c0]; omega
    | ⟨1, _⟩ => show win1_4.index t (1 : Fin 2) * 64 + 1 * (y 1).val = (y 1).val; rw [c1]; omega
  · unfold iblk1
    rw [View.read_apply]
    show V c main_v0 _ = V c main_v0 y
    refine congrArg (V c main_v0) ?_
    funext a
    apply Fin.ext
    match a with
    | ⟨0, _⟩ => show win1_5.index t (0 : Fin 2) * 1 + 1 * (y 0).val = (y 0).val; rw [d0]; omega
    | ⟨1, _⟩ => show win1_5.index t (1 : Fin 2) * 64 + 1 * (y 1).val = (y 1).val; rw [d1]; omega
  · unfold iblk1
    rw [View.read_apply]
    show V c main_v1 _ = V c main_v1 y
    refine congrArg (V c main_v1) ?_
    funext a
    apply Fin.ext
    match a with
    | ⟨0, _⟩ => show win1_6.index t (0 : Fin 2) * 1 + 1 * (y 0).val = (y 0).val; rw [f0]; omega
    | ⟨1, _⟩ => show win1_6.index t (1 : Fin 2) * 64 + 1 * (y 1).val = (y 1).val; rw [f1]; omega

/-- What point t writes back is block t of the specification's array of the buffers the region finds. -/
theorem flushed1_eq (c : Dev nD) (t : Fin cfg1.N) :
    (dat1 (F := Ideal) V c).flushed 7 t
      = ((cfg1.win 7).blk t).view.read (Elt Ideal)
          (updArr (V c main_arg0 : Arr2 100000 64) (V c main_v19 : Arr2 100000 64) (V c main_v21 : Arr2 64 64)
            (V c main_v23 : Arr2 64 64) (V c main_v26 : Arr2 1 64) (V c main_v0 : Arr2 1 64) (V c main_v1 : Arr2 1 64)) := by
  show (cfg1.win 7).cut (grid1.coords t) ((dat1 V c).after 7 t) = _
  rw [after1_7]
  unfold out1_7
  rw [View.canon_unit_zero origin2]
  simp only [View.ld_unit_zero (S := S10000x64) origin2, View.ld_unit_zero (S := S64x64) origin2,
    View.ld_unit_zero (S := S1x64) origin2]
  obtain ⟨w2, w3, w4, w5, w6⟩ := wholeBlocks1_eq V c t
  obtain ⟨-, -, -, -, -, -, -, -, -, -, -, -, -, -, o0, o1⟩ := idx_facts1 t
  have ht := pt1_lt t
  funext j
  show k1_pay1 (F := Ideal) (k1_pay2 (iblk1 V c 0 t) (iblk1 V c 1 t) (iblk1 V c 2 t) (iblk1 V c 3 t) (iblk1 V c 4 t))
        (iblk1 V c 5 t) (iblk1 V c 6 t) j
      = updArr (V c main_arg0 : Arr2 100000 64) (V c main_v19 : Arr2 100000 64) (V c main_v21 : Arr2 64 64)
          (V c main_v23 : Arr2 64 64) (V c main_v26 : Arr2 1 64) (V c main_v0 : Arr2 1 64) (V c main_v1 : Arr2 1 64)
          (((cfg1.win 7).blk t).view.emb j)
  obtain ⟨p, q, rfl⟩ : ∃ (p : Fin 10000) (q : Fin 64), j = ix2 p q := ⟨j 0, j 1, eq_ix2 j⟩
  have hemb : ((cfg1.win 7).blk t).view.emb (ix2 p q)
      = (ix2 (⟨t.val * 10000 + p.val, by omega⟩ : Fin 100000) q : S100000x64.Idx) := by
    funext a
    apply Fin.ext
    match a with
    | ⟨0, _⟩ => show win1_7.index t (0 : Fin 2) * 10000 + 1 * p.val = t.val * 10000 + p.val; rw [o0]; omega
    | ⟨1, _⟩ => show win1_7.index t (1 : Fin 2) * 64 + 1 * q.val = q.val; rw [o1]; omega
  rw [hemb]
  refine (payload1_apply (iblk1 V c 0 t) (iblk1 V c 1 t) (iblk1 V c 2 t) (iblk1 V c 3 t) (iblk1 V c 4 t) (iblk1 V c 5 t)
    (iblk1 V c 6 t) p q).trans ?_
  rw [w2, w3, w4, w5, w6]
  exact updAt_congr_row _ _ _ _ _ _ _ _ _ p _ q (fun k => stateBlock1_apply V c t p k) (fun k => pooledBlock1_apply V c t p k)

/-- An entry of the output array is in point t's block iff each coordinate is in the block's range. -/
theorem mem_outBlock1 (t : Fin cfg1.N) (i : S100000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v27).slice (win1_7.rect t)).set ↔ _
  rw [View.set_slice_whole, Rect.mem_set_unit]
  exact Iff.rfl

/-- Row r of the output is written by point r / 10000: the ten blocks tile the 100000 rows. -/
theorem covered1 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by omega⟩, rfl⟩
  obtain ⟨-, -, -, -, -, -, -, -, -, -, -, -, -, -, o0, o1⟩ := idx_facts1 t
  refine ⟨t, flush1_7 t, ?_⟩
  rw [mem_outBlock1]
  intro a
  match a with
  | ⟨0, _⟩ =>
    show win1_7.index t (0 : Fin 2) * 10000 ≤ (i 0).val ∧ (i 0).val < win1_7.index t (0 : Fin 2) * 10000 + 10000
    rw [o0]; omega
  | ⟨1, _⟩ =>
    show win1_7.index t (1 : Fin 2) * 64 ≤ (i 1).val ∧ (i 1).val < win1_7.index t (1 : Fin 2) * 64 + 64
    rw [o1]; omega

/-- First round: the array region 1 leaves in its output (window 7). -/
theorem upd0_value (c : Dev nD) :
    ((dat1 (F := Ideal) V c).arrAt 7 cfg1.N : Arr2 100000 64)
      = updArr (V c main_arg0 : Arr2 100000 64) (V c main_v19 : Arr2 100000 64)
          (V c main_v21 : Arr2 64 64) (V c main_v23 : Arr2 64 64) (V c main_v26 : Arr2 1 64)
          (V c main_v0 : Arr2 1 64) (V c main_v1 : Arr2 1 64) := by
  exact (dat1 (F := Ideal) V c).arrAt_eq_of_cover 7
    (updArr (V c main_arg0 : Arr2 100000 64) (V c main_v19 : Arr2 100000 64)
      (V c main_v21 : Arr2 64 64) (V c main_v23 : Arr2 64 64) (V c main_v26 : Arr2 1 64)
      (V c main_v0 : Arr2 1 64) (V c main_v1 : Arr2 1 64))
    (fun t _ => flushed1_eq V c t) covered1

/-! ### From the blocks to the array: the second round

The second launch has the first's grid, windows and index maps over other arrays, so each step is the first round's. -/

/-- The printed index maps over the grid: point t takes block row t of the two row arrays and of the output, and block
    (0, 0) of the five whole arrays. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The grid has ten points. -/
theorem pt3_lt (t : Fin cfg3.N) : t.val < 10 := by have := t.isLt; have hN : cfg3.N = 10 := N_3; omega

/-- The second round's state's block at point t is rows 10000 t … 10000 t + 9999 of that state. -/
theorem stateBlock3_apply (c : Dev nD) (t : Fin cfg3.N) (p : Fin 10000) (q : Fin 64) :
    (iblk3 V c 0 t : Vec Ideal S10000x64 .f32) (ix2 p q)
      = (V c main_v27 : Arr2 100000 64) (ix2 ⟨t.val * 10000 + p.val, by have := pt3_lt t; omega⟩ q) := by
  obtain ⟨e0, e1, -⟩ := idx_facts3 t
  unfold iblk3
  rw [View.read_apply]
  show V c main_v27 _ = V c main_v27 _
  refine congrArg (V c main_v27) ?_
  funext a
  apply Fin.ext
  match a with
  | ⟨0, _⟩ => show win3_0.index t (0 : Fin 2) * 10000 + 1 * p.val = t.val * 10000 + p.val; rw [e0]; omega
  | ⟨1, _⟩ => show win3_0.index t (1 : Fin 2) * 64 + 1 * q.val = q.val; rw [e1]; omega

/-- The second round's pooled messages' block at point t is the same rows of those messages. -/
theorem pooledBlock3_apply (c : Dev nD) (t : Fin cfg3.N) (p : Fin 10000) (q : Fin 64) :
    (iblk3 V c 1 t : Vec Ideal S10000x64 .f32) (ix2 p q)
      = (V c main_v45 : Arr2 100000 64) (ix2 ⟨t.val * 10000 + p.val, by have := pt3_lt t; omega⟩ q) := by
  obtain ⟨-, -, e0, e1, -⟩ := idx_facts3 t
  unfold iblk3
  rw [View.read_apply]
  show V c main_v45 _ = V c main_v45 _
  refine congrArg (V c main_v45) ?_
  funext a
  apply Fin.ext
  match a with
  | ⟨0, _⟩ => show win3_1.index t (0 : Fin 2) * 10000 + 1 * p.val = t.val * 10000 + p.val; rw [e0]; omega
  | ⟨1, _⟩ => show win3_1.index t (1 : Fin 2) * 64 + 1 * q.val = q.val; rw [e1]; omega

/-- Each of the five whole windows' blocks is its array. -/
theorem wholeBlocks3_eq (c : Dev nD) (t : Fin cfg3.N) :
    (iblk3 V c 2 t : Vec Ideal S64x64 .f32) = (V c main_v47 : Arr2 64 64)
    ∧ (iblk3 V c 3 t : Vec Ideal S64x64 .f32) = (V c main_v49 : Arr2 64 64)
    ∧ (iblk3 V c 4 t : Vec Ideal S1x64 .f32) = (V c main_v52 : Arr2 1 64)
    ∧ (iblk3 V c 5 t : Vec Ideal S1x64 .f32) = (V c main_v0 : Arr2 1 64)
    ∧ (iblk3 V c 6 t : Vec Ideal S1x64 .f32) = (V c main_v1 : Arr2 1 64) := by
  obtain ⟨-, -, -, -, a0, a1, b0, b1, c0, c1, d0, d1, f0, f1, -⟩ := idx_facts3 t
  refine ⟨funext fun y => ?_, funext fun y => ?_, funext fun y => ?_, funext fun y => ?_, funext fun y => ?_⟩
  · unfold iblk3
    rw [View.read_apply]
    show V c main_v47 _ = V c main_v47 y
    refine congrArg (V c main_v47) ?_
    funext a
    apply Fin.ext
    match a with
    | ⟨0, _⟩ => show win3_2.index t (0 : Fin 2) * 64 + 1 * (y 0).val = (y 0).val; rw [a0]; omega
    | ⟨1, _⟩ => show win3_2.index t (1 : Fin 2) * 64 + 1 * (y 1).val = (y 1).val; rw [a1]; omega
  · unfold iblk3
    rw [View.read_apply]
    show V c main_v49 _ = V c main_v49 y
    refine congrArg (V c main_v49) ?_
    funext a
    apply Fin.ext
    match a with
    | ⟨0, _⟩ => show win3_3.index t (0 : Fin 2) * 64 + 1 * (y 0).val = (y 0).val; rw [b0]; omega
    | ⟨1, _⟩ => show win3_3.index t (1 : Fin 2) * 64 + 1 * (y 1).val = (y 1).val; rw [b1]; omega
  · unfold iblk3
    rw [View.read_apply]
    show V c main_v52 _ = V c main_v52 y
    refine congrArg (V c main_v52) ?_
    funext a
    apply Fin.ext
    match a with
    | ⟨0, _⟩ => show win3_4.index t (0 : Fin 2) * 1 + 1 * (y 0).val = (y 0).val; rw [c0]; omega
    | ⟨1, _⟩ => show win3_4.index t (1 : Fin 2) * 64 + 1 * (y 1).val = (y 1).val; rw [c1]; omega
  · unfold iblk3
    rw [View.read_apply]
    show V c main_v0 _ = V c main_v0 y
    refine congrArg (V c main_v0) ?_
    funext a
    apply Fin.ext
    match a with
    | ⟨0, _⟩ => show win3_5.index t (0 : Fin 2) * 1 + 1 * (y 0).val = (y 0).val; rw [d0]; omega
    | ⟨1, _⟩ => show win3_5.index t (1 : Fin 2) * 64 + 1 * (y 1).val = (y 1).val; rw [d1]; omega
  · unfold iblk3
    rw [View.read_apply]
    show V c main_v1 _ = V c main_v1 y
    refine congrArg (V c main_v1) ?_
    funext a
    apply Fin.ext
    match a with
    | ⟨0, _⟩ => show win3_6.index t (0 : Fin 2) * 1 + 1 * (y 0).val = (y 0).val; rw [f0]; omega
    | ⟨1, _⟩ => show win3_6.index t (1 : Fin 2) * 64 + 1 * (y 1).val = (y 1).val; rw [f1]; omega

/-- What point t writes back is block t of the specification's array of the buffers the region finds. -/
theorem flushed3_eq (c : Dev nD) (t : Fin cfg3.N) :
    (dat3 (F := Ideal) V c).flushed 7 t
      = ((cfg3.win 7).blk t).view.read (Elt Ideal)
          (updArr (V c main_v27 : Arr2 100000 64) (V c main_v45 : Arr2 100000 64) (V c main_v47 : Arr2 64 64)
            (V c main_v49 : Arr2 64 64) (V c main_v52 : Arr2 1 64) (V c main_v0 : Arr2 1 64) (V c main_v1 : Arr2 1 64)) := by
  show (cfg3.win 7).cut (grid3.coords t) ((dat3 V c).after 7 t) = _
  rw [after3_7]
  unfold out3_7
  rw [View.canon_unit_zero origin2]
  simp only [View.ld_unit_zero (S := S10000x64) origin2, View.ld_unit_zero (S := S64x64) origin2,
    View.ld_unit_zero (S := S1x64) origin2]
  obtain ⟨w2, w3, w4, w5, w6⟩ := wholeBlocks3_eq V c t
  obtain ⟨-, -, -, -, -, -, -, -, -, -, -, -, -, -, o0, o1⟩ := idx_facts3 t
  have ht := pt3_lt t
  funext j
  show k3_pay1 (F := Ideal) (k3_pay2 (iblk3 V c 0 t) (iblk3 V c 1 t) (iblk3 V c 2 t) (iblk3 V c 3 t) (iblk3 V c 4 t))
        (iblk3 V c 5 t) (iblk3 V c 6 t) j
      = updArr (V c main_v27 : Arr2 100000 64) (V c main_v45 : Arr2 100000 64) (V c main_v47 : Arr2 64 64)
          (V c main_v49 : Arr2 64 64) (V c main_v52 : Arr2 1 64) (V c main_v0 : Arr2 1 64) (V c main_v1 : Arr2 1 64)
          (((cfg3.win 7).blk t).view.emb j)
  obtain ⟨p, q, rfl⟩ : ∃ (p : Fin 10000) (q : Fin 64), j = ix2 p q := ⟨j 0, j 1, eq_ix2 j⟩
  have hemb : ((cfg3.win 7).blk t).view.emb (ix2 p q)
      = (ix2 (⟨t.val * 10000 + p.val, by omega⟩ : Fin 100000) q : S100000x64.Idx) := by
    funext a
    apply Fin.ext
    match a with
    | ⟨0, _⟩ => show win3_7.index t (0 : Fin 2) * 10000 + 1 * p.val = t.val * 10000 + p.val; rw [o0]; omega
    | ⟨1, _⟩ => show win3_7.index t (1 : Fin 2) * 64 + 1 * q.val = q.val; rw [o1]; omega
  rw [hemb]
  refine (payload3_apply (iblk3 V c 0 t) (iblk3 V c 1 t) (iblk3 V c 2 t) (iblk3 V c 3 t) (iblk3 V c 4 t) (iblk3 V c 5 t)
    (iblk3 V c 6 t) p q).trans ?_
  rw [w2, w3, w4, w5, w6]
  exact updAt_congr_row _ _ _ _ _ _ _ _ _ p _ q (fun k => stateBlock3_apply V c t p k) (fun k => pooledBlock3_apply V c t p k)

/-- An entry of the output array is in point t's block iff each coordinate is in the block's range. -/
theorem mem_outBlock3 (t : Fin cfg3.N) (i : S100000x64.Idx) :
    i ∈ ((cfg3.win 7).blk t).view.set ↔ ∀ a : Fin 2, win3_7.index t a * S10000x64.size a ≤ (i a).val
      ∧ (i a).val < win3_7.index t a * S10000x64.size a + S10000x64.size a := by
  show i ∈ ((View.whole main_v53).slice (win3_7.rect t)).set ↔ _
  rw [View.set_slice_whole, Rect.mem_set_unit]
  exact Iff.rfl

/-- Row r of the output is written by point r / 10000: the ten blocks tile the 100000 rows. -/
theorem covered3 (i : S100000x64.Idx) :
    ∃ t : Fin cfg3.N, (cfg3.win 7).flush t = true ∧ i ∈ ((cfg3.win 7).blk t).view.set := by
  have hi0 : (i 0).val < 100000 := (i 0).isLt
  have hi1 : (i 1).val < 64 := (i 1).isLt
  have hN : cfg3.N = 10 := N_3
  obtain ⟨t, ht⟩ : ∃ t : Fin cfg3.N, t.val = (i 0).val / 10000 := ⟨⟨(i 0).val / 10000, by omega⟩, rfl⟩
  obtain ⟨-, -, -, -, -, -, -, -, -, -, -, -, -, -, o0, o1⟩ := idx_facts3 t
  refine ⟨t, flush3_7 t, ?_⟩
  rw [mem_outBlock3]
  intro a
  match a with
  | ⟨0, _⟩ =>
    show win3_7.index t (0 : Fin 2) * 10000 ≤ (i 0).val ∧ (i 0).val < win3_7.index t (0 : Fin 2) * 10000 + 10000
    rw [o0]; omega
  | ⟨1, _⟩ =>
    show win3_7.index t (1 : Fin 2) * 64 ≤ (i 1).val ∧ (i 1).val < win3_7.index t (1 : Fin 2) * 64 + 64
    rw [o1]; omega

/-- Second round: the same kernel launched again (region 3). -/
theorem upd1_value (c : Dev nD) :
    ((dat3 (F := Ideal) V c).arrAt 7 cfg3.N : Arr2 100000 64)
      = updArr (V c main_v27 : Arr2 100000 64) (V c main_v45 : Arr2 100000 64)
          (V c main_v47 : Arr2 64 64) (V c main_v49 : Arr2 64 64) (V c main_v52 : Arr2 1 64)
          (V c main_v0 : Arr2 1 64) (V c main_v1 : Arr2 1 64) := by
  exact (dat3 (F := Ideal) V c).arrAt_eq_of_cover 7
    (updArr (V c main_v27 : Arr2 100000 64) (V c main_v45 : Arr2 100000 64)
      (V c main_v47 : Arr2 64 64) (V c main_v49 : Arr2 64 64) (V c main_v52 : Arr2 1 64)
      (V c main_v0 : Arr2 1 64) (V c main_v1 : Arr2 1 64))
    (fun t _ => flushed3_eq V c t) covered3

end Cert.KI

end
-- ==== Proof.KHostA.lean ====
/-
  The kernel's program from the launch to the end of the first round. Between the regions the host gathers the source
  rows, cuts the parameter slices and adds the messages up per node; no host operation and no region writes an argument
  array. So the state after the first round is the specification's round applied to the arguments, and every argument,
  and the scale and shift rows, are still what they were.
-/
import proofs.«409774_j1357209666175_2_alg».proof.Proof.KIFrame
import proofs.«409774_j1357209666175_2_alg».proof.Proof.Spec
import proofs.«409774_j1357209666175_2_alg».proof.Proof.StageOps
import proofs.«409774_j1357209666175_2_alg».proof.Proof.SliceOps
import proofs.«409774_j1357209666175_2_alg».proof.Proof.KMsg
import proofs.«409774_j1357209666175_2_alg».proof.Proof.KUpd
import Idealize.ShloMosaic.Lib.Pipeline.Value
import Idealize.ShloMosaic.Lib.ValueIdx
import Idealize.ShloMosaic.Lib.StableHlo.Run

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The argument arrays as launched, on core `c`. -/
abbrev A0 (c : Dev nD) : Arr2 100000 64 := m ((c : Thread nD τ).loc main_arg0)
abbrev A1 (c : Dev nD) : Arr2 1600000 64 := m ((c : Thread nD τ).loc main_arg1)
abbrev A2 (c : Dev nD) : Wrd1 1600000 := m ((c : Thread nD τ).loc main_arg2)
abbrev A3 (c : Dev nD) : Wrd1 1600000 := m ((c : Thread nD τ).loc main_arg3)
abbrev A4 (c : Dev nD) : Wrd1 100000 := m ((c : Thread nD τ).loc main_arg4)
abbrev A5 (c : Dev nD) : Arr3 2 128 64 := m ((c : Thread nD τ).loc main_arg5)
abbrev A6 (c : Dev nD) : Arr2 2 64 := m ((c : Thread nD τ).loc main_arg6)
abbrev A7 (c : Dev nD) : Arr3 2 128 64 := m ((c : Thread nD τ).loc main_arg7)
abbrev A8 (c : Dev nD) : Arr2 2 64 := m ((c : Thread nD τ).loc main_arg8)
abbrev A9 (c : Dev nD) : Arr1 64 := m ((c : Thread nD τ).loc main_arg9)
abbrev A10 (c : Dev nD) : Arr1 64 := m ((c : Thread nD τ).loc main_arg10)

/-- The node state after the first round: region 1's output array at its exit. -/
abbrev H1 (c : Dev nD) : Arr2 100000 64 := W4 m ρ c (Proc.devRef .tc main_v27)

/-- A buffer that none of a host stretch's operations writes holds after the stretch what it held before. -/
local macro "host_keeps" ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))

/-! ## The arguments up to region 1's entry: no host operation writes one, and region 0 only reads the edge features -/

private theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl
private theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := by host_keeps hostOps0
    _ = m ((c : Thread nD τ).loc main_arg1) := rfl
private theorem W1_arg2 (c : Dev nD) : W1 m ρ c (Proc.devRef .tc main_arg2) = m ((c : Thread nD τ).loc main_arg2) :=
  calc W1 m ρ c (Proc.devRef .tc main_arg2)
    _ = W0 m ρ c (Proc.devRef .tc main_arg2) := by host_keeps hostOps0
    _ = m ((c : Thread nD τ).loc main_arg2) := rfl
private theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by host_keeps hostOps0
    _ = m ((c : Thread nD τ).loc main_arg3) := rfl
private theorem W1_arg4 (c : Dev nD) : W1 m ρ c (Proc.devRef .tc main_arg4) = m ((c : Thread nD τ).loc main_arg4) :=
  calc W1 m ρ c (Proc.devRef .tc main_arg4)
    _ = W0 m ρ c (Proc.devRef .tc main_arg4) := by host_keeps hostOps0
    _ = m ((c : Thread nD τ).loc main_arg4) := rfl
private theorem W1_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by host_keeps hostOps0
    _ = m ((c : Thread nD τ).loc main_arg5) := rfl
private theorem W1_arg6 (c : Dev nD) : W1 m ρ c (Proc.devRef .tc main_arg6) = m ((c : Thread nD τ).loc main_arg6) :=
  calc W1 m ρ c (Proc.devRef .tc main_arg6)
    _ = W0 m ρ c (Proc.devRef .tc main_arg6) := by host_keeps hostOps0
    _ = m ((c : Thread nD τ).loc main_arg6) := rfl
private theorem W1_arg7 (c : Dev nD) : W1 m ρ c (Proc.devRef .tc main_arg7) = m ((c : Thread nD τ).loc main_arg7) :=
  calc W1 m ρ c (Proc.devRef .tc main_arg7)
    _ = W0 m ρ c (Proc.devRef .tc main_arg7) := by host_keeps hostOps0
    _ = m ((c : Thread nD τ).loc main_arg7) := rfl
private theorem W1_arg8 (c : Dev nD) : W1 m ρ c (Proc.devRef .tc main_arg8) = m ((c : Thread nD τ).loc main_arg8) :=
  calc W1 m ρ c (Proc.devRef .tc main_arg8)
    _ = W0 m ρ c (Proc.devRef .tc main_arg8) := by host_keeps hostOps0
    _ = m ((c : Thread nD τ).loc main_arg8) := rfl

private theorem W2_arg0 (c : Dev nD) : W2 m ρ c (Proc.devRef .tc main_arg0) = m ((c : Thread nD τ).loc main_arg0) :=
  (W2_of_ne m ρ c main_arg0 (by decide)).trans (W1_arg0 m ρ c)
private theorem W2_arg1 (c : Dev nD) : W2 m ρ c (Proc.devRef .tc main_arg1) = m ((c : Thread nD τ).loc main_arg1) :=
  (W2_arr m ρ c 1).trans (((dat0 (V1 m ρ) c).arrAt_in 1 rfl _).trans ((A_eq0 (V1 m ρ) c 1).trans (W1_arg1 m ρ c)))
private theorem W2_arg2 (c : Dev nD) : W2 m ρ c (Proc.devRef .tc main_arg2) = m ((c : Thread nD τ).loc main_arg2) :=
  (W2_of_ne m ρ c main_arg2 (by decide)).trans (W1_arg2 m ρ c)
private theorem W2_arg3 (c : Dev nD) : W2 m ρ c (Proc.devRef .tc main_arg3) = m ((c : Thread nD τ).loc main_arg3) :=
  (W2_of_ne m ρ c main_arg3 (by decide)).trans (W1_arg3 m ρ c)
private theorem W2_arg4 (c : Dev nD) : W2 m ρ c (Proc.devRef .tc main_arg4) = m ((c : Thread nD τ).loc main_arg4) :=
  (W2_of_ne m ρ c main_arg4 (by decide)).trans (W1_arg4 m ρ c)
private theorem W2_arg5 (c : Dev nD) : W2 m ρ c (Proc.devRef .tc main_arg5) = m ((c : Thread nD τ).loc main_arg5) :=
  (W2_of_ne m ρ c main_arg5 (by decide)).trans (W1_arg5 m ρ c)
private theorem W2_arg6 (c : Dev nD) : W2 m ρ c (Proc.devRef .tc main_arg6) = m ((c : Thread nD τ).loc main_arg6) :=
  (W2_of_ne m ρ c main_arg6 (by decide)).trans (W1_arg6 m ρ c)
private theorem W2_arg7 (c : Dev nD) : W2 m ρ c (Proc.devRef .tc main_arg7) = m ((c : Thread nD τ).loc main_arg7) :=
  (W2_of_ne m ρ c main_arg7 (by decide)).trans (W1_arg7 m ρ c)
private theorem W2_arg8 (c : Dev nD) : W2 m ρ c (Proc.devRef .tc main_arg8) = m ((c : Thread nD τ).loc main_arg8) :=
  (W2_of_ne m ρ c main_arg8 (by decide)).trans (W1_arg8 m ρ c)

private theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := by host_keeps hostOps1
    _ = m ((c : Thread nD τ).loc main_arg0) := W2_arg0 m ρ c
private theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := by host_keeps hostOps1
    _ = m ((c : Thread nD τ).loc main_arg1) := W2_arg1 m ρ c
private theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := by host_keeps hostOps1
    _ = m ((c : Thread nD τ).loc main_arg2) := W2_arg2 m ρ c
private theorem W3_arg3 (c : Dev nD) : W3 m ρ c (Proc.devRef .tc main_arg3) = m ((c : Thread nD τ).loc main_arg3) :=
  calc W3 m ρ c (Proc.devRef .tc main_arg3)
    _ = W2 m ρ c (Proc.devRef .tc main_arg3) := by host_keeps hostOps1
    _ = m ((c : Thread nD τ).loc main_arg3) := W2_arg3 m ρ c
private theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := by host_keeps hostOps1
    _ = m ((c : Thread nD τ).loc main_arg4) := W2_arg4 m ρ c
private theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keeps hostOps1
    _ = m ((c : Thread nD τ).loc main_arg5) := W2_arg5 m ρ c
private theorem W3_arg6 (c : Dev nD) : W3 m ρ c (Proc.devRef .tc main_arg6) = m ((c : Thread nD τ).loc main_arg6) :=
  calc W3 m ρ c (Proc.devRef .tc main_arg6)
    _ = W2 m ρ c (Proc.devRef .tc main_arg6) := by host_keeps hostOps1
    _ = m ((c : Thread nD τ).loc main_arg6) := W2_arg6 m ρ c
private theorem W3_arg7 (c : Dev nD) : W3 m ρ c (Proc.devRef .tc main_arg7) = m ((c : Thread nD τ).loc main_arg7) :=
  calc W3 m ρ c (Proc.devRef .tc main_arg7)
    _ = W2 m ρ c (Proc.devRef .tc main_arg7) := by host_keeps hostOps1
    _ = m ((c : Thread nD τ).loc main_arg7) := W2_arg7 m ρ c
private theorem W3_arg8 (c : Dev nD) : W3 m ρ c (Proc.devRef .tc main_arg8) = m ((c : Thread nD τ).loc main_arg8) :=
  calc W3 m ρ c (Proc.devRef .tc main_arg8)
    _ = W2 m ρ c (Proc.devRef .tc main_arg8) := by host_keeps hostOps1
    _ = m ((c : Thread nD τ).loc main_arg8) := W2_arg8 m ρ c

/-! ## Region 0's input arrays, and what it leaves -/

/-- The source rows: the node array gathered by the wrapped source words. -/
private theorem V1_v8 (c : Dev nD) : (V1 m ρ c main_v8 : Arr2 1600000 64) = gatherArr (A0 m c) (A2 m c) := by
  show StableHlo.after hostOps0 (W0 m ρ c) (Proc.devRef .tc main_v8) = _
  after_results
  exact gather_stage _ rfl rfl rfl rfl rfl rfl rfl _ _ _ _

private theorem V1_arg1 (c : Dev nD) : (V1 m ρ c main_arg1 : Arr2 1600000 64) = A1 m c := W1_arg1 m ρ c

/-- The two halves of the first message matrix and the first message bias row. -/
private theorem V1_v10 (c : Dev nD) : (V1 m ρ c main_v10 : Arr2 64 64) = wTop (A5 m c) 0 := by
  show StableHlo.after hostOps0 (W0 m ρ c) (Proc.devRef .tc main_v10) = _
  after_results
  exact wTop0_stage _ _ _

private theorem V1_v12 (c : Dev nD) : (V1 m ρ c main_v12 : Arr2 64 64) = wBot (A5 m c) 0 := by
  show StableHlo.after hostOps0 (W0 m ρ c) (Proc.devRef .tc main_v12) = _
  after_results
  exact wBot0_stage _ _ _

private theorem V1_v15 (c : Dev nD) : (V1 m ρ c main_v15 : Arr2 1 64) = bRow (A6 m c) 0 := by
  show StableHlo.after hostOps0 (W0 m ρ c) (Proc.devRef .tc main_v15) = _
  after_results
  exact bRow0_stage _ _ _ _

/-- The scale and shift rows, made before region 0. -/
private theorem W1_v0 (c : Dev nD) : (W1 m ρ c (Proc.devRef .tc main_v0) : Arr2 1 64) = vRow (A9 m c) := by
  show StableHlo.after hostOps0 (W0 m ρ c) (Proc.devRef .tc main_v0) = _
  after_results
  exact vRow_stage _ _

private theorem W1_v1 (c : Dev nD) : (W1 m ρ c (Proc.devRef .tc main_v1) : Arr2 1 64) = vRow (A10 m c) := by
  show StableHlo.after hostOps0 (W0 m ρ c) (Proc.devRef .tc main_v1) = _
  after_results
  exact vRow_stage _ _

/-- The messages of the first round. -/
private theorem W2_v16 (c : Dev nD) : (W2 m ρ c (Proc.devRef .tc main_v16) : Arr2 1600000 64)
    = msgArr (gatherArr (A0 m c) (A2 m c)) (A1 m c) (wTop (A5 m c) 0) (wBot (A5 m c) 0) (bRow (A6 m c) 0) := by
  refine (W2_arr m ρ c 5).trans ((msg0_value (V1 m ρ) c).trans ?_)
  rw [V1_v8 m ρ c, V1_arg1 m ρ c, V1_v10 m ρ c, V1_v12 m ρ c, V1_v15 m ρ c]

/-! ## Region 1's input arrays -/

private theorem V3_arg0 (c : Dev nD) : (V3 m ρ c main_arg0 : Arr2 100000 64) = A0 m c := W3_arg0 m ρ c

/-- The pooled messages: the first round's messages added up per target node. -/
private theorem V3_v19 (c : Dev nD) : (V3 m ρ c main_v19 : Arr2 100000 64)
    = segArr 100000 (msgArr (gatherArr (A0 m c) (A2 m c)) (A1 m c) (wTop (A5 m c) 0) (wBot (A5 m c) 0) (bRow (A6 m c) 0)) (A3 m c) := by
  show StableHlo.after hostOps1 (W2 m ρ c) (Proc.devRef .tc main_v19) = _
  after_results
  refine (seg_stage _ rfl rfl rfl rfl _ _ _ _).trans ?_
  rw [W2_v16 m ρ c, W2_arg3 m ρ c]

/-- The two halves of the first update matrix and the first update bias row. -/
private theorem V3_v21 (c : Dev nD) : (V3 m ρ c main_v21 : Arr2 64 64) = wTop (A7 m c) 0 := by
  show StableHlo.after hostOps1 (W2 m ρ c) (Proc.devRef .tc main_v21) = _
  after_results
  refine (wTop0_stage _ _ _).trans ?_
  rw [W2_arg7 m ρ c]

private theorem V3_v23 (c : Dev nD) : (V3 m ρ c main_v23 : Arr2 64 64) = wBot (A7 m c) 0 := by
  show StableHlo.after hostOps1 (W2 m ρ c) (Proc.devRef .tc main_v23) = _
  after_results
  refine (wBot0_stage _ _ _).trans ?_
  rw [W2_arg7 m ρ c]

private theorem V3_v26 (c : Dev nD) : (V3 m ρ c main_v26 : Arr2 1 64) = bRow (A8 m c) 0 := by
  show StableHlo.after hostOps1 (W2 m ρ c) (Proc.devRef .tc main_v26) = _
  after_results
  refine (bRow0_stage _ _ _ _).trans ?_
  rw [W2_arg8 m ρ c]

private theorem V3_v0 (c : Dev nD) : (V3 m ρ c main_v0 : Arr2 1 64) = vRow (A9 m c) :=
  calc W3 m ρ c (Proc.devRef .tc main_v0)
    _ = W2 m ρ c (Proc.devRef .tc main_v0) := by host_keeps hostOps1
    _ = W1 m ρ c (Proc.devRef .tc main_v0) := W2_of_ne m ρ c main_v0 (by decide)
    _ = vRow (A9 m c) := W1_v0 m ρ c

private theorem V3_v1 (c : Dev nD) : (V3 m ρ c main_v1 : Arr2 1 64) = vRow (A10 m c) :=
  calc W3 m ρ c (Proc.devRef .tc main_v1)
    _ = W2 m ρ c (Proc.devRef .tc main_v1) := by host_keeps hostOps1
    _ = W1 m ρ c (Proc.devRef .tc main_v1) := W2_of_ne m ρ c main_v1 (by decide)
    _ = vRow (A10 m c) := W1_v1 m ρ c

/-! ## Region 1's exit -/

/-- After the first round the node state is the specification's round 0 of the arguments. -/
theorem W4_v27 (c : Dev nD) :
    H1 m ρ c = hopArr 0 (A0 m c) (A1 m c) (A2 m c) (A3 m c) (A5 m c) (A6 m c) (A7 m c) (A8 m c) (A9 m c) (A10 m c) := by
  refine (W4_arr m ρ c 7).trans ((upd0_value (V3 m ρ) c).trans ?_)
  rw [V3_arg0 m ρ c, V3_v19 m ρ c, V3_v21 m ρ c, V3_v23 m ρ c, V3_v26 m ρ c, V3_v0 m ρ c, V3_v1 m ρ c]
  rfl

/-! The arguments the second round and the pooling read are unchanged at region 1's exit. -/
theorem W4_arg1 (c : Dev nD) : W4 m ρ c (Proc.devRef .tc main_arg1) = m ((c : Thread nD τ).loc main_arg1) :=
  (W4_of_ne m ρ c main_arg1 (by decide)).trans (W3_arg1 m ρ c)
theorem W4_arg2 (c : Dev nD) : W4 m ρ c (Proc.devRef .tc main_arg2) = m ((c : Thread nD τ).loc main_arg2) :=
  (W4_of_ne m ρ c main_arg2 (by decide)).trans (W3_arg2 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_arg8 (c : Dev nD) : W4 m ρ c (Proc.devRef .tc main_arg8) = m ((c : Thread nD τ).loc main_arg8) :=
  (W4_of_ne m ρ c main_arg8 (by decide)).trans (W3_arg8 m ρ c)

/-- The scale and shift rows (reshapes of the two vectors, made before the first region) are still there. -/
theorem W4_v0 (c : Dev nD) : (W4 m ρ c (Proc.devRef .tc main_v0) : Arr2 1 64) = vRow (A9 m c) :=
  (W4_arr m ρ c 5).trans (((dat1 (V3 m ρ) c).arrAt_in 5 rfl _).trans ((A_eq1 (V3 m ρ) c 5).trans (V3_v0 m ρ c)))
theorem W4_v1 (c : Dev nD) : (W4 m ρ c (Proc.devRef .tc main_v1) : Arr2 1 64) = vRow (A10 m c) :=
  (W4_arr m ρ c 6).trans (((dat1 (V3 m ρ) c).arrAt_in 6 rfl _).trans ((A_eq1 (V3 m ρ) c 6).trans (V3_v1 m ρ c)))

end Cert.KI

end
-- ==== Proof.KHostB.lean ====
/-
  The kernel's program through the second round: the same stages as the first, from the node state the first round
  left, with the second matrices and bias rows.
-/
import proofs.«409774_j1357209666175_2_alg».proof.Proof.KIFrame
import proofs.«409774_j1357209666175_2_alg».proof.Proof.Spec
import proofs.«409774_j1357209666175_2_alg».proof.Proof.StageOps
import proofs.«409774_j1357209666175_2_alg».proof.Proof.SliceOps
import proofs.«409774_j1357209666175_2_alg».proof.Proof.KMsg
import proofs.«409774_j1357209666175_2_alg».proof.Proof.KUpd
import Idealize.ShloMosaic.Lib.Pipeline.Value
import Idealize.ShloMosaic.Lib.ValueIdx
import Idealize.ShloMosaic.Lib.StableHlo.Run
import proofs.«409774_j1357209666175_2_alg».proof.Proof.KHostA

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The node state after the second round: region 3's output array at its exit. -/
abbrev H2 (c : Dev nD) : Arr2 100000 64 := W8 m ρ c (Proc.devRef .tc main_v53)

/-- A buffer that no operation of a host stretch writes holds after the stretch what it held before. -/
local macro "unwritten" h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Region 2's entry: the five arrays the message kernel reads in the second round -/

/-- The gathered rows: the first round's node state, gathered by the wrapped source words. -/
theorem V5_v34 (c : Dev nD) : (V5 m ρ c main_v34 : Arr2 1600000 64) = gatherArr (H1 m ρ c) (A2 m c) := by
  show StableHlo.after hostOps2 (W4 m ρ c) (Proc.devRef .tc main_v34) = _
  after_results
  rw [W4_arg2 m ρ c]
  exact gather_stage gather_S100000x64_S1600000x1_S1600000x64_1_0_n_n_0_1_164 rfl rfl rfl rfl rfl rfl rfl
    bcast_S_S1600000 bcast_S1600000_S1600000x1_0 _ _

/-- The edge features: no operation of the stretch writes them. -/
theorem V5_arg1 (c : Dev nD) : (V5 m ρ c main_arg1 : Arr2 1600000 64) = A1 m c :=
  calc W5 m ρ c (Proc.devRef .tc main_arg1)
    _ = W4 m ρ c (Proc.devRef .tc main_arg1) := by unwritten hostOps2
    _ = A1 m c := W4_arg1 m ρ c

/-- The upper half of the second message matrix. -/
theorem V5_v36 (c : Dev nD) : (V5 m ρ c main_v36 : Arr2 64 64) = wTop (A5 m c) 1 := by
  show StableHlo.after hostOps2 (W4 m ρ c) (Proc.devRef .tc main_v36) = _
  after_results
  rw [W4_arg5 m ρ c]
  exact wTop1_stage _ slices_S2x128x64_S1x64x64_1_0_0 shapeCasts_S1x64x64_S64x64

/-- The lower half of the second message matrix. -/
theorem V5_v38 (c : Dev nD) : (V5 m ρ c main_v38 : Arr2 64 64) = wBot (A5 m c) 1 := by
  show StableHlo.after hostOps2 (W4 m ρ c) (Proc.devRef .tc main_v38) = _
  after_results
  rw [W4_arg5 m ρ c]
  exact wBot1_stage _ slices_S2x128x64_S1x64x64_1_64_0 shapeCasts_S1x64x64_S64x64

/-- The second message bias row. -/
theorem V5_v41 (c : Dev nD) : (V5 m ρ c main_v41 : Arr2 1 64) = bRow (A6 m c) 1 := by
  show StableHlo.after hostOps2 (W4 m ρ c) (Proc.devRef .tc main_v41) = _
  after_results
  rw [W4_arg6 m ρ c]
  exact bRow1_stage _ slices_S2x64_S1x64_1_0 shapeCasts_S1x64_S64 shapeCasts_S64_S1x64

/-! ## Region 2's exit -/

/-- The second round's messages. -/
theorem W6_v42 (c : Dev nD) :
    (W6 m ρ c (Proc.devRef .tc main_v42) : Arr2 1600000 64)
      = msgArr (gatherArr (H1 m ρ c) (A2 m c)) (A1 m c) (wTop (A5 m c) 1) (wBot (A5 m c) 1) (bRow (A6 m c) 1) := by
  refine (W6_arr m ρ c 5).trans ((msg1_value (V5 m ρ) c).trans ?_)
  rw [V5_v34 m ρ c, V5_arg1 m ρ c, V5_v36 m ρ c, V5_v38 m ρ c, V5_v41 m ρ c]

/-- The target words pass the stretch and the region untouched. -/
theorem W6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by unwritten hostOps2
    _ = m ((c : Thread nD τ).loc main_arg3) := W4_arg3 m ρ c

/-- So do the update matrices … -/
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := by unwritten hostOps2
    _ = m ((c : Thread nD τ).loc main_arg7) := W4_arg7 m ρ c

/-- … the update bias rows … -/
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := by unwritten hostOps2
    _ = m ((c : Thread nD τ).loc main_arg8) := W4_arg8 m ρ c

/-- … the first round's node state (region 2 reads its gathered copy, not the array itself) … -/
theorem W6_v27 (c : Dev nD) : (W6 m ρ c (Proc.devRef .tc main_v27) : Arr2 100000 64) = H1 m ρ c :=
  calc W6 m ρ c (Proc.devRef .tc main_v27)
    _ = W5 m ρ c (Proc.devRef .tc main_v27) := W6_of_ne m ρ c main_v27 (by decide)
    _ = W4 m ρ c (Proc.devRef .tc main_v27) := by unwritten hostOps2

/-- … and the scale and shift rows. -/
theorem W6_v0 (c : Dev nD) : (W6 m ρ c (Proc.devRef .tc main_v0) : Arr2 1 64) = vRow (A9 m c) :=
  calc W6 m ρ c (Proc.devRef .tc main_v0)
    _ = W5 m ρ c (Proc.devRef .tc main_v0) := W6_of_ne m ρ c main_v0 (by decide)
    _ = W4 m ρ c (Proc.devRef .tc main_v0) := by unwritten hostOps2
    _ = vRow (A9 m c) := W4_v0 m ρ c
theorem W6_v1 (c : Dev nD) : (W6 m ρ c (Proc.devRef .tc main_v1) : Arr2 1 64) = vRow (A10 m c) :=
  calc W6 m ρ c (Proc.devRef .tc main_v1)
    _ = W5 m ρ c (Proc.devRef .tc main_v1) := W6_of_ne m ρ c main_v1 (by decide)
    _ = W4 m ρ c (Proc.devRef .tc main_v1) := by unwritten hostOps2
    _ = vRow (A10 m c) := W4_v1 m ρ c

/-! ## Region 3's entry: the seven arrays the update kernel reads in the second round -/

/-- The node state is still the first round's. -/
theorem V7_v27 (c : Dev nD) : (V7 m ρ c main_v27 : Arr2 100000 64) = H1 m ρ c :=
  calc W7 m ρ c (Proc.devRef .tc main_v27)
    _ = W6 m ρ c (Proc.devRef .tc main_v27) := by unwritten hostOps3
    _ = H1 m ρ c := W6_v27 m ρ c

/-- The messages added up per node, from the zero array. -/
theorem V7_v45 (c : Dev nD) :
    (V7 m ρ c main_v45 : Arr2 100000 64)
      = segArr 100000 (msgArr (gatherArr (H1 m ρ c) (A2 m c)) (A1 m c) (wTop (A5 m c) 1) (wBot (A5 m c) 1) (bRow (A6 m c) 1))
          (A3 m c) := by
  show StableHlo.after hostOps3 (W6 m ρ c) (Proc.devRef .tc main_v45) = _
  after_results
  rw [W6_arg3 m ρ c, W6_v42 m ρ c]
  exact seg_stage scatter_S100000x64_S1600000x1_S1600000x64_1_0_0_1 rfl rfl rfl rfl
    bcast_S_S100000x64 bcast_S1600000_S1600000x1_0 _ _

/-- The upper half of the second update matrix. -/
theorem V7_v47 (c : Dev nD) : (V7 m ρ c main_v47 : Arr2 64 64) = wTop (A7 m c) 1 := by
  show StableHlo.after hostOps3 (W6 m ρ c) (Proc.devRef .tc main_v47) = _
  after_results
  rw [W6_arg7 m ρ c]
  exact wTop1_stage _ slices_S2x128x64_S1x64x64_1_0_0 shapeCasts_S1x64x64_S64x64

/-- The lower half of the second update matrix. -/
theorem V7_v49 (c : Dev nD) : (V7 m ρ c main_v49 : Arr2 64 64) = wBot (A7 m c) 1 := by
  show StableHlo.after hostOps3 (W6 m ρ c) (Proc.devRef .tc main_v49) = _
  after_results
  rw [W6_arg7 m ρ c]
  exact wBot1_stage _ slices_S2x128x64_S1x64x64_1_64_0 shapeCasts_S1x64x64_S64x64

/-- The second update bias row. -/
theorem V7_v52 (c : Dev nD) : (V7 m ρ c main_v52 : Arr2 1 64) = bRow (A8 m c) 1 := by
  show StableHlo.after hostOps3 (W6 m ρ c) (Proc.devRef .tc main_v52) = _
  after_results
  rw [W6_arg8 m ρ c]
  exact bRow1_stage _ slices_S2x64_S1x64_1_0 shapeCasts_S1x64_S64 shapeCasts_S64_S1x64

/-- The scale and shift rows. -/
theorem V7_v0 (c : Dev nD) : (V7 m ρ c main_v0 : Arr2 1 64) = vRow (A9 m c) :=
  calc W7 m ρ c (Proc.devRef .tc main_v0)
    _ = W6 m ρ c (Proc.devRef .tc main_v0) := by unwritten hostOps3
    _ = vRow (A9 m c) := W6_v0 m ρ c
theorem V7_v1 (c : Dev nD) : (V7 m ρ c main_v1 : Arr2 1 64) = vRow (A10 m c) :=
  calc W7 m ρ c (Proc.devRef .tc main_v1)
    _ = W6 m ρ c (Proc.devRef .tc main_v1) := by unwritten hostOps3
    _ = vRow (A10 m c) := W6_v1 m ρ c

/-! ## Region 3's exit -/

/-- After the second round the node state is the specification's round 1 of the first round's state. -/
theorem W8_v53 (c : Dev nD) :
    H2 m ρ c = hopArr 1 (H1 m ρ c) (A1 m c) (A2 m c) (A3 m c) (A5 m c) (A6 m c) (A7 m c) (A8 m c) (A9 m c) (A10 m c) := by
  refine (W8_arr m ρ c 7).trans ((upd1_value (V7 m ρ) c).trans ?_)
  rw [V7_v27 m ρ c, V7_v45 m ρ c, V7_v47 m ρ c, V7_v49 m ρ c, V7_v52 m ρ c, V7_v0 m ρ c, V7_v1 m ρ c]
  rfl

/-- The graph words are unchanged at region 3's exit. -/
theorem W8_arg4 (c : Dev nD) : W8 m ρ c (Proc.devRef .tc main_arg4) = m ((c : Thread nD τ).loc main_arg4) :=
  calc W8 m ρ c (Proc.devRef .tc main_arg4)
    _ = W7 m ρ c (Proc.devRef .tc main_arg4) := W8_of_ne m ρ c main_arg4 (by decide)
    _ = W6 m ρ c (Proc.devRef .tc main_arg4) := by unwritten hostOps3
    _ = W5 m ρ c (Proc.devRef .tc main_arg4) := W6_of_ne m ρ c main_arg4 (by decide)
    _ = W4 m ρ c (Proc.devRef .tc main_arg4) := by unwritten hostOps2
    _ = m ((c : Thread nD τ).loc main_arg4) := W4_arg4 m ρ c

end Cert.KI

end
-- ==== Proof.KPool.lean ====
/-
  The pooling kernel's two result arrays. A grid of 10 points over blocks of 10000 node rows; point 0 first zeroes both
  accumulators, and every point adds, for each of the 16 graphs, the rows of its block whose graph word is that graph
  (a product with the 0/1 membership matrix) and the number of such rows. After the last point the accumulators hold the
  sums over all 100000 nodes: a sum over the ten blocks of sums over 10000 rows is the sum over the rows.
-/
import proofs.«409774_j1357209666175_2_alg».proof.Proof.KIFrame
import proofs.«409774_j1357209666175_2_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

/-! ## What each control case leaves in the two accumulators -/

section Pieces
variable {F : FTy → Type} [FloatOps F]

/-- The offsets (0, 0) of a whole-block access are the zero function. -/
theorem hz2 : (![0, 0] : Fin 2 → Nat) = fun _ => 0 := funext fun a => by fin_cases a <;> rfl

/-- At the first point the row accumulator is zeroed and then the block's contribution is added to the zeros. -/
theorem pieceA2 (c : Dev nD) (i : grid4.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S16x1 .f32) (h4 : a4.IsWhole) (hc : cond4_0 i)
    (x0 : Vec F S10000x64 .f32) (x1 : Vec F S10000x1 .i32) :
    out4_A_2 c i a1 h1 a2 h2 a3 h3 a4 h4 hc x0 x1 = k4_pay4 x0 x1 (k4_pay1 (F := F)) := by
  unfold out4_A_2
  rw [View.read_writes_eq_canon _ _ _ (cover4_A_2 c i a1 h1 a2 h2 a3 h3 a4 h4 hc x0 x1)]
  unfold kernelRun4_A
  dsimp only
  sl_unfold_words
  rw [View.canon_cons_unit_zero (S := S16x64) hz2]
  simp only [View.readAt_eq_ld, h1.read_unread, h2.read_unread, View.ld_unit_zero (S := S10000x64) hz2,
    View.ld_unit_zero (S := S10000x1) hz2, View.readCov_unit_zero (S := S16x64) _ hz2]

/-- At the first point the count accumulator is zeroed and then the block's counts are added to the zeros. -/
theorem pieceA3 (c : Dev nD) (i : grid4.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S16x1 .f32) (h4 : a4.IsWhole) (hc : cond4_0 i)
    (x0 : Vec F S10000x64 .f32) (x1 : Vec F S10000x1 .i32) :
    out4_A_3 c i a1 h1 a2 h2 a3 h3 a4 h4 hc x0 x1 = k4_pay5 x1 (k4_pay2 (F := F)) := by
  unfold out4_A_3
  rw [View.read_writes_eq_canon _ _ _ (cover4_A_3 c i a1 h1 a2 h2 a3 h3 a4 h4 hc x0 x1)]
  unfold kernelRun4_A
  dsimp only
  sl_unfold_words
  rw [View.canon_cons_unit_zero (S := S16x1) hz2]
  simp only [View.readAt_eq_ld, h1.read_unread, h2.read_unread, View.ld_unit_zero (S := S10000x64) hz2,
    View.ld_unit_zero (S := S10000x1) hz2, View.readCov_unit_zero (S := S16x1) _ hz2]

/-- At every later point the block's contribution is added to what the row accumulator held. -/
theorem pieceB2 (c : Dev nD) (i : grid4.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S16x1 .f32) (h4 : a4.IsWhole) (hc : ¬cond4_0 i)
    (x0 : Vec F S10000x64 .f32) (x1 : Vec F S10000x1 .i32) (xo2 : Vec F S16x64 .f32) (xo3 : Vec F S16x1 .f32) :
    out4_B_2 c i a1 h1 a2 h2 a3 h3 a4 h4 hc x0 x1 xo2 xo3 = k4_pay4 x0 x1 xo2 := by
  unfold out4_B_2
  rw [View.read_writes_eq_canon _ _ _ (cover4_B_2 c i a1 h1 a2 h2 a3 h3 a4 h4 hc x0 x1 xo2 xo3)]
  unfold kernelRun4_B
  dsimp only
  sl_unfold_words
  rw [View.canon_unit_zero (S := S16x64) hz2]
  simp only [View.readAt_eq_ld, h1.read_unread, h2.read_unread, h3.read_unread, h4.read_unread,
    View.ld_unit_zero (S := S10000x64) hz2, View.ld_unit_zero (S := S10000x1) hz2, View.ld_unit_zero (S := S16x64) hz2]

/-- At every later point the block's counts are added to what the count accumulator held. -/
theorem pieceB3 (c : Dev nD) (i : grid4.Coords) (a1 : Memref sig .tc .vmem S10000x64 .f32) (h1 : a1.IsWhole)
    (a2 : Memref sig .tc .vmem S10000x1 .i32) (h2 : a2.IsWhole) (a3 : Memref sig .tc .vmem S16x64 .f32) (h3 : a3.IsWhole)
    (a4 : Memref sig .tc .vmem S16x1 .f32) (h4 : a4.IsWhole) (hc : ¬cond4_0 i)
    (x0 : Vec F S10000x64 .f32) (x1 : Vec F S10000x1 .i32) (xo2 : Vec F S16x64 .f32) (xo3 : Vec F S16x1 .f32) :
    out4_B_3 c i a1 h1 a2 h2 a3 h3 a4 h4 hc x0 x1 xo2 xo3 = k4_pay5 x1 xo3 := by
  unfold out4_B_3
  rw [View.read_writes_eq_canon _ _ _ (cover4_B_3 c i a1 h1 a2 h2 a3 h3 a4 h4 hc x0 x1 xo2 xo3)]
  unfold kernelRun4_B
  dsimp only
  sl_unfold_words
  rw [View.canon_unit_zero (S := S16x1) hz2]
  simp only [View.readAt_eq_ld, h1.read_unread, h2.read_unread, h3.read_unread, h4.read_unread,
    View.ld_unit_zero (S := S10000x64) hz2, View.ld_unit_zero (S := S10000x1) hz2, View.ld_unit_zero (S := S16x1) hz2]

end Pieces

section Payloads

/-- A one-bit word widened and read as a signed integer, as an extended real: the bit. -/
theorem bit_one : FloatOps.sitofp (F := Ideal) .f32 ((1#1 : BitVec 1).setWidth 32) = 1 := by
  show (((((1#1 : BitVec 1).setWidth 32).toInt : ℤ) : ℝ) : EReal) = 1
  rw [show ((1#1 : BitVec 1).setWidth 32).toInt = 1 by decide]; simp
theorem bit_zero : FloatOps.sitofp (F := Ideal) .f32 ((0#1 : BitVec 1).setWidth 32) = 0 := by
  show (((((0#1 : BitVec 1).setWidth 32).toInt : ℤ) : ℝ) : EReal) = 0
  rw [show ((0#1 : BitVec 1).setWidth 32).toInt = 0 by decide]; simp

/-- Comparing two words for equality gives the bit of their equality. -/
theorem cmpi_eq_bit (x y : BitVec 32) : IntOp.cmpi .eq x y = if x = y then 1#1 else 0#1 := by
  unfold IntOp.cmpi
  by_cases h : x = y
  · rw [if_pos h, h]; simp
  · rw [if_neg h, beq_eq_false_iff_ne.mpr h]; rfl

/-- The membership matrix: entry (row, graph) is 1 when the row's graph word is the graph's number and 0 otherwise. -/
theorem member_apply (v5 : Vec Ideal S10000x1 .i32) (r : Fin 10000) (g : Fin 16) :
    k4_pay3 (F := Ideal) v5 (ix2 r g) = if v5 (ix2 r 0) = BitVec.ofNat 32 g.val then 1 else 0 := by
  unfold k4_pay3
  have hb : broadcastTo S10000x16 (shapeCast S10000x1 v5 shapeCasts_S10000x1_S10000x1) broadcasts_S10000x1_S10000x16 (ix2 r g)
      = v5 (ix2 r 0) := by
    rw [shapeCast_self]
    exact broadcastTo_apply v5 broadcasts_S10000x1_S10000x16 (ix2 r g) (ix2 r 0) (fun a => by
      match a with
      | ⟨0, _⟩ => rfl
      | ⟨1, _⟩ => rfl)
  have hi : iota .tc S10000x16 32 [1] iota_S10000x16_d1_w32 (ix2 r g) = BitVec.ofNat 32 g.val :=
    iota_single_apply .tc S10000x16 32 1 iota_S10000x16_d1_w32 (ix2 r g)
  show FloatOps.sitofp (F := Ideal) .f32
      ((IntOp.cmpi .eq
        (broadcastTo S10000x16 (shapeCast S10000x1 v5 shapeCasts_S10000x1_S10000x1) broadcasts_S10000x1_S10000x16 (ix2 r g))
        (iota .tc S10000x16 32 [1] iota_S10000x16_d1_w32 (ix2 r g))).setWidth 32) = _
  rw [hb, hi, cmpi_eq_bit]
  by_cases h : v5 (ix2 r 0) = BitVec.ofNat 32 g.val
  · rw [if_pos h, if_pos h]; exact bit_one
  · rw [if_neg h, if_neg h]; exact bit_zero

/-! ### The two block products: rows of the membership matrix against the node rows, and against ones -/

/-- Both products contract the row axis: at row k the membership matrix is read at (k, graph) and the other operand
    at (k, column) — the four coordinate facts of the first product, then the two needed of the second. -/
theorem lhsRow_0 (j : S16x64.Idx) (q : dot_S10000x16_S10000x64_S16x64_0_0_1_1_n_n.contr.Idx) :
    (dot_S10000x16_S10000x64_S16x64_0_0_1_1_n_n.lhsIdx j q 0).val = (q ⟨0, by decide⟩).val :=
  dot_S10000x16_S10000x64_S16x64_0_0_1_1_n_n.lhsIdx_val_of_single rfl j q
theorem lhsRow_1 (j : S16x64.Idx) (q : dot_S10000x16_S10000x64_S16x64_0_0_1_1_n_n.contr.Idx) :
    (dot_S10000x16_S10000x64_S16x64_0_0_1_1_n_n.lhsIdx j q 1).val = (j 0).val := by
  unfold DotDims.lhsIdx
  rw [dif_neg (show ¬(1 : Fin S10000x16.rank) ∈ dot_S10000x16_S10000x64_S16x64_0_0_1_1_n_n.lhsBatch by decide), dif_pos (show (1 : Fin S10000x16.rank) ∈ dot_S10000x16_S10000x64_S16x64_0_0_1_1_n_n.lhsNonContracting by decide)]
  rfl
theorem rhsRow_0 (j : S16x64.Idx) (q : dot_S10000x16_S10000x64_S16x64_0_0_1_1_n_n.contr.Idx) :
    (dot_S10000x16_S10000x64_S16x64_0_0_1_1_n_n.rhsIdx j q 0).val = (q ⟨0, by decide⟩).val :=
  dot_S10000x16_S10000x64_S16x64_0_0_1_1_n_n.rhsIdx_val_of_single rfl j q
theorem rhsRow_1 (j : S16x64.Idx) (q : dot_S10000x16_S10000x64_S16x64_0_0_1_1_n_n.contr.Idx) :
    (dot_S10000x16_S10000x64_S16x64_0_0_1_1_n_n.rhsIdx j q 1).val = (j 1).val := by
  unfold DotDims.rhsIdx
  rw [dif_neg (show ¬(1 : Fin S10000x64.rank) ∈ dot_S10000x16_S10000x64_S16x64_0_0_1_1_n_n.rhsBatch by decide), dif_pos (show (1 : Fin S10000x64.rank) ∈ dot_S10000x16_S10000x64_S16x64_0_0_1_1_n_n.rhsNonContracting by decide)]
  rfl

/-- The row accumulator after one block: what it held plus, over the block's rows, membership times the row's entry. -/
theorem rowsum_apply (v3 : Vec Ideal S10000x64 .f32) (v5 : Vec Ideal S10000x1 .i32) (acc : Vec Ideal S16x64 .f32)
    (g : Fin 16) (j : Fin 64) :
    k4_pay4 (F := Ideal) v3 v5 acc (ix2 g j)
      = acc (ix2 g j) + ∑ r : Fin 10000, k4_pay3 (F := Ideal) v5 (ix2 r g) * v3 (ix2 r j) := by
  unfold k4_pay4
  generalize k4_pay3 (F := Ideal) v5 = M
  refine (addf_apply _ _ _).trans ?_
  simp only [shapeCast_self, matmul]
  rw [Ideal.matmul_constant_zero_apply, ← Equiv.sum_comp (contrEquiv1 dot_S10000x16_S10000x64_S16x64_0_0_1_1_n_n 10000 rfl rfl).symm]
  refine congrArg (acc (ix2 g j) + ·) (Finset.sum_congr rfl fun k _ => ?_)
  have hk := contrEquiv1_symm_val dot_S10000x16_S10000x64_S16x64_0_0_1_1_n_n 10000 rfl rfl k
  have el : dot_S10000x16_S10000x64_S16x64_0_0_1_1_n_n.lhsIdx (ix2 g j) ((contrEquiv1 dot_S10000x16_S10000x64_S16x64_0_0_1_1_n_n 10000 rfl rfl).symm k) = ix2 k g := funext fun a => Fin.ext (by
    match a with
    | ⟨0, _⟩ => exact (lhsRow_0 _ _).trans hk
    | ⟨1, _⟩ => exact lhsRow_1 _ _)
  have er : dot_S10000x16_S10000x64_S16x64_0_0_1_1_n_n.rhsIdx (ix2 g j) ((contrEquiv1 dot_S10000x16_S10000x64_S16x64_0_0_1_1_n_n 10000 rfl rfl).symm k) = ix2 k j := funext fun a => Fin.ext (by
    match a with
    | ⟨0, _⟩ => exact (rhsRow_0 _ _).trans hk
    | ⟨1, _⟩ => exact rhsRow_1 _ _)
  rw [el, er]
  rfl

theorem lhsCnt_0 (j : S16x1.Idx) (q : dot_S10000x16_S10000x1_S16x1_0_0_1_1_n_n.contr.Idx) :
    (dot_S10000x16_S10000x1_S16x1_0_0_1_1_n_n.lhsIdx j q 0).val = (q ⟨0, by decide⟩).val :=
  dot_S10000x16_S10000x1_S16x1_0_0_1_1_n_n.lhsIdx_val_of_single rfl j q
theorem lhsCnt_1 (j : S16x1.Idx) (q : dot_S10000x16_S10000x1_S16x1_0_0_1_1_n_n.contr.Idx) :
    (dot_S10000x16_S10000x1_S16x1_0_0_1_1_n_n.lhsIdx j q 1).val = (j 0).val := by
  unfold DotDims.lhsIdx
  rw [dif_neg (show ¬(1 : Fin S10000x16.rank) ∈ dot_S10000x16_S10000x1_S16x1_0_0_1_1_n_n.lhsBatch by decide), dif_pos (show (1 : Fin S10000x16.rank) ∈ dot_S10000x16_S10000x1_S16x1_0_0_1_1_n_n.lhsNonContracting by decide)]
  rfl

/-- The count accumulator after one block: what it held plus the number of the block's rows that belong to the graph. -/
theorem cntsum_apply (v5 : Vec Ideal S10000x1 .i32) (acc : Vec Ideal S16x1 .f32) (g : Fin 16) :
    k4_pay5 (F := Ideal) v5 acc (ix2 g 0)
      = acc (ix2 g 0) + ∑ r : Fin 10000, k4_pay3 (F := Ideal) v5 (ix2 r g) := by
  unfold k4_pay5
  generalize k4_pay3 (F := Ideal) v5 = M
  refine (addf_apply _ _ _).trans ?_
  simp only [shapeCast_self, matmul]
  rw [Ideal.matmul_constant_zero_apply, ← Equiv.sum_comp (contrEquiv1 dot_S10000x16_S10000x1_S16x1_0_0_1_1_n_n 10000 rfl rfl).symm]
  refine congrArg (acc (ix2 g 0) + ·) (Finset.sum_congr rfl fun k _ => ?_)
  have hk := contrEquiv1_symm_val dot_S10000x16_S10000x1_S16x1_0_0_1_1_n_n 10000 rfl rfl k
  have el : dot_S10000x16_S10000x1_S16x1_0_0_1_1_n_n.lhsIdx (ix2 g 0) ((contrEquiv1 dot_S10000x16_S10000x1_S16x1_0_0_1_1_n_n 10000 rfl rfl).symm k) = ix2 k g := funext fun a => Fin.ext (by
    match a with
    | ⟨0, _⟩ => exact (lhsCnt_0 _ _).trans hk
    | ⟨1, _⟩ => exact lhsCnt_1 _ _)
  rw [el]
  show M (ix2 k g) * Ideal.ofBits .bf16 0x3F80#16 = M (ix2 k g)
  rw [Ideal.ofBits_one_bf16, mul_one]

end Payloads

-- the TensorCore's buffer contents when the region is entered
variable (V : (c : Dev nD) → (b : Ref sig .tc) → Buf (Elt Ideal) ((c : Thread nD τ).loc b))

/-- The graph words of the nodes, read off the 100000 × 1 array the kernel takes. -/
def gidOf (g2 : (⟨2, ![100000, 1]⟩ : Shape).Idx → BitVec 32) : Wrd1 100000 := fun i => g2 (ix2 (i 0) 0)

/-! ## The two input blocks at a point, read off the whole arrays -/

section Region

/-- The node rows and the graph words as the region finds them, and their blocks of 10000 rows at a point. -/
abbrev harr (c : Dev nD) : Arr2 100000 64 := V c main_v53
abbrev garr (c : Dev nD) : (⟨2, ![100000, 1]⟩ : Shape).Idx → BitVec 32 := V c main_v54
abbrev hblk (c : Dev nD) (t : Fin cfg4.N) : Vec Ideal S10000x64 .f32 := iblk4 (F := Ideal) V c 0 t
abbrev gblk (c : Dev nD) (t : Fin cfg4.N) : Vec Ideal S10000x1 .i32 := iblk4 (F := Ideal) V c 1 t

/-- Point t takes block t along the rows and the one block along the columns, in both input windows. -/
theorem idx4_0 : ∀ t : Fin cfg4.N, win4_0.index t 0 = t.val ∧ win4_0.index t 1 = 0 :=
  (by decide +kernel : ∀ t : Fin grid4.N, win4_0.index t 0 = t.val ∧ win4_0.index t 1 = 0)
theorem idx4_1 : ∀ t : Fin cfg4.N, win4_1.index t 0 = t.val ∧ win4_1.index t 1 = 0 :=
  (by decide +kernel : ∀ t : Fin grid4.N, win4_1.index t 0 = t.val ∧ win4_1.index t 1 = 0)

/-- Row r of point t's block of node rows is row 10000·t + r of the array. -/
theorem hblk_apply (c : Dev nD) (t : Fin cfg4.N) (r : Fin 10000) (j : Fin 64) (hr : 10000 * t.val + r.val < 100000) :
    hblk V c t (ix2 r j) = harr V c (ix2 ⟨10000 * t.val + r.val, hr⟩ j) := by
  unfold hblk iblk4
  rw [View.read_apply]
  show V c main_v53 (((cfg4.win 0).blk t).view.emb (ix2 r j)) = V c main_v53 (ix2 ⟨10000 * t.val + r.val, hr⟩ j)
  refine congrArg _ (funext fun a => Fin.ext ?_)
  match a with
  | ⟨0, _⟩ => show win4_0.index t 0 * 10000 + 1 * r.val = 10000 * t.val + r.val; rw [(idx4_0 t).1]; omega
  | ⟨1, _⟩ => show win4_0.index t 1 * 64 + 1 * j.val = j.val; rw [(idx4_0 t).2]; omega

/-- Row r of point t's block of graph words is row 10000·t + r of the array. -/
theorem gblk_apply (c : Dev nD) (t : Fin cfg4.N) (r : Fin 10000) (hr : 10000 * t.val + r.val < 100000) :
    gblk V c t (ix2 r 0) = garr V c (ix2 ⟨10000 * t.val + r.val, hr⟩ 0) := by
  unfold gblk iblk4
  rw [View.read_apply]
  show V c main_v54 (((cfg4.win 1).blk t).view.emb (ix2 r 0)) = V c main_v54 (ix2 ⟨10000 * t.val + r.val, hr⟩ 0)
  refine congrArg _ (funext fun a => Fin.ext ?_)
  match a with
  | ⟨0, _⟩ => show win4_1.index t 0 * 10000 + 1 * r.val = 10000 * t.val + r.val; rw [(idx4_1 t).1]; omega
  | ⟨1, _⟩ => show win4_1.index t 1 * 1 + 1 * 0 = 0; rw [(idx4_1 t).2]

end Region

/-! ## The accumulators after each point, and after the last -/

section Sums

/-- A graph word is the 32-bit word of a graph number below 16 exactly when, read signed, it is that number. -/
theorem word_eq_iff (w : BitVec 32) (g : Fin 16) : w = BitVec.ofNat 32 g.val ↔ w.toInt = (g.val : ℤ) := by
  have hg := g.isLt
  have hw := w.isLt
  constructor
  · rintro rfl
    rw [BitVec.toInt_eq_toNat_cond, BitVec.toNat_ofNat]
    split <;> omega
  · intro h
    apply BitVec.eq_of_toNat_eq
    rw [BitVec.toNat_ofNat]
    rw [BitVec.toInt_eq_toNat_cond] at h
    split at h <;> omega

/-- Row k's share of graph g's sum in column j: its entry when its graph word is g's, nothing otherwise
    (and nothing for a row number past the array). -/
def rowTerm (c : Dev nD) (g : Fin 16) (j : Fin 64) (k : ℕ) : EReal :=
  if h : k < 100000 then (if garr V c (ix2 ⟨k, h⟩ 0) = BitVec.ofNat 32 g.val then 1 else 0) * harr V c (ix2 ⟨k, h⟩ j) else 0

/-- Row k's share of graph g's count: one when its graph word is g's. -/
def cntTerm (c : Dev nD) (g : Fin 16) (k : ℕ) : EReal :=
  if h : k < 100000 then (if garr V c (ix2 ⟨k, h⟩ 0) = BitVec.ofNat 32 g.val then 1 else 0) else 0

/-- What point t adds to the row accumulator: the shares of rows 10000·t … 10000·t + 9999. -/
theorem block_rows (c : Dev nD) (t : Fin cfg4.N) (g : Fin 16) (j : Fin 64) :
    ∑ r : Fin 10000, k4_pay3 (F := Ideal) (gblk V c t) (ix2 r g) * hblk V c t (ix2 r j)
      = ∑ k ∈ Finset.range 10000, rowTerm V c g j (10000 * t.val + k) := by
  have hN : t.val < 10 := lt_of_lt_of_eq t.isLt (show cfg4.N = 10 from N_4)
  rw [← Fin.sum_univ_eq_sum_range (fun k => rowTerm V c g j (10000 * t.val + k)) 10000]
  refine Finset.sum_congr rfl fun r _ => ?_
  have hr : 10000 * t.val + r.val < 100000 := by have := r.isLt; omega
  rw [member_apply (gblk V c t) r g, gblk_apply V c t r hr, hblk_apply V c t r j hr]
  show _ = rowTerm V c g j (10000 * t.val + r.val)
  unfold rowTerm
  rw [dif_pos hr]

/-- What point t adds to the count accumulator. -/
theorem block_cnt (c : Dev nD) (t : Fin cfg4.N) (g : Fin 16) :
    ∑ r : Fin 10000, k4_pay3 (F := Ideal) (gblk V c t) (ix2 r g)
      = ∑ k ∈ Finset.range 10000, cntTerm V c g (10000 * t.val + k) := by
  have hN : t.val < 10 := lt_of_lt_of_eq t.isLt (show cfg4.N = 10 from N_4)
  rw [← Fin.sum_univ_eq_sum_range (fun k => cntTerm V c g (10000 * t.val + k)) 10000]
  refine Finset.sum_congr rfl fun r _ => ?_
  have hr : 10000 * t.val + r.val < 100000 := by have := r.isLt; omega
  rw [member_apply (gblk V c t) r g, gblk_apply V c t r hr]
  show _ = cntTerm V c g (10000 * t.val + r.val)
  unfold cntTerm
  rw [dif_pos hr]

/-- The zero block the first point stores, at an entry. -/
theorem zero_rows (g : Fin 16) (j : Fin 64) : k4_pay1 (F := Ideal) (ix2 g j) = 0 := by
  unfold k4_pay1
  show Ideal.ofBits .f32 0x00000000#32 = 0
  exact Ideal.ofBits_zero_f32
theorem zero_cnt (g : Fin 16) : k4_pay2 (F := Ideal) (ix2 g 0) = 0 := by
  unfold k4_pay2
  show Ideal.ofBits .f32 0x00000000#32 = 0
  exact Ideal.ofBits_zero_f32

/-- After point n the row accumulator holds, for each graph and column, the shares of rows 0 … 10000·(n+1) − 1. -/
theorem rows_acc (c : Dev nD) : ∀ (n : ℕ) (h : n < cfg4.N) (g : Fin 16) (j : Fin 64),
    ((outsAt4 (F := Ideal) V c n h).1 : Arr2 16 64) (ix2 g j) = ∑ k ∈ Finset.range (10000 * (n + 1)), rowTerm V c g j k
  | 0, h, g, j => by
    rw [outsAt4_A V c ⟨0, h⟩ (Nat.zero_mod _)]
    dsimp only
    refine (congrFun (pieceA2 (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) (ms4_3 ⟨0, h⟩) (hs4_3 ⟨0, h⟩) ((hcond4_0 ⟨0, h⟩).mpr (Nat.zero_mod _))
      (hblk V c ⟨0, h⟩) (gblk V c ⟨0, h⟩)) (ix2 g j)).trans ?_
    rw [rowsum_apply (hblk V c ⟨0, h⟩) (gblk V c ⟨0, h⟩) _ g j, block_rows V c ⟨0, h⟩ g j, zero_rows, zero_add]
    refine Finset.sum_congr rfl fun k _ => ?_
    show rowTerm V c g j (10000 * 0 + k) = _
    rw [Nat.mul_zero, Nat.zero_add]
  | n + 1, h, g, j => by
    have hN : cfg4.N = 10 := N_4
    have hB : ¬(⟨n + 1, h⟩ : Fin cfg4.N).val % 10 = 0 := by dsimp only; omega
    rw [outsAt4_B V c ⟨n + 1, h⟩ hB]
    dsimp only
    refine (congrFun (pieceB2 (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (ms4_3 ⟨n + 1, h⟩) (hs4_3 ⟨n + 1, h⟩) (fun hh => hB ((hcond4_0 ⟨n + 1, h⟩).mp hh))
      (hblk V c ⟨n + 1, h⟩) (gblk V c ⟨n + 1, h⟩)
      (outsAt4 (F := Ideal) V c n (Nat.lt_of_succ_lt h)).1 (outsAt4 (F := Ideal) V c n (Nat.lt_of_succ_lt h)).2) (ix2 g j)).trans ?_
    rw [rowsum_apply (hblk V c ⟨n + 1, h⟩) (gblk V c ⟨n + 1, h⟩) _ g j, block_rows V c ⟨n + 1, h⟩ g j,
      rows_acc c n (Nat.lt_of_succ_lt h) g j]
    rw [show 10000 * (n + 1 + 1) = 10000 * (n + 1) + 10000 by ring, Finset.sum_range_add]

/-- After point n the count accumulator holds, for each graph, the count shares of rows 0 … 10000·(n+1) − 1. -/
theorem cnt_acc (c : Dev nD) : ∀ (n : ℕ) (h : n < cfg4.N) (g : Fin 16),
    ((outsAt4 (F := Ideal) V c n h).2 : (⟨2, ![16, 1]⟩ : Shape).Idx → EReal) (ix2 g 0) = ∑ k ∈ Finset.range (10000 * (n + 1)), cntTerm V c g k
  | 0, h, g => by
    rw [outsAt4_A V c ⟨0, h⟩ (Nat.zero_mod _)]
    dsimp only
    refine (congrFun (pieceA3 (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) (ms4_3 ⟨0, h⟩) (hs4_3 ⟨0, h⟩) ((hcond4_0 ⟨0, h⟩).mpr (Nat.zero_mod _))
      (hblk V c ⟨0, h⟩) (gblk V c ⟨0, h⟩)) (ix2 g 0)).trans ?_
    rw [cntsum_apply (gblk V c ⟨0, h⟩) _ g, block_cnt V c ⟨0, h⟩ g, zero_cnt, zero_add]
    refine Finset.sum_congr rfl fun k _ => ?_
    show cntTerm V c g (10000 * 0 + k) = _
    rw [Nat.mul_zero, Nat.zero_add]
  | n + 1, h, g => by
    have hN : cfg4.N = 10 := N_4
    have hB : ¬(⟨n + 1, h⟩ : Fin cfg4.N).val % 10 = 0 := by dsimp only; omega
    rw [outsAt4_B V c ⟨n + 1, h⟩ hB]
    dsimp only
    refine (congrFun (pieceB3 (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (ms4_3 ⟨n + 1, h⟩) (hs4_3 ⟨n + 1, h⟩) (fun hh => hB ((hcond4_0 ⟨n + 1, h⟩).mp hh))
      (hblk V c ⟨n + 1, h⟩) (gblk V c ⟨n + 1, h⟩)
      (outsAt4 (F := Ideal) V c n (Nat.lt_of_succ_lt h)).1 (outsAt4 (F := Ideal) V c n (Nat.lt_of_succ_lt h)).2) (ix2 g 0)).trans ?_
    rw [cntsum_apply (gblk V c ⟨n + 1, h⟩) _ g, block_cnt V c ⟨n + 1, h⟩ g, cnt_acc c n (Nat.lt_of_succ_lt h) g]
    rw [show 10000 * (n + 1 + 1) = 10000 * (n + 1) + 10000 by ring, Finset.sum_range_add]

end Sums

/-! ## The totals are the specification's sums, and the arrays end holding them -/

section Final

/-- All the rows' shares for a graph and a column add up to the specification's segment sum. -/
theorem rows_total (c : Dev nD) (g : Fin 16) (j : Fin 64) :
    ∑ k ∈ Finset.range 100000, rowTerm V c g j k = segAt (harr V c) (gidOf (garr V c)) g j := by
  rw [← Fin.sum_univ_eq_sum_range (rowTerm V c g j) 100000]
  unfold segAt
  rw [Finset.sum_filter]
  refine Finset.sum_congr rfl fun e _ => ?_
  unfold rowTerm
  rw [dif_pos e.isLt]
  show (if garr V c (ix2 e 0) = BitVec.ofNat 32 g.val then (1 : EReal) else 0) * harr V c (ix2 e j)
    = if (garr V c (ix2 e 0)).toInt = (g.val : ℤ) then harr V c (ix2 e j) else 0
  by_cases hw : garr V c (ix2 e 0) = BitVec.ofNat 32 g.val
  · rw [if_pos hw, if_pos ((word_eq_iff _ g).mp hw), one_mul]
  · rw [if_neg hw, if_neg (fun h => hw ((word_eq_iff _ g).mpr h)), zero_mul]

/-- All the rows' count shares for a graph add up to the specification's node count. -/
theorem cnt_total (c : Dev nD) (g : Fin 16) :
    ∑ k ∈ Finset.range 100000, cntTerm V c g k = cntAt (gidOf (garr V c)) g := by
  rw [← Fin.sum_univ_eq_sum_range (cntTerm V c g) 100000]
  unfold cntAt
  rw [Finset.sum_filter]
  refine Finset.sum_congr rfl fun e _ => ?_
  unfold cntTerm
  rw [dif_pos e.isLt]
  show (if garr V c (ix2 e 0) = BitVec.ofNat 32 g.val then (1 : EReal) else 0)
    = if (garr V c (ix2 e 0)).toInt = (g.val : ℤ) then 1 else 0
  by_cases hw : garr V c (ix2 e 0) = BitVec.ofNat 32 g.val
  · rw [if_pos hw, if_pos ((word_eq_iff _ g).mp hw)]
  · rw [if_neg hw, if_neg (fun h => hw ((word_eq_iff _ g).mpr h))]

/-- After the last point the row accumulator is the specification's array of segment sums. -/
theorem rows_last (c : Dev nD) (t : Fin cfg4.N) (ht : t.val = 9) :
    ((outsAt4 (F := Ideal) V c t.val t.isLt).1 : Arr2 16 64) = segArr 16 (harr V c) (gidOf (garr V c)) := by
  obtain ⟨n, hn⟩ := t
  dsimp only at ht
  subst ht
  funext i
  obtain ⟨g, j, rfl⟩ : ∃ (g : Fin 16) (j : Fin 64), i = ix2 g j := ⟨i 0, i 1, eq_ix2 i⟩
  show ((outsAt4 (F := Ideal) V c 9 hn).1 : Arr2 16 64) (ix2 g j) = segAt (harr V c) (gidOf (garr V c)) g j
  rw [rows_acc V c 9 hn g j]
  exact rows_total V c g j

/-- After the last point the count accumulator holds the specification's node counts. -/
theorem cnt_last (c : Dev nD) (t : Fin cfg4.N) (ht : t.val = 9) (g : Fin 16) :
    ((outsAt4 (F := Ideal) V c t.val t.isLt).2 : (⟨2, ![16, 1]⟩ : Shape).Idx → EReal) (ix2 g 0) = cntAt (gidOf (garr V c)) g := by
  obtain ⟨n, hn⟩ := t
  dsimp only at ht
  subst ht
  show ((outsAt4 (F := Ideal) V c 9 hn).2 : (⟨2, ![16, 1]⟩ : Shape).Idx → EReal) (ix2 g 0) = _
  rw [cnt_acc V c 9 hn g]
  exact cnt_total V c g

/-- Each output window has one block, the whole array, whatever the point. -/
theorem idx4_2 : ∀ t : Fin cfg4.N, win4_2.index t 0 = 0 ∧ win4_2.index t 1 = 0 :=
  (by decide +kernel : ∀ t : Fin grid4.N, win4_2.index t 0 = 0 ∧ win4_2.index t 1 = 0)
theorem idx4_3 : ∀ t : Fin cfg4.N, win4_3.index t 0 = 0 ∧ win4_3.index t 1 = 0 :=
  (by decide +kernel : ∀ t : Fin grid4.N, win4_3.index t 0 = 0 ∧ win4_3.index t 1 = 0)

/-- The specification's node counts as a 16 × 1 array. -/
def cntArr (c : Dev nD) : (⟨2, ![16, 1]⟩ : Shape).Idx → EReal := fun i => cntAt (gidOf (garr V c)) (i 0)

/-- The row accumulator is written back at the last point only, and what is written is the specification's array. -/
theorem flushed_rows (c : Dev nD) (t : Fin cfg4.N) (hf : (cfg4.win 2).flush t = true) :
    (dat4 (F := Ideal) V c).flushed 2 t
      = ((cfg4.win 2).blk t).view.read (Elt Ideal) (segArr 16 (harr V c) (gidOf (garr V c))) := by
  have hN : t.val < 10 := lt_of_lt_of_eq t.isLt (show cfg4.N = 10 from N_4)
  have h9 : t.val = 9 := by have := (flush4_2 t).mp hf; omega
  show (cfg4.win 2).cut (grid4.coords t) ((dat4 (F := Ideal) V c).after 2 t) = _
  rw [after4_2, rows_last V c t h9]
  have hz' : (fun a => win4_2.index t a * main_v55_0.ty.shape.size a) = fun _ => 0 := funext fun a => by
    match a with
    | ⟨0, _⟩ => show win4_2.index t 0 * 16 = 0; rw [(idx4_2 t).1]
    | ⟨1, _⟩ => show win4_2.index t 1 * 64 = 0; rw [(idx4_2 t).2]
  exact (Memref.read_access_unit_zero (Elt Ideal) main_v55_0 hz' (fun a => by rw [congrFun hz' a]; simp) _).symm

/-- The count accumulator likewise. -/
theorem flushed_cnt (c : Dev nD) (t : Fin cfg4.N) (hf : (cfg4.win 3).flush t = true) :
    (dat4 (F := Ideal) V c).flushed 3 t = ((cfg4.win 3).blk t).view.read (Elt Ideal) (cntArr V c) := by
  have hN : t.val < 10 := lt_of_lt_of_eq t.isLt (show cfg4.N = 10 from N_4)
  have h9 : t.val = 9 := by have := (flush4_3 t).mp hf; omega
  have e : ((outsAt4 (F := Ideal) V c t.val t.isLt).2 : (⟨2, ![16, 1]⟩ : Shape).Idx → EReal) = cntArr V c := by
    funext i
    obtain ⟨g, q, rfl⟩ : ∃ (g : Fin 16) (q : Fin 1), i = ix2 g q := ⟨i 0, i 1, eq_ix2 i⟩
    obtain rfl : q = 0 := Subsingleton.elim _ _
    exact cnt_last V c t h9 g
  show (cfg4.win 3).cut (grid4.coords t) ((dat4 (F := Ideal) V c).after 3 t) = _
  rw [after4_3, e]
  have hz' : (fun a => win4_3.index t a * main_v55_1.ty.shape.size a) = fun _ => 0 := funext fun a => by
    match a with
    | ⟨0, _⟩ => show win4_3.index t 0 * 16 = 0; rw [(idx4_3 t).1]
    | ⟨1, _⟩ => show win4_3.index t 1 * 1 = 0; rw [(idx4_3 t).2]
  exact (Memref.read_access_unit_zero (Elt Ideal) main_v55_1 hz' (fun a => by rw [congrFun hz' a]; simp) _).symm

/-- Every entry of the 16 × 64 result lies in the one block of its window, at any point. -/
theorem mem_blk_rows (t : Fin cfg4.N) (i : S16x64.Idx) : i ∈ ((cfg4.win 2).blk t).view.set := by
  show i ∈ ((View.whole main_v55_0).slice (win4_2.rect t)).set
  rw [View.set_slice_whole, Rect.mem_set_unit]
  intro a
  have h0 : (i 0 : Nat) < 16 := (i 0).isLt
  have h1 : (i 1 : Nat) < 64 := (i 1).isLt
  match a with
  | ⟨0, _⟩ =>
    show win4_2.index t 0 * 16 ≤ (i 0 : Nat) ∧ (i 0 : Nat) < win4_2.index t 0 * 16 + 16
    rw [(idx4_2 t).1]; omega
  | ⟨1, _⟩ =>
    show win4_2.index t 1 * 64 ≤ (i 1 : Nat) ∧ (i 1 : Nat) < win4_2.index t 1 * 64 + 64
    rw [(idx4_2 t).2]; omega

/-- Every entry of the 16 × 1 result lies in the one block of its window, at any point. -/
theorem mem_blk_cnt (t : Fin cfg4.N) (i : S16x1.Idx) : i ∈ ((cfg4.win 3).blk t).view.set := by
  show i ∈ ((View.whole main_v55_1).slice (win4_3.rect t)).set
  rw [View.set_slice_whole, Rect.mem_set_unit]
  intro a
  have h0 : (i 0 : Nat) < 16 := (i 0).isLt
  have h1 : (i 1 : Nat) < 1 := (i 1).isLt
  match a with
  | ⟨0, _⟩ =>
    show win4_3.index t 0 * 16 ≤ (i 0 : Nat) ∧ (i 0 : Nat) < win4_3.index t 0 * 16 + 16
    rw [(idx4_3 t).1]; omega
  | ⟨1, _⟩ =>
    show win4_3.index t 1 * 1 ≤ (i 1 : Nat) ∧ (i 1 : Nat) < win4_3.index t 1 * 1 + 1
    rw [(idx4_3 t).2]; omega

end Final

/-- The per-graph sums of node rows (window 2 of region 4). -/
theorem pool_sum_value (c : Dev nD) :
    ((dat4 (F := Ideal) V c).arrAt 2 cfg4.N : Arr2 16 64)
      = segArr 16 (V c main_v53 : Arr2 100000 64) (gidOf (V c main_v54)) := by
  exact (dat4 (F := Ideal) V c).arrAt_eq_of_cover 2 (segArr 16 (harr V c) (gidOf (garr V c))) (flushed_rows V c)
    (fun i => ⟨t4_9, (flush4_2 t4_9).mpr rfl, mem_blk_rows t4_9 i⟩)

/-- The per-graph node counts (window 3 of region 4), a 16 × 1 array. -/
theorem pool_cnt_value (c : Dev nD) (g : Fin 16) :
    ((dat4 (F := Ideal) V c).arrAt 3 cfg4.N : (⟨2, ![16, 1]⟩ : Shape).Idx → EReal) (ix2 g 0)
      = cntAt (gidOf (V c main_v54)) g := by
  exact congrFun ((dat4 (F := Ideal) V c).arrAt_eq_of_cover 3 (cntArr V c) (flushed_cnt V c)
    (fun i => ⟨t4_9, (flush4_3 t4_9).mpr rfl, mem_blk_cnt t4_9 i⟩)) (ix2 g 0)

end Cert.KI

end
-- ==== Proof.KHostC.lean ====
/-
  The end of the kernel's program: the pooling region's two accumulators, then the host's division of each graph's sum by
  its node count, at least 1: the specification's pooling of the second round's state.
-/
import proofs.«409774_j1357209666175_2_alg».proof.Proof.KIFrame
import proofs.«409774_j1357209666175_2_alg».proof.Proof.Spec
import proofs.«409774_j1357209666175_2_alg».proof.Proof.StageOps
import proofs.«409774_j1357209666175_2_alg».proof.Proof.SliceOps
import proofs.«409774_j1357209666175_2_alg».proof.Proof.KMsg
import proofs.«409774_j1357209666175_2_alg».proof.Proof.KUpd
import Idealize.ShloMosaic.Lib.Pipeline.Value
import Idealize.ShloMosaic.Lib.ValueIdx
import Idealize.ShloMosaic.Lib.StableHlo.Run
import proofs.«409774_j1357209666175_2_alg».proof.Proof.KPool
import proofs.«409774_j1357209666175_2_alg».proof.Proof.KHostA
import proofs.«409774_j1357209666175_2_alg».proof.Proof.KHostB
import Idealize.ShloMosaic.Lib.IdealHost

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The second round's state is still in its buffer when the pooling region is entered: the one host operation before
    it writes another buffer. -/
theorem V9_v53 (c : Dev nD) : (V9 m ρ c main_v53 : Arr2 100000 64) = H2 m ρ c := by
  show StableHlo.after hostOps4 (W8 m ρ c) (Proc.devRef .tc main_v53) = _
  after_results

/-- The 100000 × 1 array the pooling region takes is the reshape of the graph words, so read back along its rows it is
    the graph words as launched. -/
theorem V9_v54 (c : Dev nD) : gidOf (V9 m ρ c main_v54) = A4 m c := by
  show gidOf (StableHlo.after hostOps4 (W8 m ρ c) (Proc.devRef .tc main_v54)) = _
  after_results
  rw [W8_arg4 m ρ c]
  exact gid_stage (A4 m c) shapeCasts_S100000_S100000x1

/-- At the pooling region's exit its first result array holds, per graph, the sum of the rows of that graph's nodes. -/
theorem W10_v55_0 (c : Dev nD) :
    (W10 m ρ c (Proc.devRef .tc main_v55_0) : Arr2 16 64) = segArr 16 (H2 m ρ c) (A4 m c) := by
  refine (W10_arr m ρ c 2).trans ((pool_sum_value (V9 m ρ) c).trans ?_)
  rw [V9_v53 m ρ c, V9_v54 m ρ c]

/-- And its second result array, 16 × 1, holds each graph's number of nodes. -/
theorem W10_v55_1 (c : Dev nD) (g : Fin 16) :
    (W10 m ρ c (Proc.devRef .tc main_v55_1) : (⟨2, ![16, 1]⟩ : Shape).Idx → EReal) (ix2 g 0) = cntAt (A4 m c) g := by
  refine (congrFun (W10_arr m ρ c 3) (ix2 g 0)).trans ((pool_cnt_value (V9 m ρ) c g).trans ?_)
  rw [V9_v54 m ρ c]

/-- The result buffer at the last boundary is the pooling of the second round's state by the graph words. -/
theorem W11_v59 (c : Dev nD) :
    (W11 m ρ c (Proc.devRef .tc main_v59) : Arr2 16 64) = poolArr (H2 m ρ c) (A4 m c) := by
  show StableHlo.after hostOps5 (W10 m ρ c) (Proc.devRef .tc main_v59) = _
  after_results
  rw [W10_v55_0 m ρ c]
  funext i
  obtain ⟨g, j, rfl⟩ : ∃ g j, i = ix2 g j := ⟨i 0, i 1, eq_ix2 i⟩
  -- the broadcast of the one word 1 to 16 × 1, read at (g, 0)
  have hone : broadcastInDim S16x1 ![] bcast_S_S16x1 (constant (F := Ideal) S_ .f32 0x3F800000#32) (ix2 g 0) = (1 : EReal) :=
    ((broadcastInDim_scalar_apply bcast_S_S16x1 _ (ix2 g 0)).trans (constant_apply _ _)).trans Ideal.ofBits_one_f32
  -- the divisor at (g, j): the 16 × 1 array of max (count, 1) repeated along the 64 columns, so its entry (g, 0)
  have hden : broadcastInDim S16x64 ![0, 1] bcast_S16x1_S16x64_0_1
        (maximumf (W10 m ρ c (Proc.devRef .tc main_v55_1))
          (broadcastInDim S16x1 ![] bcast_S_S16x1 (constant (F := Ideal) S_ .f32 0x3F800000#32))) (ix2 g j)
      = max (cntAt (A4 m c) g) 1 := by
    refine (broadcastInDim_apply _ bcast_S16x1_S16x64_0_1 _ (ix2 g j) (ix2 g 0) (fun a => ?_)).trans ?_
    · match a with
      | ⟨0, _⟩ => show g.val = if (16 : Nat) = 1 then 0 else g.val; rw [if_neg (by decide)]
      | ⟨1, _⟩ => show 0 = if (1 : Nat) = 1 then 0 else j.val; rw [if_pos rfl]
    · exact (maximumf_apply _ _ (ix2 g 0)).trans (congrArg₂ max (W10_v55_1 m ρ c g) hone)
  -- the host's division is taken entry by entry, and at the extended reals it is the specification's
  show Ideal.div (segArr 16 (H2 m ρ c) (A4 m c) (ix2 g j)) _ = poolAt (H2 m ρ c) (A4 m c) g j
  rw [hden]
  rfl

end Cert.KI

end
-- ==== Proof.KValue.lean ====
/-
  The kernel's program computes the specification: the result buffer at the last boundary is the pooling of two rounds
  of the arguments, so every weakly fair execution ends with the result at that function of the arguments as launched.
-/
import proofs.«409774_j1357209666175_2_alg».proof.Proof.KIRun
import proofs.«409774_j1357209666175_2_alg».proof.Proof.KHostA
import proofs.«409774_j1357209666175_2_alg».proof.Proof.KHostB
import proofs.«409774_j1357209666175_2_alg».proof.Proof.KHostC

set_option maxRecDepth 16384

noncomputable section

open scoped BigOperators

namespace Cert.KI

open Cert.KernelIdeal Cert.KernelIdeal.Gen Cert.Gnn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The result buffer at the last boundary is the whole computation of the arguments. -/
theorem kernel_value (c : Dev nD) :
    (W11 m ρ c (Proc.devRef .tc main_v59) : Arr2 16 64)
      = G (A0 m c) (A1 m c) (A2 m c) (A3 m c) (A4 m c) (A5 m c) (A6 m c) (A7 m c) (A8 m c) (A9 m c) (A10 m c) := by
  have e1 := W11_v59 m ρ c
  have e2 := W8_v53 m ρ c
  have e3 := W4_v27 m ρ c
  rw [e1, e2, e3]
  rfl

/-- Every weakly fair execution of the kernel's program terminates with the result at the specification's value of the
    arguments, the arguments unchanged. -/
theorem run : θ_run defs (onTc (τ := τ) (main (F := Ideal))) ⟨m, fun _ => 0, ρ⟩ (fun r => ∀ c : Dev nD,
      r.2.mem ((c.tc : Thread nD τ).loc main_v59)
        = G (A0 m c) (A1 m c) (A2 m c) (A3 m c) (A4 m c) (A5 m c) (A6 m c) (A7 m c) (A8 m c) (A9 m c) (A10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (kernel_value m ρ c), (h c).2⟩) (Cert.KernelIdeal.Gen.run_value (F := Ideal) m ρ)

end Cert.KI

end
-- ==== Proof.RefMsg.lean ====
/-
  The reference's message stage, in both rounds: the gathered source rows joined to the edge rows along the features
  (128 columns), times the round's whole 128 × 64 matrix, plus the round's bias row, then relu. A sum over the 128 joined
  columns is the sum over the first 64 plus the sum over the last 64, the first reading the gathered rows against the
  matrix's upper half and the second the edge rows against its lower half: the specification's message.
-/
import proofs.«409774_j1357209666175_2_alg».proof.Proof.ReadP
import proofs.«409774_j1357209666175_2_alg».proof.Proof.Spec
import proofs.«409774_j1357209666175_2_alg».proof.Proof.StageOps
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.RefV

open Cert.ReferenceIdeal Cert.ReferenceIdeal.Read Cert.Gnn
open Idealize.ShloMosaic Idealize.ShloMosaic.ValueIdx

variable (x0 : Arr2 100000 64) (x1 : Arr2 1600000 64) (x2 x3 : Wrd1 1600000) (x4 : Wrd1 100000)
  (x5 : Arr3 2 128 64) (x6 : Arr2 2 64) (x7 : Arr3 2 128 64) (x8 : Arr2 2 64) (x9 x10 : Arr1 64)

/-! ## The algebra, over any arrays -/

/-- A product sum over 128 joined columns is the sum over the first 64 plus the sum over the last 64. -/
theorem sum_split (f : Fin 128 → EReal) :
    (∑ k : Fin 128, f k)
      = (∑ k : Fin 64, f ⟨k.val, by omega⟩) + (∑ k : Fin 64, f ⟨64 + k.val, by omega⟩) :=
  Fin.sum_univ_add (a := 64) (b := 64) f

/-- The message at (row, column) from a joined 128-column array and a whole 128 × 64 matrix whose halves are known. -/
theorem msg_of_joined {R : Nat} (cat : Fin R → Fin 128 → EReal) (w : Fin 128 → Fin 64 → EReal)
    (s ee : Arr2 R 64) (w1 w2 : Arr2 64 64) (b : Arr2 1 64) (bias : EReal)
    (e : Fin R) (j : Fin 64)
    (hs : ∀ k : Fin 64, cat e ⟨k.val, by omega⟩ = s (ix2 e k))
    (he : ∀ k : Fin 64, cat e ⟨64 + k.val, by omega⟩ = ee (ix2 e k))
    (hw1 : ∀ k : Fin 64, w ⟨k.val, by omega⟩ j = w1 (ix2 k j))
    (hw2 : ∀ k : Fin 64, w ⟨64 + k.val, by omega⟩ j = w2 (ix2 k j))
    (hb : bias = b (ix2 0 j)) :
    max ((∑ k : Fin 128, cat e k * w k j) + bias) 0 = msgAt s ee w1 w2 b e j := by
  unfold msgAt
  rw [sum_split (fun k => cat e k * w k j), hb]
  simp only [hs, he, hw1, hw2]

/-! ## The joined array, read at a column of either half -/

/-- A column below 64 of two 64-column arrays joined along the columns comes from the first. -/
theorem cat_left (a b : Arr2 1600000 64) (h : Shape.Concatenates [S1600000x64, S1600000x64] S1600000x128 1)
    (p : Fin 1600000) (k : Fin 64) :
    concatenate S1600000x128 1 [⟨S1600000x64, a⟩, ⟨S1600000x64, b⟩] h (ix2 p (⟨k.val, by omega⟩ : Fin 128)) = a (ix2 p k) :=
  concatenate_pair_apply_left 1 a b h _ rfl (ix2 p k) (fun c => by match c with | ⟨0, _⟩ => rfl | ⟨1, _⟩ => rfl)

/-- Column 64 + k comes from the second, at column k. -/
theorem cat_right (a b : Arr2 1600000 64) (h : Shape.Concatenates [S1600000x64, S1600000x64] S1600000x128 1)
    (p : Fin 1600000) (k : Fin 64) :
    concatenate S1600000x128 1 [⟨S1600000x64, a⟩, ⟨S1600000x64, b⟩] h (ix2 p (⟨64 + k.val, by omega⟩ : Fin 128)) = b (ix2 p k) :=
  concatenate_pair_apply_right 1 a b h _ rfl rfl (ix2 p k)
    (fun c hc => by match c, hc with | ⟨0, _⟩, _ => rfl | ⟨1, _⟩, hc => exact absurd rfl hc)
    (by show k.val + 64 = 64 + k.val; omega)

/-! ## Round 0 -/

/-- The gathered rows are the specification's gather of the round's node array. -/
theorem gather0 :
    (val_main_v6 (F := Ideal) x0 x2 : Arr2 1600000 64) = gatherArr x0 x2 :=
  gather_stage _ rfl rfl rfl rfl rfl rfl rfl _ _ x0 x2

/-- The round's whole matrix at (row, column) is the stack's entry at (0, row, column). -/
theorem w0_apply (k : Fin 128) (j : Fin 64) :
    val_main_v9 (F := Ideal) x5 (ix2 k j) = x5 (ix3 0 k j) := by
  rw [val_main_v9_apply, val_main_v8_apply]
  refine congrArg x5 (funext fun a => Fin.ext ?_)
  match a with
  | ⟨0, _⟩ => rfl
  | ⟨1, _⟩ => show (k.val * 64 + j.val) / 64 % 128 = k.val; omega
  | ⟨2, _⟩ => show (k.val * 64 + j.val) % 64 = j.val; omega

/-- The round's bias, broadcast over the edges, at (edge, column) is the bias array's entry at (0, column). -/
theorem b0_apply (p : Fin 1600000) (q : Fin 64) :
    val_main_v14 (F := Ideal) x6 (ix2 p q) = x6 (ix2 0 q) := by
  rw [val_main_v14_apply, val_main_v13_apply, val_main_v12_apply, val_main_v11_apply]
  refine congrArg x6 (funext fun a => Fin.ext ?_)
  match a with
  | ⟨0, _⟩ => rfl
  | ⟨1, _⟩ => show q.val % 64 = q.val; omega

/-! ## Round 1 -/

/-- The gathered rows are the specification's gather of the round's node array. -/
theorem gather1 :
    (val_main_v61 (F := Ideal) x0 x1 x2 x3 x5 x6 x7 x8 x9 x10 : Arr2 1600000 64) = gatherArr (val_main_v54 (F := Ideal) x0 x1 x2 x3 x5 x6 x7 x8 x9 x10) x2 :=
  gather_stage _ rfl rfl rfl rfl rfl rfl rfl _ _ (val_main_v54 (F := Ideal) x0 x1 x2 x3 x5 x6 x7 x8 x9 x10) x2

/-- The round's whole matrix at (row, column) is the stack's entry at (1, row, column). -/
theorem w1_apply (k : Fin 128) (j : Fin 64) :
    val_main_v64 (F := Ideal) x5 (ix2 k j) = x5 (ix3 1 k j) := by
  rw [val_main_v64_apply, val_main_v63_apply]
  refine congrArg x5 (funext fun a => Fin.ext ?_)
  match a with
  | ⟨0, _⟩ => rfl
  | ⟨1, _⟩ => show (k.val * 64 + j.val) / 64 % 128 = k.val; omega
  | ⟨2, _⟩ => show (k.val * 64 + j.val) % 64 = j.val; omega

/-- The round's bias, broadcast over the edges, at (edge, column) is the bias array's entry at (1, column). -/
theorem b1_apply (p : Fin 1600000) (q : Fin 64) :
    val_main_v69 (F := Ideal) x6 (ix2 p q) = x6 (ix2 1 q) := by
  rw [val_main_v69_apply, val_main_v68_apply, val_main_v67_apply, val_main_v66_apply]
  refine congrArg x6 (funext fun a => Fin.ext ?_)
  match a with
  | ⟨0, _⟩ => rfl
  | ⟨1, _⟩ => show q.val % 64 = q.val; omega

/-- Round 0: the reference's message array is the specification's. -/
theorem msg0 :
    (val_main_v16 (F := Ideal) x0 x1 x2 x5 x6 : Arr2 1600000 64)
      = msgArr (gatherArr x0 x2) x1 (wTop x5 0) (wBot x5 0) (bRow x6 0) := by
  funext i
  obtain ⟨p, q, rfl⟩ : ∃ p q, i = ix2 p q := ⟨i 0, i 1, eq_ix2 i⟩
  rw [val_main_v16_apply, val_main_v15_apply, val_main_v10_apply, val_main_call0_v0_apply,
    val_main_call0_cst_apply, b0_apply]
  rw [Ideal.maximumf_def, Ideal.addf_def, Ideal.ofBits_def, Ideal.ofBits_zero_f32]
  -- the contraction's two index functions are (edge, k) and (k, column)
  have hl : ∀ k : Fin 128, lidx_main_v10 (ix2 p q) k = ix2 p k := fun k =>
    funext fun a => Fin.ext (by match a with | ⟨0, _⟩ => rfl | ⟨1, _⟩ => rfl)
  have hr : ∀ k : Fin 128, ridx_main_v10 (ix2 p q) k = ix2 k q := fun k =>
    funext fun a => Fin.ext (by match a with | ⟨0, _⟩ => rfl | ⟨1, _⟩ => rfl)
  simp only [hl, hr]
  exact msg_of_joined (fun e k => val_main_v7 (F := Ideal) x0 x1 x2 (ix2 e k))
    (fun k j => val_main_v9 (F := Ideal) x5 (ix2 k j))
    (gatherArr x0 x2) x1 (wTop x5 0) (wBot x5 0) (bRow x6 0) _ p q
    (fun k => (cat_left _ _ _ p k).trans (congrFun (gather0 x0 x2) _))
    (fun k => cat_right _ _ _ p k)
    (fun k => w0_apply x5 _ q)
    (fun k => w0_apply x5 _ q)
    rfl

/-- Round 1: the same from the node state the first round left. -/
theorem msg1 :
    (val_main_v71 (F := Ideal) x0 x1 x2 x3 x5 x6 x7 x8 x9 x10 : Arr2 1600000 64)
      = msgArr (gatherArr (val_main_v54 (F := Ideal) x0 x1 x2 x3 x5 x6 x7 x8 x9 x10) x2) x1 (wTop x5 1) (wBot x5 1) (bRow x6 1) := by
  funext i
  obtain ⟨p, q, rfl⟩ : ∃ p q, i = ix2 p q := ⟨i 0, i 1, eq_ix2 i⟩
  rw [val_main_v71_apply, val_main_v70_apply, val_main_v65_apply, val_main_call2_v0_apply,
    val_main_call2_cst_apply, b1_apply]
  rw [Ideal.maximumf_def, Ideal.addf_def, Ideal.ofBits_def, Ideal.ofBits_zero_f32]
  -- the contraction's two index functions are (edge, k) and (k, column)
  have hl : ∀ k : Fin 128, lidx_main_v65 (ix2 p q) k = ix2 p k := fun k =>
    funext fun a => Fin.ext (by match a with | ⟨0, _⟩ => rfl | ⟨1, _⟩ => rfl)
  have hr : ∀ k : Fin 128, ridx_main_v65 (ix2 p q) k = ix2 k q := fun k =>
    funext fun a => Fin.ext (by match a with | ⟨0, _⟩ => rfl | ⟨1, _⟩ => rfl)
  simp only [hl, hr]
  exact msg_of_joined (fun e k => val_main_v62 (F := Ideal) x0 x1 x2 x3 x5 x6 x7 x8 x9 x10 (ix2 e k))
    (fun k j => val_main_v64 (F := Ideal) x5 (ix2 k j))
    (gatherArr (val_main_v54 (F := Ideal) x0 x1 x2 x3 x5 x6 x7 x8 x9 x10) x2) x1 (wTop x5 1) (wBot x5 1) (bRow x6 1) _ p q
    (fun k => (cat_left _ _ _ p k).trans (congrFun (gather1 x0 x1 x2 x3 x5 x6 x7 x8 x9 x10) _))
    (fun k => cat_right _ _ _ p k)
    (fun k => w1_apply x5 _ q)
    (fun k => w1_apply x5 _ q)
    rfl

end Cert.RefV

end
-- ==== Proof.RefUpd.lean ====
/-
  The reference's segment sum and update stage, in both rounds: the messages added up per target node; the state joined
  to the pooled messages along the features, times the round's whole 128 × 64 matrix; relu ((h + product) + bias); then
  the normalisation along the features. The sum over the 128 joined columns splits into the two halves as for the
  messages, and (h + x) + b = h + (x + b): the specification's update.
-/
import proofs.«409774_j1357209666175_2_alg».proof.Proof.ReadP
import proofs.«409774_j1357209666175_2_alg».proof.Proof.Spec
import proofs.«409774_j1357209666175_2_alg».proof.Proof.StageOps
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.RefV

open Cert.ReferenceIdeal Cert.ReferenceIdeal.Read Cert.Gnn
open Idealize.ShloMosaic Idealize.ShloMosaic.ValueIdx

variable (x0 : Arr2 100000 64) (x1 : Arr2 1600000 64) (x2 x3 : Wrd1 1600000) (x4 : Wrd1 100000)
  (x5 : Arr3 2 128 64) (x6 : Arr2 2 64) (x7 : Arr3 2 128 64) (x8 : Arr2 2 64) (x9 x10 : Arr1 64)

/-! ## The algebra, over abstract rows -/

/-- The pre-activation: a sum over 128 joined columns is the sum over the first 64 plus the sum over the last 64, and
    (h + x) + b = h + (x + b). -/
theorem pre_alg (hj bj : EReal) (c w : Fin 128 → EReal) (hrow prow w1 w2 : Fin 64 → EReal)
    (h1 : ∀ k : Fin 64, c (Fin.castAdd 64 k) = hrow k) (h2 : ∀ k : Fin 64, c (Fin.natAdd 64 k) = prow k)
    (h3 : ∀ k : Fin 64, w (Fin.castAdd 64 k) = w1 k) (h4 : ∀ k : Fin 64, w (Fin.natAdd 64 k) = w2 k) :
    max ((hj + ∑ k : Fin 128, c k * w k) + bj) 0
      = max (hj + (((∑ k : Fin 64, hrow k * w1 k) + (∑ k : Fin 64, prow k * w2 k)) + bj)) 0 := by
  have hs : ∑ k : Fin 128, c k * w k
      = ∑ k : Fin 64, c (Fin.castAdd 64 k) * w (Fin.castAdd 64 k) + ∑ k : Fin 64, c (Fin.natAdd 64 k) * w (Fin.natAdd 64 k) :=
    Fin.sum_univ_add (M := EReal) (a := 64) (b := 64) (fun k => c k * w k)
  rw [hs, add_assoc]
  simp only [h1, h2, h3, h4]

/-- The normalisation as the reference orders it: each row sum starts from the word 0. -/
theorem norm_alg (x g bt : Fin 64 → EReal) (j : Fin 64) :
    ((x j - Ideal.div (0 + ∑ k : Fin 64, x k) w64)
        * Ideal.rsqrt (Ideal.div (0 + ∑ k : Fin 64, (x k - Ideal.div (0 + ∑ k : Fin 64, x k) w64) * (x k - Ideal.div (0 + ∑ k : Fin 64, x k) w64)) w64 + wEps))
      * g j + bt j = normAt x g bt j := by
  simp only [zero_add]
  rfl

/-! ## Round 0 -/

/-- Round 0's segment sum, from the zero array, is the specification's. -/
theorem seg0 :
    val_main_v19 (F := Ideal) x0 x1 x2 x3 x5 x6 = segArr 100000 (val_main_v16 (F := Ideal) x0 x1 x2 x5 x6) x3 :=
  seg_stage scatter_S100000x64_S1600000x1_S1600000x64_1_0_0_1 rfl rfl rfl rfl Facts₀.bcast_S_S100000x64 Facts₀.bcast_S1600000_S1600000x1_0
    (val_main_v16 (F := Ideal) x0 x1 x2 x5 x6) x3

/-- Round 0's pre-activation relu ((h + joined · W) + b) at (row, column) is the specification's, grouped h + ((h · W₁ + p · W₂) + b). -/
theorem pre0 (p : Fin 100000) (q : Fin 64) :
    val_main_v30 (F := Ideal) x0 x1 x2 x3 x5 x6 x7 x8 (ix2 p q)
      = preAt x0 (segArr 100000 (val_main_v16 (F := Ideal) x0 x1 x2 x5 x6) x3) (wTop x7 0) (wBot x7 0) (bRow x8 0) p q := by
  rw [val_main_v30_apply, val_main_v29_apply, val_main_v24_apply, val_main_v23_apply, val_main_call1_v0_apply,
    val_main_call1_cst_apply, val_main_v28_apply, val_main_v27_apply, val_main_v26_apply, val_main_v25_apply,
    Ideal.maximumf_def, Ideal.addf_def, Ideal.addf_def, Ideal.ofBits_def, Ideal.ofBits_zero_f32]
  -- the joined array's first 64 columns are the state's, its last 64 the pooled messages'
  have h1 : ∀ k : Fin 64, val_main_v20 (F := Ideal) x0 x1 x2 x3 x5 x6 (lidx_main_v23 (ix2 p q) (Fin.castAdd 64 k)) = x0 (ix2 p k) :=
    fun k => concatenate_pair_apply_left 1 x0 (val_main_v19 (F := Ideal) x0 x1 x2 x3 x5 x6)
      Facts₀.concatenates_S100000x64_S100000x64_S100000x128_d1 _ rfl (ix2 p k)
      (fun b => by match b with | ⟨0, _⟩ => rfl | ⟨1, _⟩ => rfl)
  have h2 : ∀ k : Fin 64, val_main_v20 (F := Ideal) x0 x1 x2 x3 x5 x6 (lidx_main_v23 (ix2 p q) (Fin.natAdd 64 k))
      = segArr 100000 (val_main_v16 (F := Ideal) x0 x1 x2 x5 x6) x3 (ix2 p k) := fun k => by
    rw [← seg0]
    exact concatenate_pair_apply_right 1 x0 (val_main_v19 (F := Ideal) x0 x1 x2 x3 x5 x6)
      Facts₀.concatenates_S100000x64_S100000x64_S100000x128_d1 _ rfl rfl (ix2 p k)
      (fun b hb => by match b, hb with | ⟨0, _⟩, _ => rfl | ⟨1, _⟩, hb => exact absurd rfl hb)
      (by show k.val + 64 = 64 + k.val; omega)
  -- the round's matrix: rows 0..63 are its upper half, rows 64..127 its lower half
  have h3 : ∀ k : Fin 64, val_main_v22 (F := Ideal) x7 (ridx_main_v23 (ix2 p q) (Fin.castAdd 64 k)) = wTop x7 0 (ix2 k q) := fun k => by
    rw [val_main_v22_apply, val_main_v21_apply]
    refine congrArg x7 (funext fun a => Fin.ext ?_)
    have hk := k.isLt
    have hq := q.isLt
    match a with
    | ⟨0, _⟩ => rfl
    | ⟨1, _⟩ => show (k.val * 64 + q.val) / 64 % 128 = k.val; omega
    | ⟨2, _⟩ => show (k.val * 64 + q.val) % 64 = q.val; omega
  have h4 : ∀ k : Fin 64, val_main_v22 (F := Ideal) x7 (ridx_main_v23 (ix2 p q) (Fin.natAdd 64 k)) = wBot x7 0 (ix2 k q) := fun k => by
    rw [val_main_v22_apply, val_main_v21_apply]
    refine congrArg x7 (funext fun a => Fin.ext ?_)
    have hk := k.isLt
    have hq := q.isLt
    match a with
    | ⟨0, _⟩ => rfl
    | ⟨1, _⟩ => show ((64 + k.val) * 64 + q.val) / 64 % 128 = 64 + k.val; omega
    | ⟨2, _⟩ => show ((64 + k.val) * 64 + q.val) % 64 = q.val; omega
  -- the bias row
  have hb : x8 (idx_main_v25 (idx_main_v26 (idx_main_v27 (idx_main_v28 (ix2 p q))))) = bRow x8 0 (ix2 0 q) := by
    refine congrArg x8 (funext fun a => Fin.ext ?_)
    have hq := q.isLt
    match a with
    | ⟨0, _⟩ => rfl
    | ⟨1, _⟩ => show q.val % 64 = q.val; omega
  rw [hb]
  exact pre_alg _ _ _ _ (fun k => x0 (ix2 p k)) (fun k => segArr 100000 (val_main_v16 (F := Ideal) x0 x1 x2 x5 x6) x3 (ix2 p k))
    (fun k => wTop x7 0 (ix2 k q)) (fun k => wBot x7 0 (ix2 k q)) h1 h2 h3 h4

/-- Round 0: the reference's node state after the round. -/
theorem upd0 :
    (val_main_v54 (F := Ideal) x0 x1 x2 x3 x5 x6 x7 x8 x9 x10 : Arr2 100000 64)
      = updArr x0 (segArr 100000 (val_main_v16 (F := Ideal) x0 x1 x2 x5 x6) x3)
          (wTop x7 0) (wBot x7 0) (bRow x8 0) (vRow x9) (vRow x10) := by
  funext i
  obtain ⟨p, q, rfl⟩ : ∃ p q, i = ix2 p q := ⟨i 0, i 1, eq_ix2 i⟩
  -- the pre-activation at any index, by its coordinates
  have hP : ∀ I : S100000x64.Idx, val_main_v30 (F := Ideal) x0 x1 x2 x3 x5 x6 x7 x8 I
      = preAt x0 (segArr 100000 (val_main_v16 (F := Ideal) x0 x1 x2 x5 x6) x3) (wTop x7 0) (wBot x7 0) (bRow x8 0) (I 0) (I 1) :=
    fun I => (congrArg _ (eq_ix2 I)).trans (pre0 x0 x1 x2 x3 x5 x6 x7 x8 (I 0) (I 1))
  simp only [val_main_v54_apply, val_main_v51_apply, val_main_v48_apply, val_main_v43_apply, val_main_v42_apply,
    val_main_v47_apply, val_main_v46_apply, val_main_v45_apply, val_main_v41_apply, val_main_v39_apply, val_main_v38_apply,
    val_main_v37_apply, val_main_v36_apply, val_main_v35_apply, val_main_v34_apply, val_main_v32_apply, val_main_v31_apply,
    val_main_v33_apply, val_main_v40_apply, val_main_v44_apply, val_main_cst_1_apply, val_main_cst_2_apply,
    val_main_cst_3_apply, val_main_cst_4_apply, val_main_cst_5_apply, val_main_v50_apply, val_main_v49_apply,
    val_main_v53_apply, val_main_v52_apply, hP]
  -- the scale and the shift, read as rows
  have e9 : x9 (idx_main_v49 (idx_main_v50 (ix2 p q))) = vRow x9 (ix2 0 q) :=
    congrArg x9 (funext fun a => by match a with | ⟨0, _⟩ => rfl)
  have e10 : x10 (idx_main_v52 (idx_main_v53 (ix2 p q))) = vRow x10 (ix2 0 q) :=
    congrArg x10 (funext fun a => by match a with | ⟨0, _⟩ => rfl)
  rw [e9, e10]
  simp only [Ideal.addf_def, Ideal.mulf_def, Ideal.subf_def, Ideal.hostDivf_def, Ideal.hostUnary_rsqrt_def, Ideal.ofBits_def,
    Ideal.ofBits_zero_f32]
  exact norm_alg (fun k => preAt x0 (segArr 100000 (val_main_v16 (F := Ideal) x0 x1 x2 x5 x6) x3) (wTop x7 0) (wBot x7 0) (bRow x8 0) p k)
    (fun k => vRow x9 (ix2 0 k)) (fun k => vRow x10 (ix2 0 k)) q

/-! ## Round 1 -/

/-- Round 1's segment sum. -/
theorem seg1 :
    val_main_v74 (F := Ideal) x0 x1 x2 x3 x5 x6 x7 x8 x9 x10 = segArr 100000 (val_main_v71 (F := Ideal) x0 x1 x2 x3 x5 x6 x7 x8 x9 x10) x3 :=
  seg_stage scatter_S100000x64_S1600000x1_S1600000x64_1_0_0_1 rfl rfl rfl rfl Facts₀.bcast_S_S100000x64 Facts₀.bcast_S1600000_S1600000x1_0
    (val_main_v71 (F := Ideal) x0 x1 x2 x3 x5 x6 x7 x8 x9 x10) x3

/-- Round 1's pre-activation, from the first round's state and the second round's pooled messages. -/
theorem pre1 (p : Fin 100000) (q : Fin 64) :
    val_main_v85 (F := Ideal) x0 x1 x2 x3 x5 x6 x7 x8 x9 x10 (ix2 p q)
      = preAt (val_main_v54 (F := Ideal) x0 x1 x2 x3 x5 x6 x7 x8 x9 x10) (segArr 100000 (val_main_v71 (F := Ideal) x0 x1 x2 x3 x5 x6 x7 x8 x9 x10) x3) (wTop x7 1) (wBot x7 1) (bRow x8 1) p q := by
  rw [val_main_v85_apply, val_main_v84_apply, val_main_v79_apply, val_main_v78_apply, val_main_call3_v0_apply,
    val_main_call3_cst_apply, val_main_v83_apply, val_main_v82_apply, val_main_v81_apply, val_main_v80_apply,
    Ideal.maximumf_def, Ideal.addf_def, Ideal.addf_def, Ideal.ofBits_def, Ideal.ofBits_zero_f32]
  -- the joined array's first 64 columns are the state's, its last 64 the pooled messages'
  have h1 : ∀ k : Fin 64, val_main_v75 (F := Ideal) x0 x1 x2 x3 x5 x6 x7 x8 x9 x10 (lidx_main_v78 (ix2 p q) (Fin.castAdd 64 k)) = (val_main_v54 (F := Ideal) x0 x1 x2 x3 x5 x6 x7 x8 x9 x10) (ix2 p k) :=
    fun k => concatenate_pair_apply_left 1 (val_main_v54 (F := Ideal) x0 x1 x2 x3 x5 x6 x7 x8 x9 x10) (val_main_v74 (F := Ideal) x0 x1 x2 x3 x5 x6 x7 x8 x9 x10)
      Facts₀.concatenates_S100000x64_S100000x64_S100000x128_d1 _ rfl (ix2 p k)
      (fun b => by match b with | ⟨0, _⟩ => rfl | ⟨1, _⟩ => rfl)
  have h2 : ∀ k : Fin 64, val_main_v75 (F := Ideal) x0 x1 x2 x3 x5 x6 x7 x8 x9 x10 (lidx_main_v78 (ix2 p q) (Fin.natAdd 64 k))
      = segArr 100000 (val_main_v71 (F := Ideal) x0 x1 x2 x3 x5 x6 x7 x8 x9 x10) x3 (ix2 p k) := fun k => by
    rw [← seg1]
    exact concatenate_pair_apply_right 1 (val_main_v54 (F := Ideal) x0 x1 x2 x3 x5 x6 x7 x8 x9 x10) (val_main_v74 (F := Ideal) x0 x1 x2 x3 x5 x6 x7 x8 x9 x10)
      Facts₀.concatenates_S100000x64_S100000x64_S100000x128_d1 _ rfl rfl (ix2 p k)
      (fun b hb => by match b, hb with | ⟨0, _⟩, _ => rfl | ⟨1, _⟩, hb => exact absurd rfl hb)
      (by show k.val + 64 = 64 + k.val; omega)
  -- the round's matrix: rows 0..63 are its upper half, rows 64..127 its lower half
  have h3 : ∀ k : Fin 64, val_main_v77 (F := Ideal) x7 (ridx_main_v78 (ix2 p q) (Fin.castAdd 64 k)) = wTop x7 1 (ix2 k q) := fun k => by
    rw [val_main_v77_apply, val_main_v76_apply]
    refine congrArg x7 (funext fun a => Fin.ext ?_)
    have hk := k.isLt
    have hq := q.isLt
    match a with
    | ⟨0, _⟩ => rfl
    | ⟨1, _⟩ => show (k.val * 64 + q.val) / 64 % 128 = k.val; omega
    | ⟨2, _⟩ => show (k.val * 64 + q.val) % 64 = q.val; omega
  have h4 : ∀ k : Fin 64, val_main_v77 (F := Ideal) x7 (ridx_main_v78 (ix2 p q) (Fin.natAdd 64 k)) = wBot x7 1 (ix2 k q) := fun k => by
    rw [val_main_v77_apply, val_main_v76_apply]
    refine congrArg x7 (funext fun a => Fin.ext ?_)
    have hk := k.isLt
    have hq := q.isLt
    match a with
    | ⟨0, _⟩ => rfl
    | ⟨1, _⟩ => show ((64 + k.val) * 64 + q.val) / 64 % 128 = 64 + k.val; omega
    | ⟨2, _⟩ => show ((64 + k.val) * 64 + q.val) % 64 = q.val; omega
  -- the bias row
  have hb : x8 (idx_main_v80 (idx_main_v81 (idx_main_v82 (idx_main_v83 (ix2 p q))))) = bRow x8 1 (ix2 0 q) := by
    refine congrArg x8 (funext fun a => Fin.ext ?_)
    have hq := q.isLt
    match a with
    | ⟨0, _⟩ => rfl
    | ⟨1, _⟩ => show q.val % 64 = q.val; omega
  rw [hb]
  exact pre_alg _ _ _ _ (fun k => (val_main_v54 (F := Ideal) x0 x1 x2 x3 x5 x6 x7 x8 x9 x10) (ix2 p k)) (fun k => segArr 100000 (val_main_v71 (F := Ideal) x0 x1 x2 x3 x5 x6 x7 x8 x9 x10) x3 (ix2 p k))
    (fun k => wTop x7 1 (ix2 k q)) (fun k => wBot x7 1 (ix2 k q)) h1 h2 h3 h4

/-- Round 1: the same from the first round's state and the second round's messages. -/
theorem upd1 :
    (val_main_v109 (F := Ideal) x0 x1 x2 x3 x5 x6 x7 x8 x9 x10 : Arr2 100000 64)
      = updArr (val_main_v54 (F := Ideal) x0 x1 x2 x3 x5 x6 x7 x8 x9 x10)
          (segArr 100000 (val_main_v71 (F := Ideal) x0 x1 x2 x3 x5 x6 x7 x8 x9 x10) x3)
          (wTop x7 1) (wBot x7 1) (bRow x8 1) (vRow x9) (vRow x10) := by
  funext i
  obtain ⟨p, q, rfl⟩ : ∃ p q, i = ix2 p q := ⟨i 0, i 1, eq_ix2 i⟩
  -- the pre-activation at any index, by its coordinates
  have hP : ∀ I : S100000x64.Idx, val_main_v85 (F := Ideal) x0 x1 x2 x3 x5 x6 x7 x8 x9 x10 I
      = preAt (val_main_v54 (F := Ideal) x0 x1 x2 x3 x5 x6 x7 x8 x9 x10) (segArr 100000 (val_main_v71 (F := Ideal) x0 x1 x2 x3 x5 x6 x7 x8 x9 x10) x3) (wTop x7 1) (wBot x7 1) (bRow x8 1) (I 0) (I 1) :=
    fun I => (congrArg _ (eq_ix2 I)).trans (pre1 x0 x1 x2 x3 x5 x6 x7 x8 x9 x10 (I 0) (I 1))
  simp only [val_main_v109_apply, val_main_v106_apply, val_main_v103_apply, val_main_v98_apply, val_main_v97_apply,
    val_main_v102_apply, val_main_v101_apply, val_main_v100_apply, val_main_v96_apply, val_main_v94_apply, val_main_v93_apply,
    val_main_v92_apply, val_main_v91_apply, val_main_v90_apply, val_main_v89_apply, val_main_v87_apply, val_main_v86_apply,
    val_main_v88_apply, val_main_v95_apply, val_main_v99_apply, val_main_cst_9_apply, val_main_cst_10_apply,
    val_main_cst_11_apply, val_main_cst_12_apply, val_main_cst_13_apply, val_main_v105_apply, val_main_v104_apply,
    val_main_v108_apply, val_main_v107_apply, hP]
  -- the scale and the shift, read as rows
  have e9 : x9 (idx_main_v104 (idx_main_v105 (ix2 p q))) = vRow x9 (ix2 0 q) :=
    congrArg x9 (funext fun a => by match a with | ⟨0, _⟩ => rfl)
  have e10 : x10 (idx_main_v107 (idx_main_v108 (ix2 p q))) = vRow x10 (ix2 0 q) :=
    congrArg x10 (funext fun a => by match a with | ⟨0, _⟩ => rfl)
  rw [e9, e10]
  simp only [Ideal.addf_def, Ideal.mulf_def, Ideal.subf_def, Ideal.hostDivf_def, Ideal.hostUnary_rsqrt_def, Ideal.ofBits_def,
    Ideal.ofBits_zero_f32]
  exact norm_alg (fun k => preAt (val_main_v54 (F := Ideal) x0 x1 x2 x3 x5 x6 x7 x8 x9 x10) (segArr 100000 (val_main_v71 (F := Ideal) x0 x1 x2 x3 x5 x6 x7 x8 x9 x10) x3) (wTop x7 1) (wBot x7 1) (bRow x8 1) p k)
    (fun k => vRow x9 (ix2 0 k)) (fun k => vRow x10 (ix2 0 k)) q

end Cert.RefV

end
-- ==== Proof.RefPool.lean ====
/-
  The reference's pooling: the node rows added up per graph, the ones added up per graph (the graph sizes), and the
  quotient of each sum by its size, at least 1: the specification's pooling of the second round's state.
-/
import proofs.«409774_j1357209666175_2_alg».proof.Proof.ReadP
import proofs.«409774_j1357209666175_2_alg».proof.Proof.Spec
import proofs.«409774_j1357209666175_2_alg».proof.Proof.StageOps
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

open scoped BigOperators

namespace Cert.RefV

open Cert.ReferenceIdeal Cert.ReferenceIdeal.Read Cert.Gnn
open Idealize.ShloMosaic Idealize.ShloMosaic.ValueIdx

variable (x0 : Arr2 100000 64) (x1 : Arr2 1600000 64) (x2 x3 : Wrd1 1600000) (x4 : Wrd1 100000)
  (x5 : Arr3 2 128 64) (x6 : Arr2 2 64) (x7 : Arr3 2 128 64) (x8 : Arr2 2 64) (x9 x10 : Arr1 64)

theorem pool :
    (val_main_v121 (F := Ideal) x0 x1 x2 x3 x4 x5 x6 x7 x8 x9 x10 : Arr2 16 64)
      = poolArr (val_main_v109 (F := Ideal) x0 x1 x2 x3 x5 x6 x7 x8 x9 x10) x4 := by
  funext i
  obtain ⟨g, j, rfl⟩ : ∃ p q, i = ix2 p q := ⟨i 0, i 1, eq_ix2 i⟩
  -- the quotient at (g, j): the summed rows at (g, j) over the larger of the count at g and the word one
  rw [val_main_v121_apply, val_main_v120_apply, val_main_v119_apply, val_main_v118_apply, val_main_v117_apply,
    val_main_cst_17_apply]
  -- the two broadcasts read the vector of 16 at g
  have hidx : idx_main_v119 (idx_main_v120 (ix2 g j)) = ix1 g :=
    funext fun a => Fin.ext (by match a with | ⟨0, _⟩ => rfl)
  rw [hidx]
  -- the rows added up per graph are the specification's segment sum into 16
  have hsum : val_main_v116 (F := Ideal) x0 x1 x2 x3 x4 x5 x6 x7 x8 x9 x10
      = segArr 16 (val_main_v109 (F := Ideal) x0 x1 x2 x3 x5 x6 x7 x8 x9 x10) x4 :=
    poolsum_stage scatter_S16x64_S100000x1_S100000x64_1_0_0_1 rfl rfl rfl rfl
      Cert.ReferenceIdeal.Gen.bcast_S_S16x64 Cert.ReferenceIdeal.Gen.bcast_S100000_S100000x1_0
      (val_main_v109 (F := Ideal) x0 x1 x2 x3 x5 x6 x7 x8 x9 x10) x4
  -- the ones added up per graph are the specification's count
  have hcnt : val_main_v113 (F := Ideal) x4 (ix1 g) = cntAt x4 g :=
    poolcnt_stage scatter_S16_S100000x1_S100000_n_0_0_1 rfl rfl rfl rfl
      Cert.ReferenceIdeal.Gen.bcast_S_S16 Cert.ReferenceIdeal.Gen.bcast_S_S100000 Cert.ReferenceIdeal.Gen.bcast_S100000_S100000x1_0 x4 g
  rw [hsum, hcnt, Ideal.hostDivf_def, Ideal.maximumf_def, Ideal.ofBits_def, Ideal.ofBits_one_f32]
  rfl

end Cert.RefV

end
-- ==== Proof.RefRun.lean ====
/-
  The reference's run, read stage by stage. Its @main is a straight line of 150 host operations; every weakly fair
  execution performs them in order and terminates, so the final memory is the operations' fold over the launch memory.
  Read at the result buffer, that fold is the last stage — the quotient of the per-graph sums by the graph sizes — of the
  stages before it, and so on back to the arguments; no operation writes an argument.

  The fold is evaluated in stretches, cut where one computed value is still to be read — the first layer's activation,
  its normalized features, the second layer's activation, its normalized features, the pooled result — and, in the
  second layer, also before each joining of two arrays side by side, where the first layer's features are still to be
  read as well. Each stretch is read over an arbitrary valuation at its entry that holds the previous cut's stages and
  the launch's arguments, so no stretch looks inside an earlier one.
-/
import proofs.«409774_j1357209666175_2_alg».proof.Proof.ReadP
import Idealize.ShloMosaic.Lib.StableHlo.Run

set_option maxRecDepth 16384

noncomputable section

open scoped BigOperators

namespace Cert.RefV

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ### Cutting the fold -/

/-- The fold over a list is the fold over what follows its first `n` operations, from where those arrive. -/
theorem after_split (l : List (HloOp τ sig (Elt F))) (n : ℕ) (V : Valuation τ sig (Elt F)) :
    after l V = after (l.drop n) (after (l.take n) V) := by
  rw [← after_append, List.take_append_drop]

/-- The fold over the first `n + k` operations is the fold over the next `k`, from where the first `n` arrive. -/
theorem after_take_add (l : List (HloOp τ sig (Elt F))) (n k : ℕ) (V : Valuation τ sig (Elt F)) :
    after (l.take (n + k)) V = after ((l.drop n).take k) (after (l.take n) V) := by
  rw [List.take_add, after_append]

/-! ### No operation writes an argument

Every operation writes one buffer, its own result, and the results are 150 distinct buffers none of which is an
argument. -/

/-- The result buffers of the 150 operations, one by one, are not the given buffer. -/
local macro "not_written" : tactic =>
  `(tactic| (refine List.forall_iff_forall_mem.mp ?_
             simp only [ops, List.Forall, nullary_writes, unary_writes, binary_writes, ternary_writes, reshape_writes,
               Finset.mem_singleton]
             repeat' apply And.intro
             all_goals exact devRef_ne_of_ne (by decide)))

theorem nw0 : ∀ op ∈ (ops (F := F)), (main_arg0 : DevRef τ sig) ∉ op.writes := by not_written
theorem nw1 : ∀ op ∈ (ops (F := F)), (main_arg1 : DevRef τ sig) ∉ op.writes := by not_written
theorem nw2 : ∀ op ∈ (ops (F := F)), (main_arg2 : DevRef τ sig) ∉ op.writes := by not_written
theorem nw3 : ∀ op ∈ (ops (F := F)), (main_arg3 : DevRef τ sig) ∉ op.writes := by not_written
theorem nw4 : ∀ op ∈ (ops (F := F)), (main_arg4 : DevRef τ sig) ∉ op.writes := by not_written
theorem nw5 : ∀ op ∈ (ops (F := F)), (main_arg5 : DevRef τ sig) ∉ op.writes := by not_written
theorem nw6 : ∀ op ∈ (ops (F := F)), (main_arg6 : DevRef τ sig) ∉ op.writes := by not_written
theorem nw7 : ∀ op ∈ (ops (F := F)), (main_arg7 : DevRef τ sig) ∉ op.writes := by not_written
theorem nw8 : ∀ op ∈ (ops (F := F)), (main_arg8 : DevRef τ sig) ∉ op.writes := by not_written
theorem nw9 : ∀ op ∈ (ops (F := F)), (main_arg9 : DevRef τ sig) ∉ op.writes := by not_written
theorem nw10 : ∀ op ∈ (ops (F := F)), (main_arg10 : DevRef τ sig) ∉ op.writes := by not_written

/-- A buffer no operation writes holds, after any number of the operations, what it held at launch. -/
theorem keep_take {r : Ref sig .tc} (hr : ∀ op ∈ (ops (F := F)), (r : DevRef τ sig) ∉ op.writes) (n : ℕ)
    (V : Valuation τ sig (Elt F)) : after ((ops (F := F)).take n) V r = V r :=
  after_of_forall_not_mem _ _ fun op h => hr op (List.mem_of_mem_take h)

/-! ### The stages at the cuts, of a valuation's argument buffers -/

/-- The first layer's activation: the rectified sum of the node features, their update and the update's bias. -/
abbrev s30 (V : Valuation τ sig (Elt F)) :=
  val_main_v30 (F := F) (V main_arg0) (V main_arg1) (V main_arg2) (V main_arg3) (V main_arg5) (V main_arg6) (V main_arg7)
    (V main_arg8)
/-- The first layer's features: the activation normalized along each node's row, scaled and shifted. -/
abbrev s54 (V : Valuation τ sig (Elt F)) :=
  val_main_v54 (F := F) (V main_arg0) (V main_arg1) (V main_arg2) (V main_arg3) (V main_arg5) (V main_arg6) (V main_arg7)
    (V main_arg8) (V main_arg9) (V main_arg10)
/-- The first layer's features at each edge's source node. -/
abbrev s61 (V : Valuation τ sig (Elt F)) :=
  val_main_v61 (F := F) (V main_arg0) (V main_arg1) (V main_arg2) (V main_arg3) (V main_arg5) (V main_arg6) (V main_arg7)
    (V main_arg8) (V main_arg9) (V main_arg10)
/-- The second layer's messages summed per destination node. -/
abbrev s74 (V : Valuation τ sig (Elt F)) :=
  val_main_v74 (F := F) (V main_arg0) (V main_arg1) (V main_arg2) (V main_arg3) (V main_arg5) (V main_arg6) (V main_arg7)
    (V main_arg8) (V main_arg9) (V main_arg10)
/-- The second layer's activation, of the first layer's features. -/
abbrev s85 (V : Valuation τ sig (Elt F)) :=
  val_main_v85 (F := F) (V main_arg0) (V main_arg1) (V main_arg2) (V main_arg3) (V main_arg5) (V main_arg6) (V main_arg7)
    (V main_arg8) (V main_arg9) (V main_arg10)
/-- The second layer's features: its activation normalized, scaled and shifted. -/
abbrev s109 (V : Valuation τ sig (Elt F)) :=
  val_main_v109 (F := F) (V main_arg0) (V main_arg1) (V main_arg2) (V main_arg3) (V main_arg5) (V main_arg6) (V main_arg7)
    (V main_arg8) (V main_arg9) (V main_arg10)

/-! ### The stretches

Each reads the fold of its operations at the one buffer the next stretch needs: every operation's result at its own
buffer is its function of its operands' contents, and at another buffer what was there; the entry's contents are then
the previous stages and the arguments, and what is left is the stage's own definition, one operation at a time. A
joining of two arrays is read with its operands at the entry's contents, which is why the second layer is cut before
each of its two. -/

set_option maxHeartbeats 4000000 in
/-- Operations 1 to 38, from the launch: the messages of the first layer (the source node's features beside the edge's,
    through the message weights, rectified), their sums per destination node, the update and the activation. -/
theorem st1 (V : Valuation τ sig (Elt F)) : after ((ops (F := F)).take 38) V main_v30 = s30 V := by
  simp only [ops, List.take_succ_cons, List.take_zero]
  after_results_simp
  rfl

set_option maxHeartbeats 4000000 in
/-- Operations 39 to 67: the first layer's normalization. It reads the activation, three times, and the scale and
    shift. -/
theorem st2 (V W : Valuation τ sig (Elt F)) (h : W main_v30 = s30 V)
    (e9 : W main_arg9 = V main_arg9) (e10 : W main_arg10 = V main_arg10) :
    after (((ops (F := F)).drop 38).take 29) W main_v54 = s54 V := by
  simp only [ops, List.drop_succ_cons, List.drop_zero, List.take_succ_cons, List.take_zero]
  after_results_simp
  rw [h, e9, e10]
  rfl

set_option maxHeartbeats 4000000 in
/-- Operations 68 to 76: the first layer's features at each edge's source node (a negative index counted from the
    end). The features themselves are read, not written. -/
theorem st3a (V W : Valuation τ sig (Elt F)) (h : W main_v54 = s54 V) (e2 : W main_arg2 = V main_arg2) :
    after (((ops (F := F)).drop 67).take 9) W main_v61 = s61 V
      ∧ after (((ops (F := F)).drop 67).take 9) W main_v54 = s54 V := by
  simp only [ops, List.drop_succ_cons, List.drop_zero, List.take_succ_cons, List.take_zero]
  after_results_simp
  rw [h, e2]
  exact ⟨rfl, rfl⟩

set_option maxHeartbeats 4000000 in
/-- Operations 77 to 92: the second layer's messages — the gathered features beside the edge features, through the
    second message weights and bias, rectified — summed per destination node. -/
theorem st3b (V W : Valuation τ sig (Elt F)) (h : W main_v61 = s61 V) (k : W main_v54 = s54 V)
    (e1 : W main_arg1 = V main_arg1) (e3 : W main_arg3 = V main_arg3) (e5 : W main_arg5 = V main_arg5)
    (e6 : W main_arg6 = V main_arg6) :
    after (((ops (F := F)).drop 76).take 16) W main_v74 = s74 V
      ∧ after (((ops (F := F)).drop 76).take 16) W main_v54 = s54 V := by
  simp only [ops, List.drop_succ_cons, List.drop_zero, List.take_succ_cons, List.take_zero]
  after_results_simp
  rw [h, k, e1, e3, e5, e6]
  exact ⟨rfl, rfl⟩

set_option maxHeartbeats 4000000 in
/-- Operations 93 to 105: the second layer's update of the features beside the summed messages, the residual sum, the
    bias and the activation. -/
theorem st3c (V W : Valuation τ sig (Elt F)) (h : W main_v74 = s74 V) (k : W main_v54 = s54 V)
    (e7 : W main_arg7 = V main_arg7) (e8 : W main_arg8 = V main_arg8) :
    after (((ops (F := F)).drop 92).take 13) W main_v85 = s85 V := by
  simp only [ops, List.drop_succ_cons, List.drop_zero, List.take_succ_cons, List.take_zero]
  after_results_simp
  rw [h, k, e7, e8]
  rfl

set_option maxHeartbeats 4000000 in
/-- Operations 106 to 134: the second layer's normalization, as the first's. -/
theorem st4 (V W : Valuation τ sig (Elt F)) (h : W main_v85 = s85 V)
    (e9 : W main_arg9 = V main_arg9) (e10 : W main_arg10 = V main_arg10) :
    after (((ops (F := F)).drop 105).take 29) W main_v109 = s109 V := by
  simp only [ops, List.drop_succ_cons, List.drop_zero, List.take_succ_cons, List.take_zero]
  after_results_simp
  rw [h, e9, e10]
  rfl

set_option maxHeartbeats 4000000 in
/-- Operations 135 to 150: the pooling. The nodes of each graph are counted and their features summed, by the graph
    index array, and each sum is divided by the count, taken as at least one. -/
theorem st5 (V W : Valuation τ sig (Elt F)) (h : W main_v109 = s109 V) (e4 : W main_arg4 = V main_arg4) :
    after ((ops (F := F)).drop 134) W main_v121
      = val_main_v121 (F := F) (V main_arg0) (V main_arg1) (V main_arg2) (V main_arg3) (V main_arg4) (V main_arg5)
          (V main_arg6) (V main_arg7) (V main_arg8) (V main_arg9) (V main_arg10) := by
  simp only [ops, List.drop_succ_cons, List.drop_zero]
  after_results_simp
  rw [h, e4]
  rfl

/-! ### The chain -/

/-- After 67 operations the first layer's features are in place. -/
theorem at67 (V : Valuation τ sig (Elt F)) : after ((ops (F := F)).take (38 + 29)) V main_v54 = s54 V := by
  rw [after_take_add]
  exact st2 V _ (st1 V) (keep_take nw9 38 V) (keep_take nw10 38 V)

/-- After 76 operations the gathered features are in place, and the first layer's features still are. -/
theorem at76 (V : Valuation τ sig (Elt F)) :
    after ((ops (F := F)).take (67 + 9)) V main_v61 = s61 V ∧ after ((ops (F := F)).take (67 + 9)) V main_v54 = s54 V := by
  rw [after_take_add]
  exact st3a V _ (at67 V) (keep_take nw2 67 V)

/-- After 92 operations the summed messages are in place, and the first layer's features still are. -/
theorem at92 (V : Valuation τ sig (Elt F)) :
    after ((ops (F := F)).take (76 + 16)) V main_v74 = s74 V ∧ after ((ops (F := F)).take (76 + 16)) V main_v54 = s54 V := by
  rw [after_take_add]
  exact st3b V _ (at76 V).1 (at76 V).2 (keep_take nw1 76 V) (keep_take nw3 76 V) (keep_take nw5 76 V) (keep_take nw6 76 V)

/-- After 105 operations the second layer's activation is in place. -/
theorem at105 (V : Valuation τ sig (Elt F)) : after ((ops (F := F)).take (92 + 13)) V main_v85 = s85 V := by
  rw [after_take_add]
  exact st3c V _ (at92 V).1 (at92 V).2 (keep_take nw7 92 V) (keep_take nw8 92 V)

/-- After 134 operations the second layer's features are in place. -/
theorem at134 (V : Valuation τ sig (Elt F)) : after ((ops (F := F)).take (105 + 29)) V main_v109 = s109 V := by
  rw [after_take_add]
  exact st4 V _ (at105 V) (keep_take nw9 105 V) (keep_take nw10 105 V)

/-- After all the operations the result buffer holds the last stage of the launch's arguments. -/
theorem result (V : Valuation τ sig (Elt F)) :
    after (ops (F := F)) V main_v121
      = val_main_v121 (F := F) (V main_arg0) (V main_arg1) (V main_arg2) (V main_arg3) (V main_arg4) (V main_arg5)
          (V main_arg6) (V main_arg7) (V main_arg8) (V main_arg9) (V main_arg10) := by
  rw [after_split ops 134]
  exact st5 V _ (at134 V) (keep_take nw4 134 V)

/-- On every device, for any float values, from any memory with zero counters: every weakly fair execution of the
    reference's @main terminates with the result at its last stage of the arguments and the arguments unchanged. -/
theorem run_stage (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121) = val_main_v121 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v121).trans (result _),
      (h c main_arg0).trans (after_of_forall_not_mem _ _ nw0),
      (h c main_arg1).trans (after_of_forall_not_mem _ _ nw1),
      (h c main_arg2).trans (after_of_forall_not_mem _ _ nw2),
      (h c main_arg3).trans (after_of_forall_not_mem _ _ nw3),
      (h c main_arg4).trans (after_of_forall_not_mem _ _ nw4),
      (h c main_arg5).trans (after_of_forall_not_mem _ _ nw5),
      (h c main_arg6).trans (after_of_forall_not_mem _ _ nw6),
      (h c main_arg7).trans (after_of_forall_not_mem _ _ nw7),
      (h c main_arg8).trans (after_of_forall_not_mem _ _ nw8),
      (h c main_arg9).trans (after_of_forall_not_mem _ _ nw9),
      (h c main_arg10).trans (after_of_forall_not_mem _ _ nw10)⟩)
    (run_seq scopedRefs_eq scopedSems_eq defs main (fun _ => ops) main_eq (fun _ => ops_sub) m ρ)

end Cert.RefV

end
-- ==== Proof.RefValue.lean ====
/-
  The reference's program computes the specification: its last stage, through the stages before it (messages, segment
  sums and updates of two rounds, then the pooling), is the pooling of two rounds of the arguments, so every weakly fair
  execution ends with the result at that function of the arguments as launched.
-/
import proofs.«409774_j1357209666175_2_alg».proof.Proof.ReadP
import proofs.«409774_j1357209666175_2_alg».proof.Proof.Spec
import proofs.«409774_j1357209666175_2_alg».proof.Proof.RefMsg
import proofs.«409774_j1357209666175_2_alg».proof.Proof.RefUpd
import proofs.«409774_j1357209666175_2_alg».proof.Proof.RefPool
import proofs.«409774_j1357209666175_2_alg».proof.Proof.RefRun

set_option maxRecDepth 16384

noncomputable section

open scoped BigOperators

namespace Cert.RefV

open Cert.ReferenceIdeal Cert.ReferenceIdeal.Read Cert.Gnn
open Idealize.ShloMosaic Idealize.ShloMosaic.ValueIdx
open Idealize.ShloMosaic.TcCoe Idealize.SL.Sem

/-- The reference's last stage is the whole computation of its arguments. -/
theorem stage_value (x0 : Arr2 100000 64) (x1 : Arr2 1600000 64) (x2 x3 : Wrd1 1600000) (x4 : Wrd1 100000)
  (x5 : Arr3 2 128 64) (x6 : Arr2 2 64) (x7 : Arr3 2 128 64) (x8 : Arr2 2 64) (x9 x10 : Arr1 64) :
    (val_main_v121 (F := Ideal) x0 x1 x2 x3 x4 x5 x6 x7 x8 x9 x10 : Arr2 16 64) = G x0 x1 x2 x3 x4 x5 x6 x7 x8 x9 x10 := by
  rw [pool, upd1, msg1, upd0, msg0]
  rfl

/-- Every weakly fair execution of the reference's program terminates with the result at the specification's value of
    the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v121) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (stage_value _ _ _ _ _ _ _ _ _ _ _), (h c).2⟩) (run_stage (F := Ideal) m ρ)

end Cert.RefV

end
-- ==== Proof.lean ====
/-
  The kernel and the reference both compute, over the extended reals, the same function of their arguments: two rounds of
  message passing on a graph (gather the source rows, a dense layer with relu per edge, a segment sum into the target
  nodes, a residual dense layer with relu and a normalisation along the features per node), then the mean of the node
  rows per graph. The specification (Proof/Spec.lean) states that function entry by entry; the kernel's five regions and
  the host operations between them are read against it stage by stage (Proof/KMsg, KUpd, KPool for the regions;
  Proof/KHostA, KHostB, KHostC for what the host hands from one region to the next; Proof/KValue for the run), and so is the
  reference's program (Proof/RefMsg, RefUpd, RefPool, RefValue). The two differ only in how sums are arranged — the
  reference multiplies the joined 128 columns by one matrix where the kernel adds two products of 64, it groups
  (h + x) + b where the kernel has h + (x + b), and it adds rows up per graph where the kernel multiplies by a 0/1
  membership matrix block by block — and sums of extended reals may be split, regrouped and reordered, and 0 · x = 0.
  No law used needs the inputs to be finite, so the precondition is not opened.
  The kernel has no idealisation ledger entry, so `preserves` is trivial; the three frames are the programs' runs with
  the values dropped.
-/
import proofs.«409774_j1357209666175_2_alg».proof.Defs
import proofs.«409774_j1357209666175_2_alg».proof.Proof.Gen.Kernel
import proofs.«409774_j1357209666175_2_alg».proof.Proof.Gen.KernelIdeal
import proofs.«409774_j1357209666175_2_alg».proof.Proof.Gen.ReferenceIdeal
import proofs.«409774_j1357209666175_2_alg».proof.Proof.Gen.Pre_finite_inputs
import proofs.«409774_j1357209666175_2_alg».proof.Proof.KFrame
import proofs.«409774_j1357209666175_2_alg».proof.Proof.KIFrame
import proofs.«409774_j1357209666175_2_alg».proof.Proof.KValue
import proofs.«409774_j1357209666175_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RefV.run m ρ)

theorem preserves : Cert.preserves_Kernel_KernelIdeal := trivial

/-- From memories that agree on the arguments both programs end with the result at the specification's value of those
    arguments. -/
theorem algebraic : Cert.algebraic_KernelIdeal_ReferenceIdeal := by
  intro m ρ m' ρ' _ hagree
  refine ⟨_, Cert.KI.run m ρ, ?_⟩
  refine (θ_run Cert.ReferenceIdeal.defs _ _).mono (fun _ h c => ⟨(h c).1.trans ?_, (h c).2⟩)
    (Cert.RefV.run m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1,
    (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
